-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x5 : Shape := ⟨2, ![16384, 5]⟩
abbrev S131072x256 : Shape := ⟨2, ![131072, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S256x256 : Shape := ⟨2, ![256, 256]⟩
abbrev S1x512 : Shape := ⟨2, ![1, 512]⟩
abbrev S1 : Shape := ⟨1, ![1]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S512x256 .f32) (main_arg9 : FVec F S512 .f32) (main_arg10 : FVec F S1x512 .f32) (main_arg11 : FVec F S1 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1x512 .f32 := Host.absf main_arg10
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S512x256 .f32) (main_arg9 : FVec F S512 .f32) (main_arg10 : FVec F S1x512 .f32) (main_arg11 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : IVec S16384x5 32) (main_arg1 : FVec F S131072x256 .f32) (main_arg2 : FVec F S512x256 .f32) (main_arg3 : FVec F S512 .f32) (main_arg4 : FVec F S256x512 .f32) (main_arg5 : FVec F S256 .f32) (main_arg6 : FVec F S256x256 .f32) (main_arg7 : FVec F S256 .f32) (main_arg8 : FVec F S512x256 .f32) (main_arg9 : FVec F S512 .f32) (main_arg10 : FVec F S1x512 .f32) (main_arg11 : FVec F S1 .f32) : IVec S_ 1 :=
  let main_v0 : FVec F S131072x256 .f32 := Host.absf main_arg1
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_arg8 main_arg9 main_arg10 main_arg11 main_v13 main_v16
-- ==== Kernel.lean ====
abbrev S16384x5 : Shape := ⟨2, ![16384, 5]⟩
abbrev S131072x256 : Shape := ⟨2, ![131072, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S256x256 : Shape := ⟨2, ![256, 256]⟩
abbrev S1x512 : Shape := ⟨2, ![1, 512]⟩
abbrev S1 : Shape := ⟨1, ![1]⟩
abbrev S_ : Shape := ⟨0, ![]⟩
abbrev S16384x5x1 : Shape := ⟨3, ![16384, 5, 1]⟩
abbrev S16384x5x256 : Shape := ⟨3, ![16384, 5, 256]⟩
abbrev S81920x256 : Shape := ⟨2, ![81920, 256]⟩
abbrev S4096x256 : Shape := ⟨2, ![4096, 256]⟩
abbrev S4096x512 : Shape := ⟨2, ![4096, 512]⟩
abbrev S1x256 : Shape := ⟨2, ![1, 256]⟩
abbrev S16384x1 : Shape := ⟨2, ![16384, 1]⟩
abbrev S512x5x256 : Shape := ⟨3, ![512, 5, 256]⟩
abbrev S512x1 : Shape := ⟨2, ![512, 1]⟩
abbrev S512x1x256 : Shape := ⟨3, ![512, 1, 256]⟩
abbrev S512x512 : Shape := ⟨2, ![512, 512]⟩
abbrev S1x1 : Shape := ⟨2, ![1, 1]⟩

abbrev nBuf : Space → Nat
  | .hbm => 35
  | .vmem => 18
  | .smem => 0
  | _ => 0

abbrev bufTy : (tb : Table) → Fin (tcTables nBuf tb) → BufTy
  | .hbm, ⟨0, _⟩ => ⟨S16384x5, .i32⟩
  | .hbm, ⟨1, _⟩ => ⟨S131072x256, .f32⟩
  | .hbm, ⟨2, _⟩ => ⟨S512x256, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x256, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S_, .i32⟩
  | .hbm, ⟨13, _⟩ => ⟨S16384x5, .i32⟩
  | .hbm, ⟨14, _⟩ => ⟨S16384x5, .i1⟩
  | .hbm, ⟨15, _⟩ => ⟨S_, .i32⟩
  | .hbm, ⟨16, _⟩ => ⟨S16384x5, .i32⟩
  | .hbm, ⟨17, _⟩ => ⟨S16384x5, .i32⟩
  | .hbm, ⟨18, _⟩ => ⟨S16384x5, .i32⟩
  | .hbm, ⟨19, _⟩ => ⟨S16384x5x1, .i32⟩
  | .hbm, ⟨20, _⟩ => ⟨S16384x5x256, .f32⟩
  | .hbm, ⟨21, _⟩ => ⟨S81920x256, .f32⟩
  | .hbm, ⟨22, _⟩ => ⟨S81920x256, .bf16⟩
  | .hbm, ⟨23, _⟩ => ⟨S256x512, .f32⟩
  | .hbm, ⟨24, _⟩ => ⟨S256x512, .bf16⟩
  | .hbm, ⟨25, _⟩ => ⟨S512x256, .f32⟩
  | .hbm, ⟨26, _⟩ => ⟨S512x256, .bf16⟩
  | .hbm, ⟨27, _⟩ => ⟨S256x256, .f32⟩
  | .hbm, ⟨28, _⟩ => ⟨S256x256, .bf16⟩
  | .hbm, ⟨29, _⟩ => ⟨S256x512, .f32⟩
  | .hbm, ⟨30, _⟩ => ⟨S256x512, .bf16⟩
  | .hbm, ⟨31, _⟩ => ⟨S1x512, .bf16⟩
  | .hbm, ⟨32, _⟩ => ⟨S81920x256, .bf16⟩
  | .hbm, ⟨33, _⟩ => ⟨S16384x5x256, .bf16⟩
  | .hbm, ⟨34, _⟩ => ⟨S16384x1, .f32⟩
  | .local _ .vmem, ⟨0, _⟩ => ⟨S4096x256, .bf16⟩
  | .local _ .vmem, ⟨1, _⟩ => ⟨S4096x256, .bf16⟩
  | .local _ .vmem, ⟨2, _⟩ => ⟨S256x512, .bf16⟩
  | .local _ .vmem, ⟨3, _⟩ => ⟨S512, .f32⟩
  | .local _ .vmem, ⟨4, _⟩ => ⟨S512x256, .bf16⟩
  | .local _ .vmem, ⟨5, _⟩ => ⟨S256, .f32⟩
  | .local _ .vmem, ⟨6, _⟩ => ⟨S4096x256, .bf16⟩
  | .local _ .vmem, ⟨7, _⟩ => ⟨S4096x256, .bf16⟩
  | .local _ .vmem, ⟨8, _⟩ => ⟨S512x5x256, .bf16⟩
  | .local _ .vmem, ⟨9, _⟩ => ⟨S512x5x256, .bf16⟩
  | .local _ .vmem, ⟨10, _⟩ => ⟨S256x256, .bf16⟩
  | .local _ .vmem, ⟨11, _⟩ => ⟨S256, .f32⟩
  | .local _ .vmem, ⟨12, _⟩ => ⟨S256x512, .bf16⟩
  | .local _ .vmem, ⟨13, _⟩ => ⟨S512, .f32⟩
  | .local _ .vmem, ⟨14, _⟩ => ⟨S1x512, .bf16⟩
  | .local _ .vmem, ⟨15, _⟩ => ⟨S1, .f32⟩
  | .local _ .vmem, ⟨16, _⟩ => ⟨S512x1, .f32⟩
  | .local _ .vmem, ⟨17, _⟩ => ⟨S512x1, .f32⟩
  | _, _ => ⟨S16384x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x5x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  shapeCasts_S16384x5x256_S81920x256 : S16384x5x256.ShapeCasts S81920x256
  bitsLt_bf16_f32 : FTy.bits .bf16 < FTy.bits .f32
  transposes_S512x256_S256x512_1_0 : S512x256.Transposes [1, 0] S256x512
  transposes_S256x512_S512x256_1_0 : S256x512.Transposes [1, 0] S512x256
  transposes_S256x256_S256x256_1_0 : S256x256.Transposes [1, 0] S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S512_S1x512 : S512.ShapeCasts S1x512
  broadcasts_S1x512_S4096x512 : S1x512.Broadcasts S4096x512
  shapeCasts_S256_S1x256 : S256.ShapeCasts S1x256
  broadcasts_S1x256_S4096x256 : S1x256.Broadcasts S4096x256
  packedbf16_S4096x256_S4096x256_0_0 : (Rect.unit (s := S4096x256) ![0, 0] S4096x256.size inb_S4096x256_S4096x256_0_0).PackedRows (EltTy.packing .bf16)
  shapeCasts_S81920x256_S16384x5x256 : S81920x256.ShapeCasts S16384x5x256
  inb_S512x5x256_S512x5x256_0_0_0 : ∀ a, (![0, 0, 0] : Fin 3 → Nat) a + S512x5x256.size a ≤ S512x5x256.size a
  h_S512x5x256 : 0 < S512x5x256.numel
  shapeCasts_S512x5x256_S512x5x256 : S512x5x256.ShapeCasts S512x5x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1_S1_0 : ∀ a, (![0] : Fin 1 → Nat) a + S1.size a ≤ S1.size a
  h_S1 : 0 < S1.numel
  slices_S512x5x256_o0_0_0_S512x1x256 : S512x5x256.Slices ![0, 0, 0] S512x1x256
  shapeCasts_S512x1x256_S512x256 : S512x1x256.ShapeCasts S512x256
  broadcasts_S1x256_S512x256 : S1x256.Broadcasts S512x256
  slices_S512x5x256_o0_1_0_S512x1x256 : S512x5x256.Slices ![0, 1, 0] S512x1x256
  reduces_S512x256_S512 : S512x256.Reduces [1] S512
  shapeCasts_S512_S512x1 : S512.ShapeCasts S512x1
  broadcasts_S1x512_S512x512 : S1x512.Broadcasts S512x512
  reduces_S512x512_S512 : S512x512.Reduces [1] S512
  shapeCasts_S1_S1x1 : S1.ShapeCasts S1x1
  broadcasts_S1x1_S512x1 : S1x1.Broadcasts S512x1
  slices_S512x5x256_o0_2_0_S512x1x256 : S512x5x256.Slices ![0, 2, 0] S512x1x256
  slices_S512x5x256_o0_3_0_S512x1x256 : S512x5x256.Slices ![0, 3, 0] S512x1x256
  slices_S512x5x256_o0_4_0_S512x1x256 : S512x5x256.Slices ![0, 4, 0] S512x1x256
  inb_S512x1_S512x1_0_0 : ∀ a, (![0, 0] : Fin 2 → Nat) a + S512x1.size a ≤ S512x1.size a
  h_S512x1 : 0 < S512x1.numel
  gather_S131072x256_S16384x5x1_S16384x5x256_2_0_n_n_0_2_1256_wf : GatherDims.WF S131072x256 S16384x5x1 S16384x5x256 [2] [0] [] [0] [] 2 ![1, 256]
  dot_S4096x256_S256x512_S4096x512_1_0_0_1_n_n_wf : DotDims.WF S4096x256 S256x512 S4096x512 [1] [0] [0] [1] [] []
  dot_S4096x512_S512x256_S4096x256_1_0_0_1_n_n_wf : DotDims.WF S4096x512 S512x256 S4096x256 [1] [0] [0] [1] [] []
  dot_S512x256_S256x256_S512x256_1_0_0_1_n_n_wf : DotDims.WF S512x256 S256x256 S512x256 [1] [0] [0] [1] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S81920x256.size a
  hwx0_0 : ∀ i : grid0.Coords, EltTy.bits .bf16 = 32 ∨ (Rect.block (s := S81920x256) S4096x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S81920x256.size a
  hwx0_5 : ∀ i : grid0.Coords, EltTy.bits .bf16 = 32 ∨ (Rect.block (s := S81920x256) S4096x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x5x256.size a ≤ S16384x5x256.size a
  hwx1_0 : ∀ i : grid1.Coords, EltTy.bits .bf16 = 32 ∨ (Rect.block (s := S16384x5x256) S512x5x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .bf16 = 32 ∨ (Rect.block (s := S256x512) S256x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .bf16 = 32 ∨ (Rect.block (s := S1x512) S1x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S16384x1.size a
  hwx1_7 : ∀ i : grid1.Coords, EltTy.bits .f32 = 32 ∨ (Rect.block (s := S16384x1) S512x1.size (cc1_transform_7 i) (hinb1_7 i)).WholeWords (EltTy.packing .f32)

variable [Facts₀]

def gather_S131072x256_S16384x5x1_S16384x5x256_2_0_n_n_0_2_1256 : GatherDims S131072x256 S16384x5x1 S16384x5x256 where
  offsetDims := [2]
  collapsedSliceDims := [0]
  operandBatchingDims := []
  startIndicesBatchingDims := []
  startIndexMap := [0]
  indexVectorDim := 2
  sliceSizes := ![1, 256]
  wf := gather_S131072x256_S16384x5x1_S16384x5x256_2_0_n_n_0_2_1256_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v8) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S512x5x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16384x5 : Shape := ⟨2, ![16384, 5]⟩
abbrev S131072x256 : Shape := ⟨2, ![131072, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S256x256 : Shape := ⟨2, ![256, 256]⟩
abbrev S1x512 : Shape := ⟨2, ![1, 512]⟩
abbrev S1 : Shape := ⟨1, ![1]⟩
abbrev S20 : Shape := ⟨1, ![20]⟩
abbrev S_ : Shape := ⟨0, ![]⟩
abbrev S16384x5x1 : Shape := ⟨3, ![16384, 5, 1]⟩
abbrev S16384x5x256 : Shape := ⟨3, ![16384, 5, 256]⟩
abbrev S16384x5x512 : Shape := ⟨3, ![16384, 5, 512]⟩
abbrev S1x1x512 : Shape := ⟨3, ![1, 1, 512]⟩
abbrev S1x1x256 : Shape := ⟨3, ![1, 1, 256]⟩
abbrev S20x1 : Shape := ⟨2, ![20, 1]⟩
abbrev S16384x20x256 : Shape := ⟨3, ![16384, 20, 256]⟩
abbrev S16384x20x512 : Shape := ⟨3, ![16384, 20, 512]⟩
abbrev S16384x20x1 : Shape := ⟨3, ![16384, 20, 1]⟩
abbrev S1x1x1 : Shape := ⟨3, ![1, 1, 1]⟩
abbrev S16384x20 : Shape := ⟨2, ![16384, 20]⟩
abbrev S16384x5x4 : Shape := ⟨3, ![16384, 5, 4]⟩
abbrev S16384 : Shape := ⟨1, ![16384]⟩
abbrev S16384x1 : Shape := ⟨2, ![16384, 1]⟩

abbrev nBuf : Space → Nat
  | .hbm => 100
  | .vmem => 0
  | .smem => 0
  | _ => 0

abbrev bufTy : (tb : Table) → Fin (tcTables nBuf tb) → BufTy
  | .hbm, ⟨0, _⟩ => ⟨S16384x5, .i32⟩
  | .hbm, ⟨1, _⟩ => ⟨S131072x256, .f32⟩
  | .hbm, ⟨2, _⟩ => ⟨S512x256, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x256, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S20, .i32⟩
  | .hbm, ⟨13, _⟩ => ⟨S20, .i1⟩
  | .hbm, ⟨14, _⟩ => ⟨S20, .i32⟩
  | .hbm, ⟨15, _⟩ => ⟨S20, .i1⟩
  | .hbm, ⟨16, _⟩ => ⟨S_, .i32⟩
  | .hbm, ⟨17, _⟩ => ⟨S16384x5, .i32⟩
  | .hbm, ⟨18, _⟩ => ⟨S16384x5, .i1⟩
  | .hbm, ⟨19, _⟩ => ⟨S_, .i32⟩
  | .hbm, ⟨20, _⟩ => ⟨S16384x5, .i32⟩
  | .hbm, ⟨21, _⟩ => ⟨S16384x5, .i32⟩
  | .hbm, ⟨22, _⟩ => ⟨S16384x5, .i32⟩
  | .hbm, ⟨23, _⟩ => ⟨S16384x5x1, .i32⟩
  | .hbm, ⟨24, _⟩ => ⟨S16384x5x256, .f32⟩
  | .hbm, ⟨25, _⟩ => ⟨S16384x5x512, .f32⟩
  | .hbm, ⟨26, _⟩ => ⟨S1x1x512, .f32⟩
  | .hbm, ⟨27, _⟩ => ⟨S16384x5x512, .f32⟩
  | .hbm, ⟨28, _⟩ => ⟨S16384x5x512, .f32⟩
  | .hbm, ⟨29, _⟩ => ⟨S16384x5x512, .f32⟩
  | .hbm, ⟨30, _⟩ => ⟨S16384x5x512, .f32⟩
  | .hbm, ⟨31, _⟩ => ⟨S_, .f32⟩
  | .hbm, ⟨32, _⟩ => ⟨S16384x5x512, .f32⟩
  | .hbm, ⟨33, _⟩ => ⟨S16384x5x512, .f32⟩
  | .hbm, ⟨34, _⟩ => ⟨S_, .f32⟩
  | .hbm, ⟨35, _⟩ => ⟨S16384x5x512, .f32⟩
  | .hbm, ⟨36, _⟩ => ⟨S16384x5x512, .f32⟩
  | .hbm, ⟨37, _⟩ => ⟨S16384x5x512, .f32⟩
  | .hbm, ⟨38, _⟩ => ⟨S16384x5x256, .f32⟩
  | .hbm, ⟨39, _⟩ => ⟨S1x1x256, .f32⟩
  | .hbm, ⟨40, _⟩ => ⟨S16384x5x256, .f32⟩
  | .hbm, ⟨41, _⟩ => ⟨S16384x5x256, .f32⟩
  | .hbm, ⟨42, _⟩ => ⟨S_, .i32⟩
  | .hbm, ⟨43, _⟩ => ⟨S20, .i32⟩
  | .hbm, ⟨44, _⟩ => ⟨S20, .i32⟩
  | .hbm, ⟨45, _⟩ => ⟨S20, .i32⟩
  | .hbm, ⟨46, _⟩ => ⟨S20x1, .i32⟩
  | .hbm, ⟨47, _⟩ => ⟨S16384x20x256, .f32⟩
  | .hbm, ⟨48, _⟩ => ⟨S_, .i32⟩
  | .hbm, ⟨49, _⟩ => ⟨S20, .i32⟩
  | .hbm, ⟨50, _⟩ => ⟨S20, .i32⟩
  | .hbm, ⟨51, _⟩ => ⟨S20, .i32⟩
  | .hbm, ⟨52, _⟩ => ⟨S20x1, .i32⟩
  | .hbm, ⟨53, _⟩ => ⟨S16384x20x256, .f32⟩
  | .hbm, ⟨54, _⟩ => ⟨S16384x20x256, .f32⟩
  | .hbm, ⟨55, _⟩ => ⟨S16384x20x512, .f32⟩
  | .hbm, ⟨56, _⟩ => ⟨S1x1x512, .f32⟩
  | .hbm, ⟨57, _⟩ => ⟨S16384x20x512, .f32⟩
  | .hbm, ⟨58, _⟩ => ⟨S16384x20x512, .f32⟩
  | .hbm, ⟨59, _⟩ => ⟨S16384x20x512, .f32⟩
  | .hbm, ⟨60, _⟩ => ⟨S16384x20x512, .f32⟩
  | .hbm, ⟨61, _⟩ => ⟨S_, .f32⟩
  | .hbm, ⟨62, _⟩ => ⟨S16384x20x512, .f32⟩
  | .hbm, ⟨63, _⟩ => ⟨S16384x20x512, .f32⟩
  | .hbm, ⟨64, _⟩ => ⟨S_, .f32⟩
  | .hbm, ⟨65, _⟩ => ⟨S16384x20x512, .f32⟩
  | .hbm, ⟨66, _⟩ => ⟨S16384x20x512, .f32⟩
  | .hbm, ⟨67, _⟩ => ⟨S16384x20x512, .f32⟩
  | .hbm, ⟨68, _⟩ => ⟨S16384x20x1, .f32⟩
  | .hbm, ⟨69, _⟩ => ⟨S1x1x1, .f32⟩
  | .hbm, ⟨70, _⟩ => ⟨S16384x20x1, .f32⟩
  | .hbm, ⟨71, _⟩ => ⟨S16384x20x1, .f32⟩
  | .hbm, ⟨72, _⟩ => ⟨S16384x20, .f32⟩
  | .hbm, ⟨73, _⟩ => ⟨S16384x20x256, .f32⟩
  | .hbm, ⟨74, _⟩ => ⟨S1x1x256, .f32⟩
  | .hbm, ⟨75, _⟩ => ⟨S16384x20x256, .f32⟩
  | .hbm, ⟨76, _⟩ => ⟨S16384x20x256, .f32⟩
  | .hbm, ⟨77, _⟩ => ⟨S16384x20x256, .f32⟩
  | .hbm, ⟨78, _⟩ => ⟨S_, .f32⟩
  | .hbm, ⟨79, _⟩ => ⟨S16384x20, .f32⟩
  | .hbm, ⟨80, _⟩ => ⟨S16384x5x4, .f32⟩
  | .hbm, ⟨81, _⟩ => ⟨S_, .f32⟩
  | .hbm, ⟨82, _⟩ => ⟨S16384x5, .f32⟩
  | .hbm, ⟨83, _⟩ => ⟨S_, .f32⟩
  | .hbm, ⟨84, _⟩ => ⟨S16384x5, .f32⟩
  | .hbm, ⟨85, _⟩ => ⟨S16384x5, .f32⟩
  | .hbm, ⟨86, _⟩ => ⟨S16384x5x1, .f32⟩
  | .hbm, ⟨87, _⟩ => ⟨S16384x5x4, .f32⟩
  | .hbm, ⟨88, _⟩ => ⟨S16384x5x4, .f32⟩
  | .hbm, ⟨89, _⟩ => ⟨S16384x5x4, .f32⟩
  | .hbm, ⟨90, _⟩ => ⟨S_, .f32⟩
  | .hbm, ⟨91, _⟩ => ⟨S16384x5, .f32⟩
  | .hbm, ⟨92, _⟩ => ⟨S16384x5x1, .f32⟩
  | .hbm, ⟨93, _⟩ => ⟨S16384x5x4, .f32⟩
  | .hbm, ⟨94, _⟩ => ⟨S16384x5x4, .f32⟩
  | .hbm, ⟨95, _⟩ => ⟨S16384x20, .f32⟩
  | .hbm, ⟨96, _⟩ => ⟨S16384x20, .f32⟩
  | .hbm, ⟨97, _⟩ => ⟨S_, .f32⟩
  | .hbm, ⟨98, _⟩ => ⟨S16384, .f32⟩
  | .hbm, ⟨99, _⟩ => ⟨S16384x1, .f32⟩
  | _, _ => ⟨S16384x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_c_3 : Ref sig .tc := ⟨.hbm, 16, rfl⟩
abbrev main_v0 : Ref sig .tc := ⟨.hbm, 17, rfl⟩
abbrev main_v1 : Ref sig .tc := ⟨.hbm, 18, rfl⟩
abbrev main_c_4 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_6 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst : Ref sig .tc := ⟨.hbm, 78, rfl⟩
abbrev main_v42 : Ref sig .tc := ⟨.hbm, 79, rfl⟩
abbrev main_v43 : Ref sig .tc := ⟨.hbm, 80, rfl⟩
abbrev main_cst_7 : Ref sig .tc := ⟨.hbm, 81, rfl⟩
abbrev main_v44 : Ref sig .tc := ⟨.hbm, 82, rfl⟩
abbrev main_cst_8 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_10 : Ref sig .tc := ⟨.hbm, 97, rfl⟩
abbrev main_v57 : Ref sig .tc := ⟨.hbm, 98, rfl⟩
abbrev main_v58 : Ref sig .tc := ⟨.hbm, 99, rfl⟩

abbrev nD : Nat := 1
abbrev τ : Topo := Topo.v7x

variable {F : FTy → Type} [FloatOps F]

class Facts₀ : Prop where
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  bcast_S512_S1x1x512_2 : S512.BroadcastsInDim S1x1x512 (![2] : Fin 1 → Fin S1x1x512.rank)
  bcast_S1x1x512_S16384x5x512_0_1_2 : S1x1x512.BroadcastsInDim S16384x5x512 (![0, 1, 2] : Fin 3 → Fin S16384x5x512.rank)
  bcast_S_S16384x5x512 : S_.BroadcastsInDim S16384x5x512 (![] : Fin 0 → Fin S16384x5x512.rank)
  bcast_S256_S1x1x256_2 : S256.BroadcastsInDim S1x1x256 (![2] : Fin 1 → Fin S1x1x256.rank)
  bcast_S1x1x256_S16384x5x256_0_1_2 : S1x1x256.BroadcastsInDim S16384x5x256 (![0, 1, 2] : Fin 3 → Fin S16384x5x256.rank)
  bcast_S_S20 : S_.BroadcastsInDim S20 (![] : Fin 0 → Fin S20.rank)
  bcast_S20_S20x1_0 : S20.BroadcastsInDim S20x1 (![0] : Fin 1 → Fin S20x1.rank)
  bcast_S1x1x512_S16384x20x512_0_1_2 : S1x1x512.BroadcastsInDim S16384x20x512 (![0, 1, 2] : Fin 3 → Fin S16384x20x512.rank)
  bcast_S_S16384x20x512 : S_.BroadcastsInDim S16384x20x512 (![] : Fin 0 → Fin S16384x20x512.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  shapeCasts_S16384x20x1_S16384x20 : S16384x20x1.ShapeCasts S16384x20
  bcast_S1x1x256_S16384x20x256_0_1_2 : S1x1x256.BroadcastsInDim S16384x20x256 (![0, 1, 2] : Fin 3 → Fin S16384x20x256.rank)
  reducesTo_S16384x20x256_S16384x20_d2 : S16384x20x256.ReducesTo [2] S16384x20
  h_S_ : 0 < S_.numel
  shapeCasts_S16384x20_S16384x5x4 : S16384x20.ShapeCasts S16384x5x4
  reducesTo_S16384x5x4_S16384x5_d2 : S16384x5x4.ReducesTo [2] S16384x5
  bcast_S16384x5x1_S16384x5x4_0_1_2 : S16384x5x1.BroadcastsInDim S16384x5x4 (![0, 1, 2] : Fin 3 → Fin S16384x5x4.rank)
  shapeCasts_S16384x5x4_S16384x20 : S16384x5x4.ShapeCasts S16384x20
  reducesTo_S16384x20_S16384_d1 : S16384x20.ReducesTo [1] S16384
  bcast_S16384_S16384x1_0 : S16384.BroadcastsInDim S16384x1 (![0] : Fin 1 → Fin S16384x1.rank)
  gather_S131072x256_S16384x5x1_S16384x5x256_2_0_n_n_0_2_1256_wf : GatherDims.WF S131072x256 S16384x5x1 S16384x5x256 [2] [0] [] [0] [] 2 ![1, 256]
  dot_S16384x5x256_S512x256_S16384x5x512_2_1_01_0_n_n_wf : DotDims.WF S16384x5x256 S512x256 S16384x5x512 [2] [1] [0, 1] [0] [] []
  dot_S16384x5x512_S256x512_S16384x5x256_2_1_01_0_n_n_wf : DotDims.WF S16384x5x512 S256x512 S16384x5x256 [2] [1] [0, 1] [0] [] []
  gather_S16384x5x256_S20x1_S16384x20x256_02_1_n_n_1_1_163841256_wf : GatherDims.WF S16384x5x256 S20x1 S16384x20x256 [0, 2] [1] [] [1] [] 1 ![16384, 1, 256]
  dot_S16384x20x256_S512x256_S16384x20x512_2_1_01_0_n_n_wf : DotDims.WF S16384x20x256 S512x256 S16384x20x512 [2] [1] [0, 1] [0] [] []
  dot_S16384x20x512_S1x512_S16384x20x1_2_1_01_0_n_n_wf : DotDims.WF S16384x20x512 S1x512 S16384x20x1 [2] [1] [0, 1] [0] [] []
  dot_S16384x20x256_S256x256_S16384x20x256_2_1_01_0_n_n_wf : DotDims.WF S16384x20x256 S256x256 S16384x20x256 [2] [1] [0, 1] [0] [] []

variable [Facts₀]

def gather_S131072x256_S16384x5x1_S16384x5x256_2_0_n_n_0_2_1256 : GatherDims S131072x256 S16384x5x1 S16384x5x256 where
  offsetDims := [2]
  collapsedSliceDims := [0]
  operandBatchingDims := []
  startIndicesBatchingDims := []
  startIndexMap := [0]
  indexVectorDim := 2
  sliceSizes := ![1, 256]
  wf := gather_S131072x256_S16384x5x1_S16384x5x256_2_0_n_n_0_2_1256_wf
def dot_S16384x5x256_S512x256_S16384x5x512_2_1_01_0_n_n : DotDims S16384x5x256 S512x256 S16384x5x512 where
  lhsContracting := [2]
  rhsContracting := [1]
  lhsNonContracting := [0, 1]
  rhsNonContracting := [0]
  lhsBatch := []
  rhsBatch := []
  wf := dot_S16384x5x256_S512x256_S16384x5x512_2_1_01_0_n_n_wf
def dot_S16384x5x512_S256x512_S16384x5x256_2_1_01_0_n_n : DotDims S16384x5x512 S256x512 S16384x5x256 where
  lhsContracting := [2]
  rhsContracting := [1]
  lhsNonContracting := [0, 1]
  rhsNonContracting := [0]
  lhsBatch := []
  rhsBatch := []
  wf := dot_S16384x5x512_S256x512_S16384x5x256_2_1_01_0_n_n_wf
def gather_S16384x5x256_S20x1_S16384x20x256_02_1_n_n_1_1_163841256 : GatherDims S16384x5x256 S20x1 S16384x20x256 where
  offsetDims := [0, 2]
  collapsedSliceDims := [1]
  operandBatchingDims := []
  startIndicesBatchingDims := []
  startIndexMap := [1]
  indexVectorDim := 1
  sliceSizes := ![16384, 1, 256]
  wf := gather_S16384x5x256_S20x1_S16384x20x256_02_1_n_n_1_1_163841256_wf
def dot_S16384x20x256_S512x256_S16384x20x512_2_1_01_0_n_n : DotDims S16384x20x256 S512x256 S16384x20x512 where
  lhsContracting := [2]
  rhsContracting := [1]
  lhsNonContracting := [0, 1]
  rhsNonContracting := [0]
  lhsBatch := []
  rhsBatch := []
  wf := dot_S16384x20x256_S512x256_S16384x20x512_2_1_01_0_n_n_wf
def dot_S16384x20x512_S1x512_S16384x20x1_2_1_01_0_n_n : DotDims S16384x20x512 S1x512 S16384x20x1 where
  lhsContracting := [2]
  rhsContracting := [1]
  lhsNonContracting := [0, 1]
  rhsNonContracting := [0]
  lhsBatch := []
  rhsBatch := []
  wf := dot_S16384x20x512_S1x512_S16384x20x1_2_1_01_0_n_n_wf
def dot_S16384x20x256_S256x256_S16384x20x256_2_1_01_0_n_n : DotDims S16384x20x256 S256x256 S16384x20x256 where
  lhsContracting := [2]
  rhsContracting := [1]
  lhsNonContracting := [0, 1]
  rhsNonContracting := [0]
  lhsBatch := []
  rhsBatch := []
  wf := dot_S16384x20x256_S256x256_S16384x20x256_2_1_01_0_n_n_wf

class Facts : Prop extends Facts₀ where

variable [Facts]
-- ==== Proof.Spec.lean ====
/-
  What both programs compute, one batch row at a time, on the extended reals.

  A row of the batch carries five embedding rows x t (t < 5, 256 entries each).  Each goes through the feature
  mapper  feat x = W₂ · silu (W₁ · x + b₁) + b₂  (silu z = z · σ(z), σ the logistic function), giving five feature
  rows h t.  For every ordered pair i ≠ j the attention score is  ⟨A · h i + a, h j⟩  and the pair's order is
  w₂ · silu (M₁ · (h i ⊙ h j) + c₁) + c₂.  For each i the four scores (j ≠ i) are turned into soft-max weights, and
  the row's result is the sum over the twenty ordered pairs of order × weight.

  The kernel forms a weight as  e · (1 / s)  (`pairK`), the reference as  e / s  (`pairR`), where e = exp (score − max)
  and s is the sum of the four e's; the two agree whenever s ≠ 0, which holds when the scores are finite.
  Matrices are given as curried entry functions so that either storage order plugs in.
-/
import Idealize.ShloMosaic.PureOps.Ideal
import Idealize.ShloMosaic.Lib.ValueIdx

noncomputable section

namespace Cert.Spec

open Idealize.ShloMosaic Idealize.ShloMosaic.ValueIdx

/-- silu z = z · σ(z). -/
def silu (z : EReal) : EReal := z * Ideal.logistic z

section Feat
variable (f1 : Fin 512 → Fin 256 → EReal) (fb1 : Fin 512 → EReal) (f2 : Fin 256 → Fin 512 → EReal) (fb2 : Fin 256 → EReal)

/-- The hidden layer's pre-activation: entry k of W₁ · x + b₁ (f1 k p = W₁[k, p]). -/
def hid (x : Fin 256 → EReal) (k : Fin 512) : EReal := (∑ p : Fin 256, x p * f1 k p) + fb1 k

/-- The feature mapper: entry o of W₂ · silu (W₁ · x + b₁) + b₂ (f2 o k = W₂[o, k]). -/
def feat (x : Fin 256 → EReal) (o : Fin 256) : EReal := (∑ k : Fin 512, silu (hid f1 fb1 x k) * f2 o k) + fb2 o
end Feat

section Pair
variable (aw : Fin 256 → Fin 256 → EReal) (ab : Fin 256 → EReal) (m1 : Fin 512 → Fin 256 → EReal) (mb1 : Fin 512 → EReal)
  (m2 : Fin 512 → EReal) (mb2 : EReal) (hf : Fin 5 → Fin 256 → EReal)

/-- Entry o of A · h i + a (aw o h = A[o, h]). -/
def wa (i : Fin 5) (o : Fin 256) : EReal := (∑ h : Fin 256, hf i h * aw o h) + ab o

/-- The attention score of the ordered pair (i, j): ⟨A · h i + a, h j⟩. -/
def score (i j : Fin 5) : EReal := ∑ o : Fin 256, wa aw ab hf i o * hf j o

/-- Entry m of M₁ · (h i ⊙ h j) + c₁ (m1 m h = M₁[m, h]). -/
def mlp (i j : Fin 5) (m : Fin 512) : EReal := (∑ h : Fin 256, (hf i h * hf j h) * m1 m h) + mb1 m

/-- The pair's order: w₂ · silu (M₁ · (h i ⊙ h j) + c₁) + c₂. -/
def order (i j : Fin 5) : EReal := (∑ m : Fin 512, silu (mlp m1 mb1 hf i j m) * m2 m) + mb2

/-- The k-th of the four indices other than i, in increasing order. -/
def oth (i : Fin 5) (k : Fin 4) : Fin 5 :=
  (![![1, 2, 3, 4], ![0, 2, 3, 4], ![0, 1, 3, 4], ![0, 1, 2, 4], ![0, 1, 2, 3]] : Fin 5 → Fin 4 → Fin 5) i k

/-- The largest of i's four scores. -/
def mx (i : Fin 5) : EReal :=
  max (max (max (score aw ab hf i (oth i 0)) (score aw ab hf i (oth i 1))) (score aw ab hf i (oth i 2))) (score aw ab hf i (oth i 3))

/-- exp (score − max) for i's k-th partner. -/
def ex (i : Fin 5) (k : Fin 4) : EReal := Ideal.exp (score aw ab hf i (oth i k) - mx aw ab hf i)

/-- The soft-max denominator of i. -/
def sm (i : Fin 5) : EReal := ex aw ab hf i 0 + ex aw ab hf i 1 + ex aw ab hf i 2 + ex aw ab hf i 3

/-- One pair's contribution, the weight formed as e · (1 / s). -/
def termK (i : Fin 5) (k : Fin 4) : EReal :=
  order m1 mb1 m2 mb2 hf i (oth i k) * (ex aw ab hf i k * Ideal.div 1 (sm aw ab hf i))

/-- One pair's contribution, the weight formed as e / s. -/
def termR (i : Fin 5) (k : Fin 4) : EReal :=
  order m1 mb1 m2 mb2 hf i (oth i k) * Ideal.div (ex aw ab hf i k) (sm aw ab hf i)

/-- The row's result with weights e · (1 / s). -/
def pairK : EReal := ∑ i : Fin 5, ∑ k : Fin 4, termK aw ab m1 mb1 m2 mb2 hf i k

/-- The row's result with weights e / s. -/
def pairR : EReal := ∑ i : Fin 5, ∑ k : Fin 4, termR aw ab m1 mb1 m2 mb2 hf i k
end Pair

/-! ## The whole result array, from the argument arrays and the gathered embedding rows -/

abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

section Out
variable (a2 : A2 512 256) (a3 : A1 512) (a4 : A2 256 512) (a5 : A1 256) (a6 : A2 256 256) (a7 : A1 256)
  (a8 : A2 512 256) (a9 : A1 512) (a10 : A2 1 512) (a11 : A1 1) (X : A3 16384 5 256)

/-- The five feature rows of batch row b. -/
def feats (b : Fin 16384) (t : Fin 5) (o : Fin 256) : EReal :=
  feat (fun k p => a2 (ix2 k p)) (fun k => a3 (ix1 k)) (fun o k => a4 (ix2 o k)) (fun o => a5 (ix1 o)) (fun p => X (ix3 b t p)) o

/-- The result array, weights formed as e · (1 / s). -/
def outK : A2 16384 1 := fun y =>
  pairK (fun o h => a6 (ix2 o h)) (fun o => a7 (ix1 o)) (fun m h => a8 (ix2 m h)) (fun m => a9 (ix1 m)) (fun m => a10 (ix2 0 m)) (a11 (ix1 0))
    (feats a2 a3 a4 a5 X (y 0))

/-- The result array, weights formed as e / s. -/
def outR : A2 16384 1 := fun y =>
  pairR (fun o h => a6 (ix2 o h)) (fun o => a7 (ix1 o)) (fun m h => a8 (ix2 m h)) (fun m => a9 (ix1 m)) (fun m => a10 (ix2 0 m)) (a11 (ix1 0))
    (feats a2 a3 a4 a5 X (y 0))
end Out

/-- An extended real that is a real number. -/
def IsReal (x : EReal) : Prop := ∃ r : ℝ, x = (r : EReal)

end Cert.Spec

end
-- ==== Proof.Algebra.lean ====
/-
  The two ways of forming a soft-max weight agree on finite data.
-/
import proofs.«413986_j36318243455110_2_alg».proof.Proof.Spec

noncomputable section

namespace Cert.Spec

open Idealize.ShloMosaic Idealize.ShloMosaic.ValueIdx

/-! ## Real numbers are closed under the operations used -/

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sub {x y : EReal} (hx : IsReal x) (hy : IsReal y) : IsReal (x - y) := by
  obtain ⟨r, rfl⟩ := hx
  obtain ⟨s, rfl⟩ := hy
  exact ⟨r - s, (EReal.coe_sub r s).symm⟩

theorem IsReal.max {x y : EReal} (hx : IsReal x) (hy : IsReal y) : IsReal (max x y) := by
  rcases max_choice x y with h | h
  · rw [h]; exact hx
  · rw [h]; exact hy

/-- A finite sum of reals is real. -/
theorem isReal_sum {ι : Type} (s : Finset ι) (f : ι → EReal) (h : ∀ i ∈ s, IsReal (f i)) :
    IsReal (∑ i ∈ s, f i) :=
  Finset.sum_induction f IsReal (fun _ _ ha hb => ha.add hb) ⟨0, EReal.coe_zero.symm⟩ h

/-- The logistic function of a real is real. -/
theorem isReal_logistic {x : EReal} (hx : IsReal x) : IsReal (Ideal.logistic x) := by
  obtain ⟨r, rfl⟩ := hx
  exact ⟨_, Ideal.logistic_coe r⟩

/-- silu of a real is real. -/
theorem isReal_silu {x : EReal} (hx : IsReal x) : IsReal (silu x) :=
  hx.mul (isReal_logistic hx)

/-- The exponential of a real is a positive real. -/
theorem exp_pos_real {x : EReal} (hx : IsReal x) : ∃ r : ℝ, 0 < r ∧ Ideal.exp x = (r : EReal) := by
  obtain ⟨r, rfl⟩ := hx
  exact ⟨Real.exp r, Real.exp_pos r, Ideal.exp_coe r⟩

/-! ## The feature rows are real -/

section Feat
variable (f1 : Fin 512 → Fin 256 → EReal) (fb1 : Fin 512 → EReal) (f2 : Fin 256 → Fin 512 → EReal) (fb2 : Fin 256 → EReal)

theorem isReal_hid (hf1 : ∀ k p, IsReal (f1 k p)) (hfb1 : ∀ k, IsReal (fb1 k)) (x : Fin 256 → EReal)
    (hx : ∀ p, IsReal (x p)) (k : Fin 512) : IsReal (hid f1 fb1 x k) :=
  (isReal_sum _ _ (fun p _ => (hx p).mul (hf1 k p))).add (hfb1 k)

theorem isReal_feat (hf1 : ∀ k p, IsReal (f1 k p)) (hfb1 : ∀ k, IsReal (fb1 k)) (hf2 : ∀ o k, IsReal (f2 o k))
    (hfb2 : ∀ o, IsReal (fb2 o)) (x : Fin 256 → EReal) (hx : ∀ p, IsReal (x p)) (o : Fin 256) :
    IsReal (feat f1 fb1 f2 fb2 x o) :=
  (isReal_sum _ _ (fun k _ => (isReal_silu (isReal_hid f1 fb1 hf1 hfb1 x hx k)).mul (hf2 o k))).add (hfb2 o)
end Feat

/-! ## The soft-max denominator is a positive real -/

section Pair
variable (aw : Fin 256 → Fin 256 → EReal) (ab : Fin 256 → EReal) (m1 : Fin 512 → Fin 256 → EReal) (mb1 : Fin 512 → EReal)
  (m2 : Fin 512 → EReal) (mb2 : EReal) (hf : Fin 5 → Fin 256 → EReal)

theorem isReal_wa (haw : ∀ o h, IsReal (aw o h)) (hab : ∀ o, IsReal (ab o)) (hhf : ∀ t o, IsReal (hf t o))
    (i : Fin 5) (o : Fin 256) : IsReal (wa aw ab hf i o) :=
  (isReal_sum _ _ (fun h _ => (hhf i h).mul (haw o h))).add (hab o)

theorem isReal_score (haw : ∀ o h, IsReal (aw o h)) (hab : ∀ o, IsReal (ab o)) (hhf : ∀ t o, IsReal (hf t o))
    (i j : Fin 5) : IsReal (score aw ab hf i j) :=
  isReal_sum _ _ (fun o _ => (isReal_wa aw ab hf haw hab hhf i o).mul (hhf j o))

theorem isReal_mx (haw : ∀ o h, IsReal (aw o h)) (hab : ∀ o, IsReal (ab o)) (hhf : ∀ t o, IsReal (hf t o))
    (i : Fin 5) : IsReal (mx aw ab hf i) :=
  (((isReal_score aw ab hf haw hab hhf i _).max (isReal_score aw ab hf haw hab hhf i _)).max
    (isReal_score aw ab hf haw hab hhf i _)).max (isReal_score aw ab hf haw hab hhf i _)

/-- Each exp (score − max) is a positive real. -/
theorem ex_pos_real (haw : ∀ o h, IsReal (aw o h)) (hab : ∀ o, IsReal (ab o)) (hhf : ∀ t o, IsReal (hf t o))
    (i : Fin 5) (k : Fin 4) : ∃ r : ℝ, 0 < r ∧ ex aw ab hf i k = (r : EReal) :=
  exp_pos_real ((isReal_score aw ab hf haw hab hhf i _).sub (isReal_mx aw ab hf haw hab hhf i))

/-- The sum of the four exponentials is a positive real. -/
theorem sm_pos_real (haw : ∀ o h, IsReal (aw o h)) (hab : ∀ o, IsReal (ab o)) (hhf : ∀ t o, IsReal (hf t o))
    (i : Fin 5) : ∃ s : ℝ, 0 < s ∧ sm aw ab hf i = (s : EReal) := by
  obtain ⟨r0, p0, e0⟩ := ex_pos_real aw ab hf haw hab hhf i 0
  obtain ⟨r1, p1, e1⟩ := ex_pos_real aw ab hf haw hab hhf i 1
  obtain ⟨r2, p2, e2⟩ := ex_pos_real aw ab hf haw hab hhf i 2
  obtain ⟨r3, p3, e3⟩ := ex_pos_real aw ab hf haw hab hhf i 3
  refine ⟨r0 + r1 + r2 + r3, by positivity, ?_⟩
  rw [sm, e0, e1, e2, e3, EReal.coe_add, EReal.coe_add, EReal.coe_add]

/-- With a nonzero real denominator, e · (1 / s) = e / s. -/
theorem termK_eq_termR (haw : ∀ o h, IsReal (aw o h)) (hab : ∀ o, IsReal (ab o)) (hhf : ∀ t o, IsReal (hf t o))
    (i : Fin 5) (k : Fin 4) : termK aw ab m1 mb1 m2 mb2 hf i k = termR aw ab m1 mb1 m2 mb2 hf i k := by
  obtain ⟨s, hs, es⟩ := sm_pos_real aw ab hf haw hab hhf i
  rw [termK, termR, es, Ideal.div_coe hs.ne', Ideal.div_coe hs.ne', one_mul]

theorem pairK_eq_pairR (haw : ∀ o h, IsReal (aw o h)) (hab : ∀ o, IsReal (ab o)) (hhf : ∀ t o, IsReal (hf t o)) :
    pairK aw ab m1 mb1 m2 mb2 hf = pairR aw ab m1 mb1 m2 mb2 hf :=
  Finset.sum_congr rfl (fun i _ => Finset.sum_congr rfl (fun k _ =>
    termK_eq_termR aw ab m1 mb1 m2 mb2 hf haw hab hhf i k))
end Pair

/-- When the feature-mapper's weights, the attention weights and the embedding rows are real numbers, every soft-max
    denominator is a positive real, so e · (1 / s) = e / s and the two result arrays coincide. -/
theorem outK_eq_outR (a2 : A2 512 256) (a3 : A1 512) (a4 : A2 256 512) (a5 : A1 256) (a6 : A2 256 256) (a7 : A1 256)
    (a8 : A2 512 256) (a9 : A1 512) (a10 : A2 1 512) (a11 : A1 1) (X : A3 16384 5 256)
    (h2 : ∀ i, IsReal (a2 i)) (h3 : ∀ i, IsReal (a3 i)) (h4 : ∀ i, IsReal (a4 i)) (h5 : ∀ i, IsReal (a5 i))
    (h6 : ∀ i, IsReal (a6 i)) (h7 : ∀ i, IsReal (a7 i)) (hX : ∀ i, IsReal (X i)) :
    outK a2 a3 a4 a5 a6 a7 a8 a9 a10 a11 X = outR a2 a3 a4 a5 a6 a7 a8 a9 a10 a11 X := by
  funext y
  exact pairK_eq_pairR _ _ _ _ _ _ _ (fun o h => h6 _) (fun o => h7 _)
    (fun t o => isReal_feat _ _ _ _ (fun k p => h2 _) (fun k => h3 _) (fun o k => h4 _) (fun o => h5 _) _
      (fun p => hX _) o)

end Cert.Spec

end
-- ==== Proof.PreReal.lean ====
/-
  The precondition "every float input is finite", read entry by entry.

  The predicate is a conjunction, one conjunct per float argument: "for every entry x, |x| < +∞".  On the
  extended reals |x| = max x (−x), and |x| < ⊤ fails exactly at x = ⊤ and x = ⊥; so a conjunct that holds
  makes every entry of its argument a real number.
-/
import proofs.«413986_j36318243455110_2_alg».proof.Pre_finite_inputs
import proofs.«413986_j36318243455110_2_alg».proof.Proof.Gen.Pre_finite_inputs
import proofs.«413986_j36318243455110_2_alg».proof.Proof.Spec
import Idealize.ShloMosaic.Lib.ReduceAll

noncomputable section

namespace Cert.PreReal

open Idealize.ShloMosaic Idealize.ShloMosaic.ValueIdx Cert.Spec Cert.Pre_finite_inputs

/-- The shape of a scalar has exactly one index. -/
instance : Subsingleton S_.Idx := ⟨fun _ _ => funext fun d => d.elim0⟩

/-- The word 0x7F800000 is +∞. -/
theorem inf_word : Ideal.ofBits .f32 0x7F800000#32 = (⊤ : EReal) := by simp [Ideal.ofBits, Ideal.ieee]

/-- An extended real x with |x| < +∞ (as the comparison's bit) is a real number. -/
theorem real_of_abs_lt_inf (x : EReal)
    (h : Ideal.cmp .olt (max x (-x)) (Ideal.ofBits .f32 0x7F800000#32) = 1#1) : IsReal x := by
  rw [inf_word] at h
  unfold Ideal.cmp at h
  induction x using EReal.rec with
  | bot => simp at h
  | coe r => exact ⟨r, rfl⟩
  | top => simp at h

/-- A conjunct of the predicate: if "all entries satisfy |x| < +∞" came out 1, every entry is real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : IsReal (a i) :=
  real_of_abs_lt_inf (a i) (Host.reduce_andi_all _ _ hr hu ix0 e i)

/-- A conjunction of two bits at the scalar index. -/
theorem andi_ix0 (x y : IVec S_ 1) : andi x y ix0 = IntOp.andi (x ix0) (y ix0) := rfl

/-- If the precondition's predicate is all ones, every entry of every float argument is a real number. -/
theorem real_of_pre (a0 : IVec S16384x5 32) (a1 : FVec Ideal S131072x256 .f32) (a2 : FVec Ideal S512x256 .f32)
    (a3 : FVec Ideal S512 .f32) (a4 : FVec Ideal S256x512 .f32) (a5 : FVec Ideal S256 .f32) (a6 : FVec Ideal S256x256 .f32)
    (a7 : FVec Ideal S256 .f32) (a8 : FVec Ideal S512x256 .f32) (a9 : FVec Ideal S512 .f32) (a10 : FVec Ideal S1x512 .f32)
    (a11 : FVec Ideal S1 .f32)
    (h : Cert.Pre_finite_inputs.fn (F := Ideal) a0 a1 a2 a3 a4 a5 a6 a7 a8 a9 a10 a11 = (fun _ => 1#1)) :
    (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have h0 := congrFun h ix0
  dsimp only [fn, fn_part1, fn_part2, fn_part3] at h0
  simp only [andi_ix0, IntOp.andi_eq_one] at h0
  obtain ⟨⟨⟨⟨⟨⟨⟨⟨⟨⟨e1, e2⟩, e3⟩, e4⟩, e5⟩, e6⟩, e7⟩, _⟩, _⟩, _⟩, _⟩ := h0
  exact ⟨real_of_all a1 _ _ _ e1, real_of_all a2 _ _ _ e2, real_of_all a3 _ _ _ e3, real_of_all a4 _ _ _ e4,
    real_of_all a5 _ _ _ e5, real_of_all a6 _ _ _ e6, real_of_all a7 _ _ _ e7⟩

end Cert.PreReal

end
-- ==== Proof.K0Value.lean ====
/-
  What the feature-mapper kernel leaves in its output array: row by row, the feature mapper of the input row.
-/
import proofs.«413986_j36318243455110_2_alg».proof.Proof.Gen.KernelIdeal.Frame
import proofs.«413986_j36318243455110_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.K0Value

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two matrix products at an index -/

/-- Row coordinate of the left operand of the first product: the output's row. -/
theorem lhsA_0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide),
    dif_pos (show (0 : Fin S4096x256.rank) ∈ dot_S4096x256_S256x512_S4096x512_1_0_0_1_n_n.lhsNonContracting by decide)]
  rfl
/-- Column coordinate of the left operand: the summation index. -/
theorem lhsA_1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q
/-- Row coordinate of the right operand: the summation index. -/
theorem rhsA_0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q
/-- Column coordinate of the right operand: the output's column. -/
theorem rhsA_1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide),
    dif_pos (show (1 : Fin S256x512.rank) ∈ dot_S4096x256_S256x512_S4096x512_1_0_0_1_n_n.rhsNonContracting by decide)]
  rfl

/-- The [4096, 256] × [256, 512] product into a zero accumulator: entry (r, k) is the sum over p of a (r, p) · w (p, k). -/
theorem mmA (a : FVec Ideal S4096x256 .bf16) (w : FVec Ideal S256x512 .bf16) (r : Fin 4096) (k : Fin 512) :
    matmul dot_S4096x256_S256x512_S4096x512_1_0_0_1_n_n none a w (constant (F := Ideal) S4096x512 .f32 0x00000000#32) (ix2 r k)
      = ∑ p : Fin 256, a (ix2 r p) * w (ix2 p k) := by
  simp only [matmul]
  rw [Ideal.matmul_constant_zero_apply,
    ← Equiv.sum_comp (contrEquiv1 dot_S4096x256_S256x512_S4096x512_1_0_0_1_n_n 256 rfl rfl).symm]
  refine Finset.sum_congr rfl fun p _ => ?_
  have hk := contrEquiv1_symm_val dot_S4096x256_S256x512_S4096x512_1_0_0_1_n_n 256 rfl rfl p
  have el : dot_S4096x256_S256x512_S4096x512_1_0_0_1_n_n.lhsIdx (ix2 r k)
      ((contrEquiv1 dot_S4096x256_S256x512_S4096x512_1_0_0_1_n_n 256 rfl rfl).symm p) = ix2 r p := funext fun a => Fin.ext (by
    match a with
    | ⟨0, _⟩ => exact lhsA_0 _ _
    | ⟨1, _⟩ => exact (lhsA_1 _ _).trans hk)
  have er : dot_S4096x256_S256x512_S4096x512_1_0_0_1_n_n.rhsIdx (ix2 r k)
      ((contrEquiv1 dot_S4096x256_S256x512_S4096x512_1_0_0_1_n_n 256 rfl rfl).symm p) = ix2 p k := funext fun a => Fin.ext (by
    match a with
    | ⟨0, _⟩ => exact (rhsA_0 _ _).trans hk
    | ⟨1, _⟩ => exact rhsA_1 _ _)
  rw [el, er]

theorem lhsB_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide),
    dif_pos (show (0 : Fin S4096x512.rank) ∈ dot_S4096x512_S512x256_S4096x256_1_0_0_1_n_n.lhsNonContracting by decide)]
  rfl
theorem lhsB_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhsB_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhsB_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide),
    dif_pos (show (1 : Fin S512x256.rank) ∈ dot_S4096x512_S512x256_S4096x256_1_0_0_1_n_n.rhsNonContracting by decide)]
  rfl

/-- The [4096, 512] × [512, 256] product into a zero accumulator: entry (r, o) is the sum over k of a (r, k) · w (k, o). -/
theorem mmB (a : FVec Ideal S4096x512 .bf16) (w : FVec Ideal S512x256 .bf16) (r : Fin 4096) (o : Fin 256) :
    matmul dot_S4096x512_S512x256_S4096x256_1_0_0_1_n_n none a w (constant (F := Ideal) S4096x256 .f32 0x00000000#32) (ix2 r o)
      = ∑ k : Fin 512, a (ix2 r k) * w (ix2 k o) := by
  simp only [matmul]
  rw [Ideal.matmul_constant_zero_apply,
    ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 r o)
      ((contrEquiv1 dot_S4096x512_S512x256_S4096x256_1_0_0_1_n_n 512 rfl rfl).symm k) = ix2 r k := funext fun a => Fin.ext (by
    match a with
    | ⟨0, _⟩ => exact lhsB_0 _ _
    | ⟨1, _⟩ => exact (lhsB_1 _ _).trans hk)
  have er : dot_S4096x512_S512x256_S4096x256_1_0_0_1_n_n.rhsIdx (ix2 r o)
      ((contrEquiv1 dot_S4096x512_S512x256_S4096x256_1_0_0_1_n_n 512 rfl rfl).symm k) = ix2 k o := funext fun a => Fin.ext (by
    match a with
    | ⟨0, _⟩ => exact (rhsB_0 _ _).trans hk
    | ⟨1, _⟩ => exact rhsB_1 _ _)
  rw [el, er]

/-! ## The bias rows -/

/-- The first bias, 512 entries, laid along every row. -/
theorem biasA (b : Vec Ideal S512 .f32) (r : Fin 4096) (k : Fin 512) :
    broadcastTo S4096x512 (shapeCast S1x512 b shapeCasts_S512_S1x512) broadcasts_S1x512_S4096x512 (ix2 r k) = b (ix1 k) :=
  (broadcastTo_1b_ab_apply _ _ r k).trans (shapeCast_a_1a_apply b _ 0 k)
/-- The second bias, 256 entries, laid along every row. -/
theorem biasB (b : Vec Ideal S256 .f32) (r : Fin 4096) (o : Fin 256) :
    broadcastTo S4096x256 (shapeCast S1x256 b shapeCasts_S256_S1x256) broadcasts_S1x256_S4096x256 (ix2 r o) = b (ix1 o) :=
  (broadcastTo_1b_ab_apply _ _ r o).trans (shapeCast_a_1a_apply b _ 0 o)

/-! ## The body's stored value at an index -/

/-- Entry (r, o) of what the body stores is the feature mapper of row r of its input block, at o. -/
theorem pay1_apply (v0 : Vec Ideal S4096x256 .bf16) (v2 : Vec Ideal S256x512 .bf16) (v4 : Vec Ideal S512 .f32)
    (v5 : Vec Ideal S512x256 .bf16) (v7 : Vec Ideal S256 .f32) (r : Fin 4096) (o : Fin 256) :
    k0_pay1 (F := Ideal) v0 v2 v4 v5 v7 (ix2 r o)
      = Cert.Spec.feat (fun k p => v2 (ix2 p k)) (fun k => v4 (ix1 k)) (fun o k => v5 (ix2 k o)) (fun o => v7 (ix1 o))
          (fun p => v0 (ix2 r p)) o := by
  unfold k0_pay1
  rw [truncf_apply, addf_apply, biasB, mmB]
  unfold Cert.Spec.feat
  congr 1
  refine Finset.sum_congr rfl fun k _ => ?_
  rw [truncf_apply, mulf_apply, shapeCast_self, shapeCast_self, shapeCast_self]
  show (_ * Ideal.logistic _) * _ = _
  rw [addf_apply, biasA, mmA]
  rfl

/-- The same at any index j of the block, for a row and a column named by the caller. -/
theorem pay1_at (x0 : Vec Ideal S4096x256 .bf16) (v2 : Vec Ideal S256x512 .bf16) (v4 : Vec Ideal S512 .f32)
    (v5 : Vec Ideal S512x256 .bf16) (v7 : Vec Ideal S256 .f32) (j : S4096x256.Idx) (row : Fin 256 → EReal) (o : Fin 256)
    (hrow : ∀ p : Fin 256, x0 (ix2 (j 0) p) = row p) (ho : (j 1).val = o.val) :
    k0_pay1 (F := Ideal) x0 v2 v4 v5 v7 j
      = Cert.Spec.feat (fun k p => v2 (ix2 p k)) (fun k => v4 (ix1 k)) (fun o k => v5 (ix2 k o)) (fun o => v7 (ix1 o)) row o := by
  obtain ⟨r, o', rfl⟩ : ∃ (r : Fin 4096) (o' : Fin 256), j = ix2 r o' := ⟨j 0, j 1, eq_ix2 j⟩
  obtain rfl : o' = o := Fin.ext ho
  rw [pay1_apply]
  exact congrArg (fun f => Cert.Spec.feat (fun k p => v2 (ix2 p k)) (fun k => v4 (ix1 k)) (fun o k => v5 (ix2 k o))
    (fun o => v7 (ix1 o)) f o') (funext hrow)

/-! ## From the blocks to the array -/

theorem zero2 : (![0, 0] : Fin 2 → Nat) = fun _ => 0 := funext fun a => match a with | ⟨0, _⟩ => rfl | ⟨1, _⟩ => rfl
theorem zero1 : (![0] : Fin 1 → Nat) = fun _ => 0 := funext fun a => match a with | ⟨0, _⟩ => rfl

/-- The block index maps over the twenty grid points: the input and the output move down one block of 4096 rows per
    point; the weights and biases are one whole block each. -/
theorem block_indices : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- The first weight's block is the whole array. -/
theorem blk1_eq (c : Dev nD) (t : Fin cfg0.N) : (iblk0 (F := Ideal) V c 1 t : Vec Ideal S256x512 .bf16) = V c main_v10 := by
  obtain ⟨-, -, -, -, e0, e1, -⟩ := block_indices t
  funext y
  show V c main_v10 (((cfg0.win 1).blk t).view.emb y) = V c main_v10 y
  refine congrArg (V c main_v10) (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega
/-- The first bias's block is the whole array. -/
theorem blk2_eq (c : Dev nD) (t : Fin cfg0.N) : (iblk0 (F := Ideal) V c 2 t : Vec Ideal S512 .f32) = V c main_arg3 := by
  obtain ⟨-, -, -, -, -, -, e0, -⟩ := block_indices t
  funext y
  show V c main_arg3 (((cfg0.win 2).blk t).view.emb y) = V c main_arg3 y
  refine congrArg (V c main_arg3) (funext fun a => Fin.ext ?_)
  match a with
  | ⟨0, _⟩ => show win0_2.index t (0 : Fin 1) * 512 + 1 * (y 0).val = (y 0).val; omega
/-- The second weight's block is the whole array. -/
theorem blk3_eq (c : Dev nD) (t : Fin cfg0.N) : (iblk0 (F := Ideal) V c 3 t : Vec Ideal S512x256 .bf16) = V c main_v12 := by
  obtain ⟨-, -, -, -, -, -, -, e0, e1, -⟩ := block_indices t
  funext y
  show V c main_v12 (((cfg0.win 3).blk t).view.emb y) = V c main_v12 y
  refine congrArg (V c main_v12) (funext fun a => Fin.ext ?_)
  match a with
  | ⟨0, _⟩ => show win0_3.index t (0 : Fin 2) * 512 + 1 * (y 0).val = (y 0).val; omega
  | ⟨1, _⟩ => show win0_3.index t (1 : Fin 2) * 256 + 1 * (y 1).val = (y 1).val; omega
/-- The second bias's block is the whole array. -/
theorem blk4_eq (c : Dev nD) (t : Fin cfg0.N) : (iblk0 (F := Ideal) V c 4 t : Vec Ideal S256 .f32) = V c main_arg5 := by
  obtain ⟨-, -, -, -, -, -, -, -, -, e0⟩ := block_indices t
  funext y
  show V c main_arg5 (((cfg0.win 4).blk t).view.emb y) = V c main_arg5 y
  refine congrArg (V c main_arg5) (funext fun a => Fin.ext ?_)
  match a with
  | ⟨0, _⟩ => show win0_4.index t (0 : Fin 1) * 256 + 1 * (y 0).val = (y 0).val; omega

/-- What the output array ends holding: row by row, the feature mapper of the input array's row. -/
abbrev featRows (c : Dev nD) : S81920x256.Idx → EReal := fun y =>
  Cert.Spec.feat (fun k p => V c main_v10 (ix2 p k)) (fun k => V c main_arg3 (ix1 k)) (fun o k => V c main_v12 (ix2 k o))
    (fun o => V c main_arg5 (ix1 o)) (fun p => V c main_v8 (ix2 (y 0) p)) (y 1)

/-- What grid point t writes back is block t of that array: row r of the block is row 4096 t + r of the input. -/
theorem flushed_eq (c : Dev nD) (t : Fin cfg0.N) :
    (dat0 (F := Ideal) V c).flushed 5 t = ((cfg0.win 5).blk t).view.read (Elt Ideal) (featRows V c) := by
  show (cfg0.win 5).cut (grid0.coords t) ((dat0 (F := Ideal) V c).after 5 t) = _
  rw [after0_5]
  unfold out0_5
  rw [View.canon_unit_zero zero2]
  simp only [View.ld_unit_zero (S := S4096x256) zero2, View.ld_unit_zero (S := S256x512) zero2,
    View.ld_unit_zero (S := S512x256) zero2, View.ld_unit_zero (S := S512) zero1, View.ld_unit_zero (S := S256) zero1]
  rw [blk1_eq, blk2_eq, blk3_eq, blk4_eq]
  obtain ⟨e50, e51, e00, e01, -⟩ := block_indices t
  funext j
  refine pay1_at (iblk0 (F := Ideal) V c 0 t) (V c main_v10) (V c main_arg3) (V c main_v12) (V c main_arg5) j
    (fun p => V c main_v8 (ix2 ((((cfg0.win 5).blk t).view.emb j) 0) p)) ((((cfg0.win 5).blk t).view.emb j) 1) (fun p => ?_) ?_
  · show V c main_v8 (((cfg0.win 0).blk t).view.emb (ix2 (j 0) p)) = V c main_v8 (ix2 ((((cfg0.win 5).blk t).view.emb j) 0) p)
    refine congrArg (V c main_v8) (funext fun a => Fin.ext ?_)
    match a with
    | ⟨0, _⟩ => show win0_0.index t (0 : Fin 2) * 4096 + 1 * (j 0).val = win0_5.index t (0 : Fin 2) * 4096 + 1 * (j 0).val; omega
    | ⟨1, _⟩ => show win0_0.index t (1 : Fin 2) * 256 + 1 * p.val = p.val; omega
  · show (j 1).val = win0_5.index t (1 : Fin 2) * 256 + 1 * (j 1).val
    omega

/-- An index of the array is in point t's block iff each coordinate is in the block's range on its axis. -/
theorem mem_blk (t : Fin cfg0.N) (i : S81920x256.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v18).slice (win0_5.rect t)).set ↔ _
  rw [View.set_slice_whole, Rect.mem_set_unit]
  exact Iff.rfl

/-- Every row r of the array is written by some point: point r / 4096. -/
theorem cover (i : S81920x256.Idx) : ∃ t : Fin cfg0.N, (cfg0.win 5).flush t = true ∧ i ∈ ((cfg0.win 5).blk t).view.set := by
  have hi0 : (i 0).val < 81920 := (i 0).isLt
  have hi1 : (i 1).val < 256 := (i 1).isLt
  have hN : grid0.N = 20 := N_0
  obtain ⟨t, ht⟩ : ∃ t : Fin cfg0.N, t.val = (i 0).val / 4096 :=
    ⟨⟨(i 0).val / 4096, by show (i 0).val / 4096 < grid0.N; rw [hN]; omega⟩, rfl⟩
  refine ⟨t, flush0_5 t, ?_⟩
  rw [mem_blk]
  obtain ⟨e50, e51, -⟩ := block_indices t
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 256 ≤ (i 1).val ∧ (i 1).val < win0_5.index t (1 : Fin 2) * 256 + 256; omega

/-- After the first kernel's twenty grid points its output array holds, at row r and column o, the feature mapper of
    row r of the input array (the weights are stored transposed). -/
theorem arr0 (c : Dev nD) :
    (dat0 (F := Ideal) V c).arrAt 5 cfg0.N = fun y =>
      Cert.Spec.feat (fun k p => V c main_v10 (ix2 p k)) (fun k => V c main_arg3 (ix1 k)) (fun o k => V c main_v12 (ix2 k o))
        (fun o => V c main_arg5 (ix1 o)) (fun p => V c main_v8 (ix2 (y 0) p)) (y 1) :=
  (dat0 (F := Ideal) V c).arrAt_eq_of_cover 5 (featRows V c) (fun t _ => flushed_eq V c t) cover

end Cert.KernelIdeal.K0Value

end
-- ==== Proof.K1Sem.lean ====
/-
  The second kernel's body, row by row: what each intermediate vector of the body holds at block row r, in terms of
  the specification's functions of that row's five feature rows.

  The block x0 is [512, 5, 256]: block row r carries the five feature rows  hfr r t = x0 (r, t, ·).  The weight
  operands are stored transposed: x1 (h, o) = A[o, h], x3 (h, m) = M₁[m, h]; x2, x4 are the biases a, c₁; x5 (0, m) = w₂[m];
  x6 (0) = c₂.
-/
import proofs.«413986_j36318243455110_2_alg».proof.KernelIdeal
import proofs.«413986_j36318243455110_2_alg».proof.Proof.Spec

noncomputable section

namespace Cert.KernelIdeal.K1

open Cert.KernelIdeal Idealize.ShloMosaic Idealize.ShloMosaic.ValueIdx

section
variable (x0 : Vec Ideal S512x5x256 .bf16) (x1 : Vec Ideal S256x256 .bf16) (x2 : Vec Ideal S256 .f32)
  (x3 : Vec Ideal S256x512 .bf16) (x4 : Vec Ideal S512 .f32) (x5 : Vec Ideal S1x512 .bf16) (x6 : Vec Ideal S1 .f32)

/-- Block row r's five feature rows. -/
abbrev hfr (r : Fin 512) : Fin 5 → Fin 256 → EReal := fun t o => x0 (ix3 r t o)
/-- The attention matrix, A[o, h]. -/
abbrev AW : Fin 256 → Fin 256 → EReal := fun o h => x1 (ix2 h o)
/-- The attention bias. -/
abbrev AB : Fin 256 → EReal := fun o => x2 (ix1 o)
/-- The pair MLP's first matrix, M₁[m, h]. -/
abbrev M1 : Fin 512 → Fin 256 → EReal := fun m h => x3 (ix2 h m)
/-- The pair MLP's first bias. -/
abbrev MB1 : Fin 512 → EReal := fun m => x4 (ix1 m)
/-- The pair MLP's output weights. -/
abbrev M2 : Fin 512 → EReal := fun m => x5 (ix2 0 m)
/-- The pair MLP's output bias. -/
abbrev MB2 : EReal := x6 (ix1 0)

/-- v is feature row t of every block row. -/
def IsSl (v : FVec Ideal S512x256 .bf16) (t : Fin 5) : Prop := ∀ (r : Fin 512) (o : Fin 256), v (ix2 r o) = x0 (ix3 r t o)
/-- The same kept as a [512, 1, 256] slab. -/
def IsSl3 (v : FVec Ideal S512x1x256 .bf16) (t : Fin 5) : Prop := ∀ (r : Fin 512) (o : Fin 256), v (ix3 r 0 o) = x0 (ix3 r t o)
/-- v is the entrywise product of feature rows i and j. -/
def IsProd (v : FVec Ideal S512x256 .bf16) (i j : Fin 5) : Prop :=
  ∀ (r : Fin 512) (o : Fin 256), v (ix2 r o) = x0 (ix3 r i o) * x0 (ix3 r j o)
/-- v is A · h i + a. -/
def IsWa (v : FVec Ideal S512x256 .f32) (i : Fin 5) : Prop :=
  ∀ (r : Fin 512) (o : Fin 256), v (ix2 r o) = Cert.Spec.wa (AW x1) (AB x2) (hfr x0 r) i o
/-- v is the score of the pair (i, j). -/
def IsScore (v : FVec Ideal S512x1 .f32) (i j : Fin 5) : Prop :=
  ∀ r : Fin 512, v (ix2 r 0) = Cert.Spec.score (AW x1) (AB x2) (hfr x0 r) i j
/-- v is M₁ · (h i ⊙ h j), before the bias. -/
def IsMM (v : FVec Ideal S512x512 .f32) (i j : Fin 5) : Prop :=
  ∀ (r : Fin 512) (m : Fin 512), v (ix2 r m) = ∑ h : Fin 256, (x0 (ix3 r i h) * x0 (ix3 r j h)) * M1 x3 m h
/-- v is M₁ · (h i ⊙ h j) + c₁. -/
def IsZ (v : FVec Ideal S512x512 .f32) (i j : Fin 5) : Prop :=
  ∀ (r : Fin 512) (m : Fin 512), v (ix2 r m) = Cert.Spec.mlp (M1 x3) (MB1 x4) (hfr x0 r) i j m
/-- v is silu (M₁ · (h i ⊙ h j) + c₁). -/
def IsAct (v : FVec Ideal S512x512 .f32) (i j : Fin 5) : Prop :=
  ∀ (r : Fin 512) (m : Fin 512), v (ix2 r m) = Cert.Spec.silu (Cert.Spec.mlp (M1 x3) (MB1 x4) (hfr x0 r) i j m)
/-- v is silu (M₁ · (h i ⊙ h j) + c₁) ⊙ w₂, the summand of the pair's order. -/
def IsPre (v : FVec Ideal S512x512 .f32) (i j : Fin 5) : Prop :=
  ∀ (r : Fin 512) (m : Fin 512), v (ix2 r m) = Cert.Spec.silu (Cert.Spec.mlp (M1 x3) (MB1 x4) (hfr x0 r) i j m) * M2 x5 m
/-- v is w₂ laid along every block row. -/
def IsW2B (v : FVec Ideal S512x512 .f32) : Prop := ∀ (r : Fin 512) (m : Fin 512), v (ix2 r m) = M2 x5 m
/-- v is the order of the pair (i, j), before the output bias. -/
def IsOrd0 (v : FVec Ideal S512x1 .f32) (i j : Fin 5) : Prop :=
  ∀ r : Fin 512, v (ix2 r 0) = ∑ m : Fin 512, Cert.Spec.silu (Cert.Spec.mlp (M1 x3) (MB1 x4) (hfr x0 r) i j m) * M2 x5 m
/-- v is the order of the pair (i, j). -/
def IsOrder (v : FVec Ideal S512x1 .f32) (i j : Fin 5) : Prop :=
  ∀ r : Fin 512, v (ix2 r 0) = Cert.Spec.order (M1 x3) (MB1 x4) (M2 x5) (MB2 x6) (hfr x0 r) i j
/-- v is the largest of i's four scores. -/
def IsMx (v : FVec Ideal S512x1 .f32) (i : Fin 5) : Prop :=
  ∀ r : Fin 512, v (ix2 r 0) = Cert.Spec.mx (AW x1) (AB x2) (hfr x0 r) i
/-- v is exp (score − max) for i's k-th partner. -/
def IsEx (v : FVec Ideal S512x1 .f32) (i : Fin 5) (k : Fin 4) : Prop :=
  ∀ r : Fin 512, v (ix2 r 0) = Cert.Spec.ex (AW x1) (AB x2) (hfr x0 r) i k
/-- v is i's soft-max denominator. -/
def IsSm (v : FVec Ideal S512x1 .f32) (i : Fin 5) : Prop :=
  ∀ r : Fin 512, v (ix2 r 0) = Cert.Spec.sm (AW x1) (AB x2) (hfr x0 r) i
/-- v is 1 / (i's soft-max denominator). -/
def IsInv (v : FVec Ideal S512x1 .f32) (i : Fin 5) : Prop :=
  ∀ r : Fin 512, v (ix2 r 0) = Ideal.div 1 (Cert.Spec.sm (AW x1) (AB x2) (hfr x0 r) i)
/-- v is the weight e · (1 / s) of i's k-th partner. -/
def IsWt (v : FVec Ideal S512x1 .f32) (i : Fin 5) (k : Fin 4) : Prop :=
  ∀ r : Fin 512, v (ix2 r 0)
    = Cert.Spec.ex (AW x1) (AB x2) (hfr x0 r) i k * Ideal.div 1 (Cert.Spec.sm (AW x1) (AB x2) (hfr x0 r) i)

/-- The n-th pair term in the kernel's order (i = n / 4, k = n % 4), zero from the twentieth on. -/
def termN (r : Fin 512) (n : ℕ) : EReal :=
  if h : n < 20 then
    Cert.Spec.termK (AW x1) (AB x2) (M1 x3) (MB1 x4) (M2 x5) (MB2 x6) (hfr x0 r) ⟨n / 4, by omega⟩ ⟨n % 4, by omega⟩
  else 0
/-- The accumulator after n pair terms: ((0 + t₀) + t₁) + … . -/
def accK (r : Fin 512) : ℕ → EReal
  | 0 => 0
  | n + 1 => accK r n + termN x0 x1 x2 x3 x4 x5 x6 r n
/-- v is the accumulator after n pair terms. -/
def IsAcc (v : FVec Ideal S512x1 .f32) (n : ℕ) : Prop := ∀ r : Fin 512, v (ix2 r 0) = accK x0 x1 x2 x3 x4 x5 x6 r n
end

end Cert.KernelIdeal.K1

end
-- ==== Proof.K1Ops.lean ====
/-
  The building blocks of the second kernel's body, read at one index on the extended reals: a row slice of the block,
  a matrix product with a bias row, a row sum, the broadcasts of a row and of a scalar.
-/
import proofs.«413986_j36318243455110_2_alg».proof.KernelIdeal
import proofs.«413986_j36318243455110_2_alg».proof.Proof.Gen.KernelIdeal
import proofs.«413986_j36318243455110_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.K1

open Cert.KernelIdeal Cert.KernelIdeal.Gen Idealize.ShloMosaic Idealize.ShloMosaic.ValueIdx

/-- The float literal one. -/
theorem one_word : Ideal.ofBits .f32 0x3F800000#32 = (1 : EReal) := by
  simp [Ideal.ofBits, Ideal.ieee, -EReal.coe_mul]; norm_num

/-- A cast to the same shape changes nothing. -/
theorem cast_self3 (v : Vec Ideal S512x5x256 .bf16) (i : S512x5x256.Idx) :
    shapeCast S512x5x256 v shapeCasts_S512x5x256_S512x5x256 i = v i :=
  congrFun (shapeCast_self v shapeCasts_S512x5x256_S512x5x256) i
theorem cast_self_aw (v : Vec Ideal S256x256 .bf16) (i : S256x256.Idx) :
    shapeCast S256x256 v shapeCasts_S256x256_S256x256 i = v i :=
  congrFun (shapeCast_self v shapeCasts_S256x256_S256x256) i
theorem cast_self_m1 (v : Vec Ideal S256x512 .bf16) (i : S256x512.Idx) :
    shapeCast S256x512 v shapeCasts_S256x512_S256x512 i = v i :=
  congrFun (shapeCast_self v shapeCasts_S256x512_S256x512) i
theorem cast_self_w2 (v : Vec Ideal S1x512 .bf16) (i : S1x512.Idx) :
    shapeCast S1x512 v shapeCasts_S1x512_S1x512 i = v i :=
  congrFun (shapeCast_self v shapeCasts_S1x512_S1x512) i

/-- Feature row t of the block, as a [512, 1, 256] slab. -/
theorem slab0 (h : FVec Ideal S512x5x256 .bf16) (r : Fin 512) (o : Fin 256) :
    extractStridedSlice S512x1x256 ![0, 0, 0] h slices_S512x5x256_o0_0_0_S512x1x256 (ix3 r 0 o) = h (ix3 r 0 o) :=
  slice3_axis1_apply 0 h slices_S512x5x256_o0_0_0_S512x1x256 r 0 o 0 rfl
theorem slab1 (h : FVec Ideal S512x5x256 .bf16) (r : Fin 512) (o : Fin 256) :
    extractStridedSlice S512x1x256 ![0, 1, 0] h slices_S512x5x256_o0_1_0_S512x1x256 (ix3 r 0 o) = h (ix3 r 1 o) :=
  slice3_axis1_apply 1 h slices_S512x5x256_o0_1_0_S512x1x256 r 0 o 1 rfl
theorem slab2 (h : FVec Ideal S512x5x256 .bf16) (r : Fin 512) (o : Fin 256) :
    extractStridedSlice S512x1x256 ![0, 2, 0] h slices_S512x5x256_o0_2_0_S512x1x256 (ix3 r 0 o) = h (ix3 r 2 o) :=
  slice3_axis1_apply 2 h slices_S512x5x256_o0_2_0_S512x1x256 r 0 o 2 rfl
theorem slab3 (h : FVec Ideal S512x5x256 .bf16) (r : Fin 512) (o : Fin 256) :
    extractStridedSlice S512x1x256 ![0, 3, 0] h slices_S512x5x256_o0_3_0_S512x1x256 (ix3 r 0 o) = h (ix3 r 3 o) :=
  slice3_axis1_apply 3 h slices_S512x5x256_o0_3_0_S512x1x256 r 0 o 3 rfl
theorem slab4 (h : FVec Ideal S512x5x256 .bf16) (r : Fin 512) (o : Fin 256) :
    extractStridedSlice S512x1x256 ![0, 4, 0] h slices_S512x5x256_o0_4_0_S512x1x256 (ix3 r 0 o) = h (ix3 r 4 o) :=
  slice3_axis1_apply 4 h slices_S512x5x256_o0_4_0_S512x1x256 r 0 o 4 rfl

/-- Dropping the unit axis of a slab. -/
theorem unslab (v : FVec Ideal S512x1x256 .bf16) (r : Fin 512) (o : Fin 256) :
    shapeCast S512x256 v shapeCasts_S512x1x256_S512x256 (ix2 r o) = v (ix3 r 0 o) :=
  -- both indices sit at row-major position r · 256 + o
  shapeCast_apply v shapeCasts_S512x1x256_S512x256 (ix2 r o) (ix3 r 0 o) (by
    rw [Shape.rowMajor_val_three, Shape.rowMajor_val_two]
    show (r.val * 1 + 0) * 256 + o.val = r.val * 256 + o.val
    omega)

/-- A [512, 256] × [256, 256] product into a zero accumulator, plus a bias row. -/
theorem mm256 (a : FVec Ideal S512x256 .bf16) (w : FVec Ideal S256x256 .bf16) (r : Fin 512) (o : Fin 256) :
    matmul dot_S512x256_S256x256_S512x256_1_0_0_1_n_n none a w (constant S512x256 .f32 0x00000000#32) (ix2 r o)
      = ∑ h : Fin 256, a (ix2 r h) * w (ix2 h o) := by
  -- the product into a zero accumulator is the sum over the contraction index of the operands' products
  refine (Ideal.matmul_constant_zero_apply dot_S512x256_S256x256_S512x256_1_0_0_1_n_n none a w (ix2 r o)).trans ?_
  -- the contraction index has one coordinate, ranging over the 256 shared entries
  rw [← Equiv.sum_comp (contrEquiv1 dot_S512x256_S256x256_S512x256_1_0_0_1_n_n 256 rfl rfl).symm]
  refine Finset.sum_congr rfl fun c _ => ?_
  have c2 := contrEquiv1_symm_val dot_S512x256_S256x256_S512x256_1_0_0_1_n_n 256 rfl rfl c
  -- the left operand is read at (row, contracted), the right at (contracted, column)
  have l2 : dot_S512x256_S256x256_S512x256_1_0_0_1_n_n.lhsIdx (ix2 r o) ((contrEquiv1 _ 256 rfl rfl).symm c) = ix2 r c := by
    funext ax; apply Fin.ext
    match ax with
    | ⟨0, _⟩ => simp [DotDims.lhsIdx, dot_S512x256_S256x256_S512x256_1_0_0_1_n_n]; rfl
    | ⟨1, _⟩ => simp [DotDims.lhsIdx, dot_S512x256_S256x256_S512x256_1_0_0_1_n_n]; exact c2
  have r2 : dot_S512x256_S256x256_S512x256_1_0_0_1_n_n.rhsIdx (ix2 r o) ((contrEquiv1 _ 256 rfl rfl).symm c) = ix2 c o := by
    funext ax; apply Fin.ext
    match ax with
    | ⟨0, _⟩ => simp [DotDims.rhsIdx, dot_S512x256_S256x256_S512x256_1_0_0_1_n_n]; exact c2
    | ⟨1, _⟩ => simp [DotDims.rhsIdx, dot_S512x256_S256x256_S512x256_1_0_0_1_n_n]; rfl
  rw [l2, r2]
/-- A [512, 256] × [256, 512] product into a zero accumulator. -/
theorem mm512 (a : FVec Ideal S512x256 .bf16) (w : FVec Ideal S256x512 .bf16) (r : Fin 512) (m : Fin 512) :
    matmul dot_S512x256_S256x512_S512x512_1_0_0_1_n_n none a w (constant S512x512 .f32 0x00000000#32) (ix2 r m)
      = ∑ h : Fin 256, a (ix2 r h) * w (ix2 h m) := by
  -- the product into a zero accumulator is the sum over the contraction index of the operands' products
  refine (Ideal.matmul_constant_zero_apply dot_S512x256_S256x512_S512x512_1_0_0_1_n_n none a w (ix2 r m)).trans ?_
  -- the contraction index has one coordinate, ranging over the 256 shared entries
  rw [← Equiv.sum_comp (contrEquiv1 dot_S512x256_S256x512_S512x512_1_0_0_1_n_n 256 rfl rfl).symm]
  refine Finset.sum_congr rfl fun c _ => ?_
  have c2 := contrEquiv1_symm_val dot_S512x256_S256x512_S512x512_1_0_0_1_n_n 256 rfl rfl c
  -- the left operand is read at (row, contracted), the right at (contracted, column)
  have l2 : dot_S512x256_S256x512_S512x512_1_0_0_1_n_n.lhsIdx (ix2 r m) ((contrEquiv1 _ 256 rfl rfl).symm c) = ix2 r c := by
    funext ax; apply Fin.ext
    match ax with
    | ⟨0, _⟩ => simp [DotDims.lhsIdx, dot_S512x256_S256x512_S512x512_1_0_0_1_n_n]; rfl
    | ⟨1, _⟩ => simp [DotDims.lhsIdx, dot_S512x256_S256x512_S512x512_1_0_0_1_n_n]; exact c2
  have r2 : dot_S512x256_S256x512_S512x512_1_0_0_1_n_n.rhsIdx (ix2 r m) ((contrEquiv1 _ 256 rfl rfl).symm c) = ix2 c m := by
    funext ax; apply Fin.ext
    match ax with
    | ⟨0, _⟩ => simp [DotDims.rhsIdx, dot_S512x256_S256x512_S512x512_1_0_0_1_n_n]; exact c2
    | ⟨1, _⟩ => simp [DotDims.rhsIdx, dot_S512x256_S256x512_S512x512_1_0_0_1_n_n]; rfl
  rw [l2, r2]

/-- A bias of 256 entries laid along every row. -/
theorem brow256 (b : Vec Ideal S256 .f32) (r : Fin 512) (o : Fin 256) :
    broadcastTo S512x256 (shapeCast S1x256 b shapeCasts_S256_S1x256) broadcasts_S1x256_S512x256 (ix2 r o) = b (ix1 o) :=
  (broadcastTo_1b_ab_apply _ broadcasts_S1x256_S512x256 r o).trans (shapeCast_a_1a_apply b shapeCasts_S256_S1x256 0 o)
/-- A bias of 512 entries laid along every row. -/
theorem brow512 (b : Vec Ideal S512 .f32) (r : Fin 512) (m : Fin 512) :
    broadcastTo S512x512 (shapeCast S1x512 b shapeCasts_S512_S1x512) broadcasts_S1x512_S512x512 (ix2 r m) = b (ix1 m) :=
  (broadcastTo_1b_ab_apply _ broadcasts_S1x512_S512x512 r m).trans (shapeCast_a_1a_apply b shapeCasts_S512_S1x512 0 m)
/-- A [1, 512] row laid along every row. -/
theorem bw2 (w : FVec Ideal S1x512 .f32) (r : Fin 512) (m : Fin 512) :
    broadcastTo S512x512 w broadcasts_S1x512_S512x512 (ix2 r m) = w (ix2 0 m) :=
  broadcastTo_1b_ab_apply w broadcasts_S1x512_S512x512 r m
/-- A one-entry bias laid along the column. -/
theorem bcol1 (b : Vec Ideal S1 .f32) (r : Fin 512) :
    broadcastTo S512x1 (shapeCast S1x1 b shapeCasts_S1_S1x1) broadcasts_S1x1_S512x1 (ix2 r 0) = b (ix1 0) :=
  (broadcastTo_1b_ab_apply _ broadcasts_S1x1_S512x1 r 0).trans (shapeCast_a_1a_apply b shapeCasts_S1_S1x1 0 0)

/-- A vector of 512 entries cast to a column reads, at (r, 0), the vector at r: both sit at row-major position r. -/
private theorem col_of_vec (x : FVec Ideal S512 .f32) (r : Fin 512) :
    shapeCast S512x1 x shapeCasts_S512_S512x1 (ix2 r 0) = x (ix1 r) :=
  shapeCast_apply x shapeCasts_S512_S512x1 (ix2 r 0) (ix1 r) (by
    rw [Shape.rowMajor_val_one, Shape.rowMajor_val_two]
    show r.val = r.val * 1 + 0
    omega)

/-- The sum of a [512, 256] array along its rows, kept as a column. -/
theorem rsum256 (v : FVec Ideal S512x256 .f32) (r : Fin 512) :
    shapeCast S512x1 (multiReduction .add [1] S512 v 0x00000000#32 reduces_S512x256_S512 (.inl rfl) rfl) shapeCasts_S512_S512x1 (ix2 r 0)
      = ∑ o : Fin 256, v (ix2 r o) := by
  -- the column entry (r, 0) is the vector's entry r, which is the sum over the reduced axis of row r
  refine (col_of_vec _ r).trans ?_
  refine (Ideal.multiReduction_add_single v 0x00000000#32 reduces_S512x256_S512 (.inl rfl) rfl (ix1 r)).trans ?_
  refine Finset.sum_congr rfl fun k _ => congrArg v ?_
  funext a
  match a with
  | ⟨0, _⟩ => rfl
  | ⟨1, _⟩ => rfl
/-- The sum of a [512, 512] array along its rows, kept as a column. -/
theorem rsum512 (v : FVec Ideal S512x512 .f32) (r : Fin 512) :
    shapeCast S512x1 (multiReduction .add [1] S512 v 0x00000000#32 reduces_S512x512_S512 (.inl rfl) rfl) shapeCasts_S512_S512x1 (ix2 r 0)
      = ∑ m : Fin 512, v (ix2 r m) := by
  -- the column entry (r, 0) is the vector's entry r, which is the sum over the reduced axis of row r
  refine (col_of_vec _ r).trans ?_
  refine (Ideal.multiReduction_add_single v 0x00000000#32 reduces_S512x512_S512 (.inl rfl) rfl (ix1 r)).trans ?_
  refine Finset.sum_congr rfl fun k _ => congrArg v ?_
  funext a
  match a with
  | ⟨0, _⟩ => rfl
  | ⟨1, _⟩ => rfl

/-- silu, as the kernel forms it. -/
theorem silu_at (z : EReal) : z * Ideal.logistic z = Cert.Spec.silu z := rfl

end Cert.KernelIdeal.K1

end
-- ==== Proof.K1PayA.lean ====
/-
  The second kernel's body, first stretch: the loaded operands and their casts, the zero accumulator, and every
  intermediate of team member 0 (its projection A · h 0 + a, its four scores, its four pair orders, the soft-max
  weights and the four accumulated terms), then the opening of team member 1 (its projection, its score against
  member 0, and the summand of that pair's order).  Each statement says what one value holds at block row r.
-/
import proofs.«413986_j36318243455110_2_alg».proof.Proof.Gen.KernelIdeal.Skeleton
import proofs.«413986_j36318243455110_2_alg».proof.Proof.K1Sem
import proofs.«413986_j36318243455110_2_alg».proof.Proof.K1Ops

noncomputable section

namespace Cert.KernelIdeal.K1

open Cert.KernelIdeal Cert.KernelIdeal.Gen Idealize.ShloMosaic Idealize.ShloMosaic.ValueIdx

variable (x0 : Vec Ideal S512x5x256 .bf16) (x1 : Vec Ideal S256x256 .bf16) (x2 : Vec Ideal S256 .f32)
  (x3 : Vec Ideal S256x512 .bf16) (x4 : Vec Ideal S512 .f32) (x5 : Vec Ideal S1x512 .bf16) (x6 : Vec Ideal S1 .f32)

/-! ## The recurring pieces: a feature row, an entrywise product, a projection, a score, an order's summand, an order -/

/-- The logistic function acts entry by entry. -/
private theorem logistic_at {s : Shape} {φ : FTy} (v : FVec Ideal s φ) (i : s.Idx) : logistic v i = Ideal.logistic (v i) := rfl
/-- The exponential acts entry by entry. -/
private theorem exp_at {s : Shape} {φ : FTy} (v : FVec Ideal s φ) (i : s.Idx) : exp v i = Ideal.exp (v i) := rfl

/-- Slab t of (a copy of) the block, its unit axis dropped, is feature row t. -/
private theorem sl_of0 (v1 : FVec Ideal S512x5x256 .bf16) (hv1 : ∀ i, v1 i = x0 i) :
    IsSl x0 (shapeCast S512x256 (extractStridedSlice S512x1x256 ![0, 0, 0] v1 slices_S512x5x256_o0_0_0_S512x1x256)
      shapeCasts_S512x1x256_S512x256) 0 := by
  intro r o
  rw [unslab, slab0, hv1]
private theorem sl_of1 (v1 : FVec Ideal S512x5x256 .bf16) (hv1 : ∀ i, v1 i = x0 i) :
    IsSl x0 (shapeCast S512x256 (extractStridedSlice S512x1x256 ![0, 1, 0] v1 slices_S512x5x256_o0_1_0_S512x1x256)
      shapeCasts_S512x1x256_S512x256) 1 := by
  intro r o
  rw [unslab, slab1, hv1]
private theorem sl_of2 (v1 : FVec Ideal S512x5x256 .bf16) (hv1 : ∀ i, v1 i = x0 i) :
    IsSl x0 (shapeCast S512x256 (extractStridedSlice S512x1x256 ![0, 2, 0] v1 slices_S512x5x256_o0_2_0_S512x1x256)
      shapeCasts_S512x1x256_S512x256) 2 := by
  intro r o
  rw [unslab, slab2, hv1]
private theorem sl_of3 (v1 : FVec Ideal S512x5x256 .bf16) (hv1 : ∀ i, v1 i = x0 i) :
    IsSl x0 (shapeCast S512x256 (extractStridedSlice S512x1x256 ![0, 3, 0] v1 slices_S512x5x256_o0_3_0_S512x1x256)
      shapeCasts_S512x1x256_S512x256) 3 := by
  intro r o
  rw [unslab, slab3, hv1]
private theorem sl_of4 (v1 : FVec Ideal S512x5x256 .bf16) (hv1 : ∀ i, v1 i = x0 i) :
    IsSl x0 (shapeCast S512x256 (extractStridedSlice S512x1x256 ![0, 4, 0] v1 slices_S512x5x256_o0_4_0_S512x1x256)
      shapeCasts_S512x1x256_S512x256) 4 := by
  intro r o
  rw [unslab, slab4, hv1]

/-- The entrywise product of feature rows i and j. -/
private theorem prod_of (a b : FVec Ideal S512x256 .bf16) (i j : Fin 5) (ha : IsSl x0 a i) (hb : IsSl x0 b j) :
    IsProd x0 (mulf a b) i j := by
  intro r o
  rw [mulf_apply, ha r o, hb r o]

/-- Feature row i times the (transposed) attention matrix, plus the bias row, is A · h i + a. -/
private theorem wa_of (a : FVec Ideal S512x256 .bf16) (v3 : FVec Ideal S256x256 .bf16) (i : Fin 5) (ha : IsSl x0 a i)
    (hv3 : ∀ i, v3 i = x1 i) :
    IsWa x0 x1 x2 (addf (matmul dot_S512x256_S256x256_S512x256_1_0_0_1_n_n none a v3 (constant S512x256 .f32 0x00000000#32))
      (broadcastTo S512x256 (shapeCast S1x256 x2 shapeCasts_S256_S1x256) broadcasts_S1x256_S512x256)) i := by
  intro r o
  rw [addf_apply, mm256, brow256]
  simp only [ha r, hv3]
  rfl

/-- The row sum of (A · h i + a) ⊙ h j is the score of (i, j). -/
private theorem score_of (w : FVec Ideal S512x256 .f32) (b : FVec Ideal S512x256 .bf16) (i j : Fin 5)
    (hw : IsWa x0 x1 x2 w i) (hb : IsSl x0 b j) :
    IsScore x0 x1 x2 (shapeCast S512x1 (multiReduction .add [1] S512 (mulf w (extf .f32 b bitsLt_bf16_f32)) 0x00000000#32
      reduces_S512x256_S512 (.inl rfl) rfl) shapeCasts_S512_S512x1) i j := by
  intro r
  rw [rsum256]
  simp only [mulf_apply, extf_apply, hw r, hb r]
  rfl

/-- From the product h i ⊙ h j: silu (M₁ · (h i ⊙ h j) + c₁) ⊙ w₂. -/
private theorem pre_of (p : FVec Ideal S512x256 .bf16) (v6 : FVec Ideal S256x512 .bf16) (v10 : FVec Ideal S1x512 .f32) (i j : Fin 5)
    (hp : IsProd x0 p i j) (hv6 : ∀ i, v6 i = x3 i) (hv10 : ∀ i, v10 i = x5 i) :
    IsPre x0 x3 x4 x5
      (mulf
        (mulf
          (addf (matmul dot_S512x256_S256x512_S512x512_1_0_0_1_n_n none p v6 (constant S512x512 .f32 0x00000000#32))
            (broadcastTo S512x512 (shapeCast S1x512 x4 shapeCasts_S512_S1x512) broadcasts_S1x512_S512x512))
          (logistic
            (addf (matmul dot_S512x256_S256x512_S512x512_1_0_0_1_n_n none p v6 (constant S512x512 .f32 0x00000000#32))
              (broadcastTo S512x512 (shapeCast S1x512 x4 shapeCasts_S512_S1x512) broadcasts_S1x512_S512x512))))
        (broadcastTo S512x512 v10 broadcasts_S1x512_S512x512)) i j := by
  intro r m
  rw [mulf_apply, mulf_apply, logistic_at, addf_apply, mm512, brow512, bw2, hv10]
  simp only [hp r, hv6]
  rfl

/-- The row sum of the summand, plus the output bias, is the order. -/
private theorem order_of_pre (v : FVec Ideal S512x512 .f32) (i j : Fin 5) (hv : IsPre x0 x3 x4 x5 v i j) :
    IsOrder x0 x3 x4 x5 x6
      (addf (shapeCast S512x1 (multiReduction .add [1] S512 v 0x00000000#32 reduces_S512x512_S512 (.inl rfl) rfl) shapeCasts_S512_S512x1)
        (broadcastTo S512x1 (shapeCast S1x1 x6 shapeCasts_S1_S1x1) broadcasts_S1x1_S512x1)) i j := by
  intro r
  rw [addf_apply, rsum512, bcol1]
  simp only [hv r]
  rfl

/-! ## The payloads -/

/-- The block's cast to its own shape is the block. -/
theorem pay2_sem : ∀ i, k1_pay2 (F := Ideal) x0 i = x0 i := by
  intro i
  exact cast_self3 x0 i

/-- The attention matrix's cast to its own shape is itself. -/
theorem pay3_sem : ∀ i, k1_pay3 (F := Ideal) x1 i = x1 i := by
  intro i
  exact cast_self_aw x1 i

/-- The pair MLP's first matrix, cast to its own shape, is itself. -/
theorem pay4_sem : ∀ i, k1_pay4 (F := Ideal) x3 i = x3 i := by
  intro i
  exact cast_self_m1 x3 i

/-- The output weights, cast to their own shape and widened, are themselves. -/
theorem pay5_sem : ∀ i, k1_pay5 (F := Ideal) x5 i = x5 i := by
  intro i
  exact cast_self_w2 x5 i

/-- The accumulator starts at zero. -/
theorem pay6_sem : IsAcc x0 x1 x2 x3 x4 x5 x6 (k1_pay6 (F := Ideal)) 0 := by
  intro r
  show Ideal.ofBits .f32 0x00000000#32 = accK x0 x1 x2 x3 x4 x5 x6 r 0
  rw [Ideal.ofBits_zero_f32]
  rfl

/-- Feature row 0. -/
theorem pay7_sem : IsSl x0 (k1_pay7 (F := Ideal) x0) 0 := by
  exact sl_of0 x0 (k1_pay2 x0) (pay2_sem x0)

/-- A · h 0 + a. -/
theorem pay8_sem : IsWa x0 x1 x2 (k1_pay8 (F := Ideal) x0 x1 x2) 0 := by
  exact wa_of x0 x1 x2 (k1_pay7 x0) (k1_pay3 x1) 0 (pay7_sem x0) (pay3_sem x1)

/-- Feature row 1. -/
theorem pay9_sem : IsSl x0 (k1_pay9 (F := Ideal) x0) 1 := by
  exact sl_of1 x0 (k1_pay2 x0) (pay2_sem x0)

/-- The score of the pair (0, 1). -/
theorem pay10_sem : IsScore x0 x1 x2 (k1_pay10 (F := Ideal) x0 x1 x2) 0 1 := by
  exact score_of x0 x1 x2 (k1_pay8 x0 x1 x2) (k1_pay9 x0) 0 1 (pay8_sem x0 x1 x2) (pay9_sem x0)

/-- The order of the pair (0, 1). -/
theorem pay11_sem : IsOrder x0 x3 x4 x5 x6 (k1_pay11 (F := Ideal) x0 x3 x4 x5 x6) 0 1 := by
  exact order_of_pre x0 x3 x4 x5 x6 _ 0 1
    (pre_of x0 x3 x4 x5 (mulf (k1_pay7 x0) (k1_pay9 x0)) (k1_pay4 x3) (k1_pay5 x5) 0 1
      (prod_of x0 _ _ 0 1 (pay7_sem x0) (pay9_sem x0)) (pay4_sem x3) (pay5_sem x5))

/-- Feature row 2. -/
theorem pay12_sem : IsSl x0 (k1_pay12 (F := Ideal) x0) 2 := by
  exact sl_of2 x0 (k1_pay2 x0) (pay2_sem x0)

/-- h 0 ⊙ h 2. -/
theorem pay13_sem : IsProd x0 (k1_pay13 (F := Ideal) x0) 0 2 := by
  exact prod_of x0 _ _ 0 2 (pay7_sem x0) (pay12_sem x0)

/-- The score of the pair (0, 2). -/
theorem pay14_sem (v18 : FVec Ideal S512x256 .f32) (v40 : FVec Ideal S512x256 .bf16)
    (h18 : IsWa x0 x1 x2 v18 0) (h40 : IsSl x0 v40 2) : IsScore x0 x1 x2 (k1_pay14 v18 v40) 0 2 := by
  exact score_of x0 x1 x2 v18 v40 0 2 h18 h40

/-- The order of the pair (0, 2). -/
theorem pay15_sem (v6 : FVec Ideal S256x512 .bf16) (v10 : FVec Ideal S1x512 .f32) (v41 : FVec Ideal S512x256 .bf16)
    (hv6 : ∀ i, v6 i = x3 i) (hv10 : ∀ i, v10 i = x5 i) (h41 : IsProd x0 v41 0 2) :
    IsOrder x0 x3 x4 x5 x6 (k1_pay15 v6 x4 v10 x6 v41) 0 2 := by
  exact order_of_pre x0 x3 x4 x5 x6 _ 0 2 (pre_of x0 x3 x4 x5 v41 v6 v10 0 2 h41 hv6 hv10)

/-- Feature row 3. -/
theorem pay16_sem (v1 : FVec Ideal S512x5x256 .bf16) (hv1 : ∀ i, v1 i = x0 i) : IsSl x0 (k1_pay16 v1) 3 := by
  exact sl_of3 x0 v1 hv1

/-- The score of the pair (0, 3). -/
theorem pay17_sem (v1 : FVec Ideal S512x5x256 .bf16) (v18 : FVec Ideal S512x256 .f32) (hv1 : ∀ i, v1 i = x0 i)
    (h18 : IsWa x0 x1 x2 v18 0) : IsScore x0 x1 x2 (k1_pay17 v1 v18) 0 3 := by
  exact score_of x0 x1 x2 v18 (k1_pay16 v1) 0 3 h18 (pay16_sem x0 v1 hv1)

/-- The order of the pair (0, 3). -/
theorem pay18_sem (v1 : FVec Ideal S512x5x256 .bf16) (v6 : FVec Ideal S256x512 .bf16) (v10 : FVec Ideal S1x512 .f32)
    (v14 : FVec Ideal S512x256 .bf16) (hv1 : ∀ i, v1 i = x0 i) (hv6 : ∀ i, v6 i = x3 i) (hv10 : ∀ i, v10 i = x5 i)
    (h14 : IsSl x0 v14 0) : IsOrder x0 x3 x4 x5 x6 (k1_pay18 v1 v6 x4 v10 x6 v14) 0 3 := by
  exact order_of_pre x0 x3 x4 x5 x6 _ 0 3
    (pre_of x0 x3 x4 x5 (mulf v14 (k1_pay16 v1)) v6 v10 0 3 (prod_of x0 v14 _ 0 3 h14 (pay16_sem x0 v1 hv1)) hv6 hv10)

/-- Feature row 4. -/
theorem pay19_sem (v1 : FVec Ideal S512x5x256 .bf16) (hv1 : ∀ i, v1 i = x0 i) : IsSl x0 (k1_pay19 v1) 4 := by
  exact sl_of4 x0 v1 hv1

/-- The score of the pair (0, 4). -/
theorem pay20_sem (v1 : FVec Ideal S512x5x256 .bf16) (v18 : FVec Ideal S512x256 .f32) (hv1 : ∀ i, v1 i = x0 i)
    (h18 : IsWa x0 x1 x2 v18 0) : IsScore x0 x1 x2 (k1_pay20 v1 v18) 0 4 := by
  exact score_of x0 x1 x2 v18 (k1_pay19 v1) 0 4 h18 (pay19_sem x0 v1 hv1)

/-- The summand of the order of the pair (0, 4). -/
theorem pay21_sem (v1 : FVec Ideal S512x5x256 .bf16) (v6 : FVec Ideal S256x512 .bf16) (v10 : FVec Ideal S1x512 .f32)
    (v14 : FVec Ideal S512x256 .bf16) (hv1 : ∀ i, v1 i = x0 i) (hv6 : ∀ i, v6 i = x3 i) (hv10 : ∀ i, v10 i = x5 i)
    (h14 : IsSl x0 v14 0) : IsPre x0 x3 x4 x5 (k1_pay21 v1 v6 x4 v10 v14) 0 4 := by
  exact pre_of x0 x3 x4 x5 (mulf v14 (k1_pay19 v1)) v6 v10 0 4 (prod_of x0 v14 _ 0 4 h14 (pay19_sem x0 v1 hv1)) hv6 hv10

/-- The accumulator after member 0's four pair terms. -/
theorem pay22_sem (v12 v25 v38 v45 v58 v65 v78 v85 : FVec Ideal S512x1 .f32) (v93 : FVec Ideal S512x512 .f32)
    (h25 : IsScore x0 x1 x2 v25 0 1) (h45 : IsScore x0 x1 x2 v45 0 2) (h65 : IsScore x0 x1 x2 v65 0 3)
    (h85 : IsScore x0 x1 x2 v85 0 4) (h38 : IsOrder x0 x3 x4 x5 x6 v38 0 1) (h58 : IsOrder x0 x3 x4 x5 x6 v58 0 2)
    (h78 : IsOrder x0 x3 x4 x5 x6 v78 0 3) (h93 : IsPre x0 x3 x4 x5 v93 0 4) (h12 : IsAcc x0 x1 x2 x3 x4 x5 x6 v12 0) :
    IsAcc x0 x1 x2 x3 x4 x5 x6 (k1_pay22 x6 v12 v25 v38 v45 v58 v65 v78 v85 v93) 4 := by
  intro r
  have e98 := order_of_pre x0 x3 x4 x5 x6 v93 0 4 h93 r
  unfold k1_pay22
  simp only [addf_apply, mulf_apply, divf_apply, subf_apply, maximumf_apply, exp_at, broadcast_apply] at e98 ⊢
  rw [e98, h25 r, h45 r, h65 r, h85 r, h38 r, h58 r, h78 r, h12 r,
    show (Scalar.ofBits .f32 0x3F800000#32 : Ideal .f32) = (1 : EReal) from one_word]
  rfl

/-- Feature row 1, again. -/
theorem pay23_sem (v1 : FVec Ideal S512x5x256 .bf16) (hv1 : ∀ i, v1 i = x0 i) : IsSl x0 (k1_pay23 v1) 1 := by
  exact sl_of1 x0 v1 hv1

/-- A · h 1 + a. -/
theorem pay24_sem (v1 : FVec Ideal S512x5x256 .bf16) (v3 : FVec Ideal S256x256 .bf16) (hv1 : ∀ i, v1 i = x0 i)
    (hv3 : ∀ i, v3 i = x1 i) : IsWa x0 x1 x2 (k1_pay24 v1 v3 x2) 1 := by
  exact wa_of x0 x1 x2 (k1_pay23 v1) v3 1 (pay23_sem x0 v1 hv1) hv3

/-- Feature row 0, again. -/
theorem pay25_sem (v1 : FVec Ideal S512x5x256 .bf16) (hv1 : ∀ i, v1 i = x0 i) : IsSl x0 (k1_pay25 v1) 0 := by
  exact sl_of0 x0 v1 hv1

/-- The score of the pair (1, 0). -/
theorem pay26_sem (v1 : FVec Ideal S512x5x256 .bf16) (v3 : FVec Ideal S256x256 .bf16) (hv1 : ∀ i, v1 i = x0 i)
    (hv3 : ∀ i, v3 i = x1 i) : IsScore x0 x1 x2 (k1_pay26 v1 v3 x2) 1 0 := by
  exact score_of x0 x1 x2 (k1_pay24 v1 v3 x2) (k1_pay25 v1) 1 0 (pay24_sem x0 x1 x2 v1 v3 hv1 hv3) (pay25_sem x0 v1 hv1)

/-- The summand of the order of the pair (1, 0). -/
theorem pay27_sem (v1 : FVec Ideal S512x5x256 .bf16) (v6 : FVec Ideal S256x512 .bf16) (v10 : FVec Ideal S1x512 .f32)
    (hv1 : ∀ i, v1 i = x0 i) (hv6 : ∀ i, v6 i = x3 i) (hv10 : ∀ i, v10 i = x5 i) :
    IsPre x0 x3 x4 x5 (k1_pay27 v1 v6 x4 v10) 1 0 := by
  exact pre_of x0 x3 x4 x5 (mulf (k1_pay23 v1) (k1_pay25 v1)) v6 v10 1 0
    (prod_of x0 _ _ 1 0 (pay23_sem x0 v1 hv1) (pay25_sem x0 v1 hv1)) hv6 hv10

end Cert.KernelIdeal.K1

end
-- ==== Proof.K1PayB.lean ====
/-
  The second kernel's body, value by value: the rest of the pairs of row 1, all pairs of row 2, and the start of
  row 3.  Each lemma says what one value of the body holds at block row r, given what the values it is computed
  from hold: a feature row, A · h i + a, a score, the summand of an order, an order, the accumulator.
-/
import proofs.«413986_j36318243455110_2_alg».proof.Proof.Gen.KernelIdeal.Skeleton
import proofs.«413986_j36318243455110_2_alg».proof.Proof.K1Sem
import proofs.«413986_j36318243455110_2_alg».proof.Proof.K1Ops

noncomputable section

namespace Cert.KernelIdeal.K1

open Cert.KernelIdeal Cert.KernelIdeal.Gen Idealize.ShloMosaic Idealize.ShloMosaic.ValueIdx

variable (x0 : Vec Ideal S512x5x256 .bf16) (x1 : Vec Ideal S256x256 .bf16) (x2 : Vec Ideal S256 .f32)
  (x3 : Vec Ideal S256x512 .bf16) (x4 : Vec Ideal S512 .f32) (x5 : Vec Ideal S1x512 .bf16) (x6 : Vec Ideal S1 .f32)

/-! ## The pieces every pair is made of -/

/-- Feature row 0 read off the cast block. -/
private theorem sl_0 (v1 : FVec Ideal S512x5x256 .bf16) (hv1 : ∀ i, v1 i = x0 i) :
    IsSl x0 (shapeCast S512x256 (extractStridedSlice S512x1x256 ![0, 0, 0] v1 slices_S512x5x256_o0_0_0_S512x1x256) shapeCasts_S512x1x256_S512x256) 0 := by
  intro r o
  rw [unslab, slab0, hv1]

/-- Feature row 1 read off the cast block. -/
private theorem sl_1 (v1 : FVec Ideal S512x5x256 .bf16) (hv1 : ∀ i, v1 i = x0 i) :
    IsSl x0 (shapeCast S512x256 (extractStridedSlice S512x1x256 ![0, 1, 0] v1 slices_S512x5x256_o0_1_0_S512x1x256) shapeCasts_S512x1x256_S512x256) 1 := by
  intro r o
  rw [unslab, slab1, hv1]

/-- Feature row 2 read off the cast block. -/
private theorem sl_2 (v1 : FVec Ideal S512x5x256 .bf16) (hv1 : ∀ i, v1 i = x0 i) :
    IsSl x0 (shapeCast S512x256 (extractStridedSlice S512x1x256 ![0, 2, 0] v1 slices_S512x5x256_o0_2_0_S512x1x256) shapeCasts_S512x1x256_S512x256) 2 := by
  intro r o
  rw [unslab, slab2, hv1]

/-- Feature row 3 read off the cast block. -/
private theorem sl_3 (v1 : FVec Ideal S512x5x256 .bf16) (hv1 : ∀ i, v1 i = x0 i) :
    IsSl x0 (shapeCast S512x256 (extractStridedSlice S512x1x256 ![0, 3, 0] v1 slices_S512x5x256_o0_3_0_S512x1x256) shapeCasts_S512x1x256_S512x256) 3 := by
  intro r o
  rw [unslab, slab3, hv1]

/-- Feature row 4 read off the cast block. -/
private theorem sl_4 (v1 : FVec Ideal S512x5x256 .bf16) (hv1 : ∀ i, v1 i = x0 i) :
    IsSl x0 (shapeCast S512x256 (extractStridedSlice S512x1x256 ![0, 4, 0] v1 slices_S512x5x256_o0_4_0_S512x1x256) shapeCasts_S512x1x256_S512x256) 4 := by
  intro r o
  rw [unslab, slab4, hv1]

/-- Feature row 4 kept as a slab. -/
private theorem sl3_4 (v1 : FVec Ideal S512x5x256 .bf16) (hv1 : ∀ i, v1 i = x0 i) :
    IsSl3 x0 (extractStridedSlice S512x1x256 ![0, 4, 0] v1 slices_S512x5x256_o0_4_0_S512x1x256) 4 := by
  intro r o
  rw [slab4, hv1]

/-- A slab with its unit axis dropped. -/
private theorem sl_of_sl3 (t : Fin 5) (v : FVec Ideal S512x1x256 .bf16) (hv : IsSl3 x0 v t) :
    IsSl x0 (shapeCast S512x256 v shapeCasts_S512x1x256_S512x256) t := by
  intro r o
  rw [unslab, hv]

/-- The entrywise product of two feature rows. -/
private theorem prod_of (i j : Fin 5) (a b : FVec Ideal S512x256 .bf16) (ha : IsSl x0 a i) (hb : IsSl x0 b j) :
    IsProd x0 (mulf a b) i j := by
  intro r o
  rw [mulf_apply, ha, hb]

/-- A · h i + a from feature row i. -/
private theorem wa_of (i : Fin 5) (a : FVec Ideal S512x256 .bf16) (ha : IsSl x0 a i)
    (v3 : FVec Ideal S256x256 .bf16) (hv3 : ∀ i, v3 i = x1 i) :
    IsWa x0 x1 x2 (addf (matmul dot_S512x256_S256x256_S512x256_1_0_0_1_n_n none a v3 (constant S512x256 .f32 0x00000000#32))
      (broadcastTo S512x256 (shapeCast S1x256 x2 shapeCasts_S256_S1x256) broadcasts_S1x256_S512x256)) i := by
  intro r o
  rw [addf_apply, mm256, brow256]
  unfold Cert.Spec.wa
  congr 1
  refine Finset.sum_congr rfl fun h _ => ?_
  rw [ha, hv3]

/-- The score of (i, j) from A · h i + a and feature row j. -/
private theorem score_of (i j : Fin 5) (w : FVec Ideal S512x256 .f32) (b : FVec Ideal S512x256 .bf16)
    (hw : IsWa x0 x1 x2 w i) (hb : IsSl x0 b j) :
    IsScore x0 x1 x2 (shapeCast S512x1 (multiReduction .add [1] S512 (mulf w (extf .f32 b bitsLt_bf16_f32)) 0x00000000#32 reduces_S512x256_S512 (.inl rfl) rfl) shapeCasts_S512_S512x1) i j := by
  intro r
  rw [rsum256]
  unfold Cert.Spec.score
  refine Finset.sum_congr rfl fun o _ => ?_
  rw [mulf_apply, extf_apply, hw, hb]

/-- M₁ · (h i ⊙ h j) from the product. -/
private theorem mm_of (i j : Fin 5) (p : FVec Ideal S512x256 .bf16) (hp : IsProd x0 p i j)
    (v6 : FVec Ideal S256x512 .bf16) (hv6 : ∀ i, v6 i = x3 i) :
    IsMM x0 x3 (matmul dot_S512x256_S256x512_S512x512_1_0_0_1_n_n none p v6 (constant S512x512 .f32 0x00000000#32)) i j := by
  intro r m
  rw [mm512]
  refine Finset.sum_congr rfl fun h _ => ?_
  rw [hp, hv6]

/-- Adding the bias c₁. -/
private theorem z_of (i j : Fin 5) (v : FVec Ideal S512x512 .f32) (hv : IsMM x0 x3 v i j) :
    IsZ x0 x3 x4 (addf v (broadcastTo S512x512 (shapeCast S1x512 x4 shapeCasts_S512_S1x512) broadcasts_S1x512_S512x512)) i j := by
  intro r m
  rw [addf_apply, brow512, hv]
  rfl

/-- silu, then the entrywise product with w₂. -/
private theorem pre_of (i j : Fin 5) (z : FVec Ideal S512x512 .f32) (hz : IsZ x0 x3 x4 z i j)
    (v10 : FVec Ideal S1x512 .f32) (hv10 : ∀ i, v10 i = x5 i) :
    IsPre x0 x3 x4 x5 (mulf (mulf z (logistic z)) (broadcastTo S512x512 v10 broadcasts_S1x512_S512x512)) i j := by
  intro r m
  rw [mulf_apply, mulf_apply, bw2, hv10]
  show z (ix2 r m) * Ideal.logistic (z (ix2 r m)) * _ = _
  rw [hz]
  rfl

/-- The row sum and the bias c₂. -/
private theorem ord_of (i j : Fin 5) (p : FVec Ideal S512x512 .f32) (hp : IsPre x0 x3 x4 x5 p i j) :
    IsOrder x0 x3 x4 x5 x6 (addf (shapeCast S512x1 (multiReduction .add [1] S512 p 0x00000000#32 reduces_S512x512_S512 (.inl rfl) rfl) shapeCasts_S512_S512x1) (broadcastTo S512x1 (shapeCast S1x1 x6 shapeCasts_S1_S1x1) broadcasts_S1x1_S512x1)) i j := by
  intro r
  rw [addf_apply, rsum512, bcol1]
  unfold Cert.Spec.order
  congr 1
  refine Finset.sum_congr rfl fun m _ => ?_
  rw [hp]

/-- The order of (i, j) from M₁ · (h i ⊙ h j). -/
private theorem order_of_mm (i j : Fin 5) (v : FVec Ideal S512x512 .f32) (hv : IsMM x0 x3 v i j)
    (v10 : FVec Ideal S1x512 .f32) (hv10 : ∀ i, v10 i = x5 i) :
    IsOrder x0 x3 x4 x5 x6 (addf (shapeCast S512x1 (multiReduction .add [1] S512 (mulf (mulf (addf v (broadcastTo S512x512 (shapeCast S1x512 x4 shapeCasts_S512_S1x512) broadcasts_S1x512_S512x512)) (logistic (addf v (broadcastTo S512x512 (shapeCast S1x512 x4 shapeCasts_S512_S1x512) broadcasts_S1x512_S512x512)))) (broadcastTo S512x512 v10 broadcasts_S1x512_S512x512)) 0x00000000#32 reduces_S512x512_S512 (.inl rfl) rfl) shapeCasts_S512_S512x1) (broadcastTo S512x1 (shapeCast S1x1 x6 shapeCasts_S1_S1x1) broadcasts_S1x1_S512x1)) i j :=
  ord_of x0 x3 x4 x5 x6 i j _ (pre_of x0 x3 x4 x5 i j _ (z_of x0 x3 x4 i j v hv) v10 hv10)

/-- The order of (i, j) from the product h i ⊙ h j. -/
private theorem order_of_prod (i j : Fin 5) (p : FVec Ideal S512x256 .bf16) (hp : IsProd x0 p i j)
    (v6 : FVec Ideal S256x512 .bf16) (hv6 : ∀ i, v6 i = x3 i)
    (v10 : FVec Ideal S1x512 .f32) (hv10 : ∀ i, v10 i = x5 i) :
    IsOrder x0 x3 x4 x5 x6 (addf (shapeCast S512x1 (multiReduction .add [1] S512 (mulf (mulf (addf (matmul dot_S512x256_S256x512_S512x512_1_0_0_1_n_n none p v6 (constant S512x512 .f32 0x00000000#32)) (broadcastTo S512x512 (shapeCast S1x512 x4 shapeCasts_S512_S1x512) broadcasts_S1x512_S512x512)) (logistic (addf (matmul dot_S512x256_S256x512_S512x512_1_0_0_1_n_n none p v6 (constant S512x512 .f32 0x00000000#32)) (broadcastTo S512x512 (shapeCast S1x512 x4 shapeCasts_S512_S1x512) broadcasts_S1x512_S512x512)))) (broadcastTo S512x512 v10 broadcasts_S1x512_S512x512)) 0x00000000#32 reduces_S512x512_S512 (.inl rfl) rfl) shapeCasts_S512_S512x1) (broadcastTo S512x1 (shapeCast S1x1 x6 shapeCasts_S1_S1x1) broadcasts_S1x1_S512x1)) i j :=
  order_of_mm x0 x3 x4 x5 x6 i j _ (mm_of x0 x3 i j p hp v6 hv6) v10 hv10

/-! ## One row of the soft-max: four scores and four orders into the accumulator -/

/-- exp, entry by entry. -/
private theorem exp_at (v : FVec Ideal S512x1 .f32) (i : S512x1.Idx) : exp v i = Ideal.exp (v i) := rfl

/-- From the accumulator after n terms, row i's four scores and four orders give the accumulator after n + 4. -/
private theorem acc_step (i : Fin 5) (n : ℕ)
    (ht0 : ∀ r, termN x0 x1 x2 x3 x4 x5 x6 r n = Cert.Spec.termK (AW x1) (AB x2) (M1 x3) (MB1 x4) (M2 x5) (MB2 x6) (hfr x0 r) i 0) (ht1 : ∀ r, termN x0 x1 x2 x3 x4 x5 x6 r (n + 1) = Cert.Spec.termK (AW x1) (AB x2) (M1 x3) (MB1 x4) (M2 x5) (MB2 x6) (hfr x0 r) i 1)
    (ht2 : ∀ r, termN x0 x1 x2 x3 x4 x5 x6 r (n + 2) = Cert.Spec.termK (AW x1) (AB x2) (M1 x3) (MB1 x4) (M2 x5) (MB2 x6) (hfr x0 r) i 2) (ht3 : ∀ r, termN x0 x1 x2 x3 x4 x5 x6 r (n + 3) = Cert.Spec.termK (AW x1) (AB x2) (M1 x3) (MB1 x4) (M2 x5) (MB2 x6) (hfr x0 r) i 3)
    (acc s0 s1 s2 s3 o0 o1 o2 o3 : FVec Ideal S512x1 .f32)
    (hacc : IsAcc x0 x1 x2 x3 x4 x5 x6 acc n)
    (hs0 : IsScore x0 x1 x2 s0 i (Cert.Spec.oth i 0)) (hs1 : IsScore x0 x1 x2 s1 i (Cert.Spec.oth i 1))
    (hs2 : IsScore x0 x1 x2 s2 i (Cert.Spec.oth i 2)) (hs3 : IsScore x0 x1 x2 s3 i (Cert.Spec.oth i 3))
    (ho0 : IsOrder x0 x3 x4 x5 x6 o0 i (Cert.Spec.oth i 0)) (ho1 : IsOrder x0 x3 x4 x5 x6 o1 i (Cert.Spec.oth i 1))
    (ho2 : IsOrder x0 x3 x4 x5 x6 o2 i (Cert.Spec.oth i 2)) (ho3 : IsOrder x0 x3 x4 x5 x6 o3 i (Cert.Spec.oth i 3)) :
    IsAcc x0 x1 x2 x3 x4 x5 x6
      (addf (addf (addf (addf acc (mulf o0 (mulf (exp (subf s0 (maximumf (maximumf (maximumf s0 s1) s2) s3))) (divf (broadcast S512x1 (Scalar.ofBits .f32 0x3F800000#32)) (addf (addf (addf (exp (subf s0 (maximumf (maximumf (maximumf s0 s1) s2) s3))) (exp (subf s1 (maximumf (maximumf (maximumf s0 s1) s2) s3)))) (exp (subf s2 (maximumf (maximumf (maximumf s0 s1) s2) s3)))) (exp (subf s3 (maximumf (maximumf (maximumf s0 s1) s2) s3)))))))) (mulf o1 (mulf (exp (subf s1 (maximumf (maximumf (maximumf s0 s1) s2) s3))) (divf (broadcast S512x1 (Scalar.ofBits .f32 0x3F800000#32)) (addf (addf (addf (exp (subf s0 (maximumf (maximumf (maximumf s0 s1) s2) s3))) (exp (subf s1 (maximumf (maximumf (maximumf s0 s1) s2) s3)))) (exp (subf s2 (maximumf (maximumf (maximumf s0 s1) s2) s3)))) (exp (subf s3 (maximumf (maximumf (maximumf s0 s1) s2) s3)))))))) (mulf o2 (mulf (exp (subf s2 (maximumf (maximumf (maximumf s0 s1) s2) s3))) (divf (broadcast S512x1 (Scalar.ofBits .f32 0x3F800000#32)) (addf (addf (addf (exp (subf s0 (maximumf (maximumf (maximumf s0 s1) s2) s3))) (exp (subf s1 (maximumf (maximumf (maximumf s0 s1) s2) s3)))) (exp (subf s2 (maximumf (maximumf (maximumf s0 s1) s2) s3)))) (exp (subf s3 (maximumf (maximumf (maximumf s0 s1) s2) s3)))))))) (mulf o3 (mulf (exp (subf s3 (maximumf (maximumf (maximumf s0 s1) s2) s3))) (divf (broadcast S512x1 (Scalar.ofBits .f32 0x3F800000#32)) (addf (addf (addf (exp (subf s0 (maximumf (maximumf (maximumf s0 s1) s2) s3))) (exp (subf s1 (maximumf (maximumf (maximumf s0 s1) s2) s3)))) (exp (subf s2 (maximumf (maximumf (maximumf s0 s1) s2) s3)))) (exp (subf s3 (maximumf (maximumf (maximumf s0 s1) s2) s3)))))))) (n + 4) := by
  intro r
  show _ = accK x0 x1 x2 x3 x4 x5 x6 r n + termN x0 x1 x2 x3 x4 x5 x6 r n + termN x0 x1 x2 x3 x4 x5 x6 r (n + 1) + termN x0 x1 x2 x3 x4 x5 x6 r (n + 2) + termN x0 x1 x2 x3 x4 x5 x6 r (n + 3)
  rw [ht0 r, ht1 r, ht2 r, ht3 r]
  simp only [addf_apply, mulf_apply, divf_apply, subf_apply, maximumf_apply, broadcast_apply, exp_at]
  rw [hacc r, hs0 r, hs1 r, hs2 r, hs3 r, ho0 r, ho1 r, ho2 r, ho3 r]
  show _ + _ * (_ * Ideal.div (Ideal.ofBits .f32 0x3F800000#32) _) + _ * (_ * Ideal.div (Ideal.ofBits .f32 0x3F800000#32) _)
    + _ * (_ * Ideal.div (Ideal.ofBits .f32 0x3F800000#32) _) + _ * (_ * Ideal.div (Ideal.ofBits .f32 0x3F800000#32) _) = _
  rw [one_word]
  rfl

/-! ## The values of the body, in order -/

theorem pay28_sem (v147 : FVec Ideal S512x512 .f32) (h147 : IsPre x0 x3 x4 x5 v147 1 0) : IsOrder x0 x3 x4 x5 x6 (k1_pay28 (F := Ideal) x6 v147) 1 0 := by
  exact ord_of x0 x3 x4 x5 x6 1 0 v147 h147

theorem pay29_sem (v1 : FVec Ideal S512x5x256 .bf16) (hv1 : ∀ i, v1 i = x0 i) : IsSl x0 (k1_pay29 (F := Ideal) v1) 2 := by
  exact sl_2 x0 v1 hv1

theorem pay30_sem (v1 : FVec Ideal S512x5x256 .bf16) (hv1 : ∀ i, v1 i = x0 i) (v132 : FVec Ideal S512x256 .f32) (h132 : IsWa x0 x1 x2 v132 1) : IsScore x0 x1 x2 (k1_pay30 (F := Ideal) v1 v132) 1 2 := by
  exact score_of x0 x1 x2 1 2 v132 _ h132 (sl_2 x0 v1 hv1)

theorem pay31_sem (v1 : FVec Ideal S512x5x256 .bf16) (hv1 : ∀ i, v1 i = x0 i) (v6 : FVec Ideal S256x512 .bf16) (hv6 : ∀ i, v6 i = x3 i) (v10 : FVec Ideal S1x512 .f32) (hv10 : ∀ i, v10 i = x5 i) (v128 : FVec Ideal S512x256 .bf16) (h128 : IsSl x0 v128 1) :
    IsOrder x0 x3 x4 x5 x6 (k1_pay31 (F := Ideal) v1 v6 x4 v10 x6 v128) 1 2 := by
  exact order_of_prod x0 x3 x4 x5 x6 1 2 _ (prod_of x0 1 2 v128 _ h128 (sl_2 x0 v1 hv1)) v6 hv6 v10 hv10

theorem pay32_sem (v1 : FVec Ideal S512x5x256 .bf16) (hv1 : ∀ i, v1 i = x0 i) : IsSl x0 (k1_pay32 (F := Ideal) v1) 3 := by
  exact sl_3 x0 v1 hv1

theorem pay33_sem (v1 : FVec Ideal S512x5x256 .bf16) (hv1 : ∀ i, v1 i = x0 i) (v132 : FVec Ideal S512x256 .f32) (h132 : IsWa x0 x1 x2 v132 1) : IsScore x0 x1 x2 (k1_pay33 (F := Ideal) v1 v132) 1 3 := by
  exact score_of x0 x1 x2 1 3 v132 _ h132 (sl_3 x0 v1 hv1)

theorem pay34_sem (v1 : FVec Ideal S512x5x256 .bf16) (hv1 : ∀ i, v1 i = x0 i) (v6 : FVec Ideal S256x512 .bf16) (hv6 : ∀ i, v6 i = x3 i) (v10 : FVec Ideal S1x512 .f32) (hv10 : ∀ i, v10 i = x5 i) (v128 : FVec Ideal S512x256 .bf16) (h128 : IsSl x0 v128 1) :
    IsOrder x0 x3 x4 x5 x6 (k1_pay34 (F := Ideal) v1 v6 x4 v10 x6 v128) 1 3 := by
  exact order_of_prod x0 x3 x4 x5 x6 1 3 _ (prod_of x0 1 3 v128 _ h128 (sl_3 x0 v1 hv1)) v6 hv6 v10 hv10

theorem pay35_sem (v1 : FVec Ideal S512x5x256 .bf16) (hv1 : ∀ i, v1 i = x0 i) : IsSl x0 (k1_pay35 (F := Ideal) v1) 4 := by
  exact sl_4 x0 v1 hv1

theorem pay36_sem (v1 : FVec Ideal S512x5x256 .bf16) (hv1 : ∀ i, v1 i = x0 i) (v128 : FVec Ideal S512x256 .bf16) (h128 : IsSl x0 v128 1) : IsProd x0 (k1_pay36 (F := Ideal) v1 v128) 1 4 := by
  exact prod_of x0 1 4 v128 _ h128 (sl_4 x0 v1 hv1)

theorem pay37_sem (v1 : FVec Ideal S512x5x256 .bf16) (hv1 : ∀ i, v1 i = x0 i) (v132 : FVec Ideal S512x256 .f32) (h132 : IsWa x0 x1 x2 v132 1) : IsScore x0 x1 x2 (k1_pay37 (F := Ideal) v1 v132) 1 4 := by
  exact score_of x0 x1 x2 1 4 v132 _ h132 (sl_4 x0 v1 hv1)

theorem pay38_sem (v6 : FVec Ideal S256x512 .bf16) (hv6 : ∀ i, v6 i = x3 i) (v10 : FVec Ideal S1x512 .f32) (hv10 : ∀ i, v10 i = x5 i) (v126 : FVec Ideal S512x1 .f32) (v139 : FVec Ideal S512x1 .f32) (v152 : FVec Ideal S512x1 .f32) (v159 : FVec Ideal S512x1 .f32) (v172 : FVec Ideal S512x1 .f32) (v179 : FVec Ideal S512x1 .f32) (v192 : FVec Ideal S512x1 .f32)
    (v195 : FVec Ideal S512x256 .bf16) (v199 : FVec Ideal S512x1 .f32) (cst_36 : FVec Ideal S512x512 .f32)
    (h126 : IsAcc x0 x1 x2 x3 x4 x5 x6 v126 4) (h139 : IsScore x0 x1 x2 v139 1 0) (h152 : IsOrder x0 x3 x4 x5 x6 v152 1 0) (h159 : IsScore x0 x1 x2 v159 1 2)
    (h172 : IsOrder x0 x3 x4 x5 x6 v172 1 2) (h179 : IsScore x0 x1 x2 v179 1 3) (h192 : IsOrder x0 x3 x4 x5 x6 v192 1 3) (h195 : IsProd x0 v195 1 4)
    (h199 : IsScore x0 x1 x2 v199 1 4) (hcst : cst_36 = constant S512x512 .f32 0x00000000#32) :
    IsAcc x0 x1 x2 x3 x4 x5 x6 (k1_pay38 (F := Ideal) v6 x4 v10 x6 v126 v139 v152 v159 v172 v179 v192 v195 v199 cst_36) 8 := by
  subst hcst
  exact acc_step x0 x1 x2 x3 x4 x5 x6 1 4 (fun _ => rfl) (fun _ => rfl) (fun _ => rfl) (fun _ => rfl)
    v126 v139 v159 v179 v199 v152 v172 v192 _ h126 h139 h159 h179 h199 h152 h172 h192
    (order_of_prod x0 x3 x4 x5 x6 1 4 v195 h195 v6 hv6 v10 hv10)

theorem pay39_sem (v1 : FVec Ideal S512x5x256 .bf16) (hv1 : ∀ i, v1 i = x0 i) : IsSl x0 (k1_pay39 (F := Ideal) v1) 2 := by
  exact sl_2 x0 v1 hv1

theorem pay40_sem (v1 : FVec Ideal S512x5x256 .bf16) (hv1 : ∀ i, v1 i = x0 i) (v3 : FVec Ideal S256x256 .bf16) (hv3 : ∀ i, v3 i = x1 i) : IsWa x0 x1 x2 (k1_pay40 (F := Ideal) v1 v3 x2) 2 := by
  exact wa_of x0 x1 x2 2 _ (sl_2 x0 v1 hv1) v3 hv3

theorem pay41_sem (v1 : FVec Ideal S512x5x256 .bf16) (hv1 : ∀ i, v1 i = x0 i) : IsSl x0 (k1_pay41 (F := Ideal) v1) 0 := by
  exact sl_0 x0 v1 hv1

theorem pay42_sem (v1 : FVec Ideal S512x5x256 .bf16) (hv1 : ∀ i, v1 i = x0 i) (v3 : FVec Ideal S256x256 .bf16) (hv3 : ∀ i, v3 i = x1 i) : IsScore x0 x1 x2 (k1_pay42 (F := Ideal) v1 v3 x2) 2 0 := by
  exact score_of x0 x1 x2 2 0 _ _ (wa_of x0 x1 x2 2 _ (sl_2 x0 v1 hv1) v3 hv3) (sl_0 x0 v1 hv1)

theorem pay43_sem (v1 : FVec Ideal S512x5x256 .bf16) (hv1 : ∀ i, v1 i = x0 i) (v6 : FVec Ideal S256x512 .bf16) (hv6 : ∀ i, v6 i = x3 i) : IsMM x0 x3 (k1_pay43 (F := Ideal) v1 v6) 2 0 := by
  exact mm_of x0 x3 2 0 _ (prod_of x0 2 0 _ _ (sl_2 x0 v1 hv1) (sl_0 x0 v1 hv1)) v6 hv6

theorem pay44_sem (v10 : FVec Ideal S1x512 .f32) (hv10 : ∀ i, v10 i = x5 i) (v254 : FVec Ideal S512x512 .f32) (h254 : IsMM x0 x3 v254 2 0) : IsOrder x0 x3 x4 x5 x6 (k1_pay44 (F := Ideal) x4 v10 x6 v254) 2 0 := by
  exact order_of_mm x0 x3 x4 x5 x6 2 0 v254 h254 v10 hv10

theorem pay45_sem (v1 : FVec Ideal S512x5x256 .bf16) (hv1 : ∀ i, v1 i = x0 i) : IsSl x0 (k1_pay45 (F := Ideal) v1) 1 := by
  exact sl_1 x0 v1 hv1

theorem pay46_sem (v1 : FVec Ideal S512x5x256 .bf16) (hv1 : ∀ i, v1 i = x0 i) (v246 : FVec Ideal S512x256 .f32) (h246 : IsWa x0 x1 x2 v246 2) : IsScore x0 x1 x2 (k1_pay46 (F := Ideal) v1 v246) 2 1 := by
  exact score_of x0 x1 x2 2 1 v246 _ h246 (sl_1 x0 v1 hv1)

theorem pay47_sem (v1 : FVec Ideal S512x5x256 .bf16) (hv1 : ∀ i, v1 i = x0 i) (v6 : FVec Ideal S256x512 .bf16) (hv6 : ∀ i, v6 i = x3 i) (v10 : FVec Ideal S1x512 .f32) (hv10 : ∀ i, v10 i = x5 i) (v242 : FVec Ideal S512x256 .bf16) (h242 : IsSl x0 v242 2) :
    IsOrder x0 x3 x4 x5 x6 (k1_pay47 (F := Ideal) v1 v6 x4 v10 x6 v242) 2 1 := by
  exact order_of_prod x0 x3 x4 x5 x6 2 1 _ (prod_of x0 2 1 v242 _ h242 (sl_1 x0 v1 hv1)) v6 hv6 v10 hv10

theorem pay48_sem (v1 : FVec Ideal S512x5x256 .bf16) (hv1 : ∀ i, v1 i = x0 i) : IsSl x0 (k1_pay48 (F := Ideal) v1) 3 := by
  exact sl_3 x0 v1 hv1

theorem pay49_sem (v1 : FVec Ideal S512x5x256 .bf16) (hv1 : ∀ i, v1 i = x0 i) (v246 : FVec Ideal S512x256 .f32) (h246 : IsWa x0 x1 x2 v246 2) : IsScore x0 x1 x2 (k1_pay49 (F := Ideal) v1 v246) 2 3 := by
  exact score_of x0 x1 x2 2 3 v246 _ h246 (sl_3 x0 v1 hv1)

theorem pay50_sem (v1 : FVec Ideal S512x5x256 .bf16) (hv1 : ∀ i, v1 i = x0 i) (v6 : FVec Ideal S256x512 .bf16) (hv6 : ∀ i, v6 i = x3 i) (v10 : FVec Ideal S1x512 .f32) (hv10 : ∀ i, v10 i = x5 i) (v242 : FVec Ideal S512x256 .bf16) (h242 : IsSl x0 v242 2) :
    IsOrder x0 x3 x4 x5 x6 (k1_pay50 (F := Ideal) v1 v6 x4 v10 x6 v242) 2 3 := by
  exact order_of_prod x0 x3 x4 x5 x6 2 3 _ (prod_of x0 2 3 v242 _ h242 (sl_3 x0 v1 hv1)) v6 hv6 v10 hv10

theorem pay51_sem (v1 : FVec Ideal S512x5x256 .bf16) (hv1 : ∀ i, v1 i = x0 i) : IsSl3 x0 (k1_pay51 (F := Ideal) v1) 4 := by
  exact sl3_4 x0 v1 hv1

theorem pay52_sem (v6 : FVec Ideal S256x512 .bf16) (hv6 : ∀ i, v6 i = x3 i) (v10 : FVec Ideal S1x512 .f32) (hv10 : ∀ i, v10 i = x5 i) (v240 : FVec Ideal S512x1 .f32) (v242 : FVec Ideal S512x256 .bf16) (v246 : FVec Ideal S512x256 .f32) (v253 : FVec Ideal S512x1 .f32) (v266 : FVec Ideal S512x1 .f32) (v273 : FVec Ideal S512x1 .f32) (v286 : FVec Ideal S512x1 .f32)
    (v293 : FVec Ideal S512x1 .f32) (v306 : FVec Ideal S512x1 .f32) (v307 : FVec Ideal S512x1x256 .bf16)
    (h240 : IsAcc x0 x1 x2 x3 x4 x5 x6 v240 8) (h242 : IsSl x0 v242 2) (h246 : IsWa x0 x1 x2 v246 2) (h253 : IsScore x0 x1 x2 v253 2 0)
    (h266 : IsOrder x0 x3 x4 x5 x6 v266 2 0) (h273 : IsScore x0 x1 x2 v273 2 1) (h286 : IsOrder x0 x3 x4 x5 x6 v286 2 1) (h293 : IsScore x0 x1 x2 v293 2 3)
    (h306 : IsOrder x0 x3 x4 x5 x6 v306 2 3) (h307 : IsSl3 x0 v307 4) :
    IsAcc x0 x1 x2 x3 x4 x5 x6 (k1_pay52 (F := Ideal) v6 x4 v10 x6 v240 v242 v246 v253 v266 v273 v286 v293 v306 v307) 12 := by
  exact acc_step x0 x1 x2 x3 x4 x5 x6 2 8 (fun _ => rfl) (fun _ => rfl) (fun _ => rfl) (fun _ => rfl)
    v240 v253 v273 v293 _ v266 v286 v306 _ h240 h253 h273 h293
    (score_of x0 x1 x2 2 4 v246 _ h246 (sl_of_sl3 x0 4 v307 h307)) h266 h286 h306
    (order_of_prod x0 x3 x4 x5 x6 2 4 _ (prod_of x0 2 4 v242 _ h242 (sl_of_sl3 x0 4 v307 h307)) v6 hv6 v10 hv10)

theorem pay53_sem (v1 : FVec Ideal S512x5x256 .bf16) (hv1 : ∀ i, v1 i = x0 i) : IsSl x0 (k1_pay53 (F := Ideal) v1) 3 := by
  exact sl_3 x0 v1 hv1

theorem pay54_sem (v1 : FVec Ideal S512x5x256 .bf16) (hv1 : ∀ i, v1 i = x0 i) (v3 : FVec Ideal S256x256 .bf16) (hv3 : ∀ i, v3 i = x1 i) : IsWa x0 x1 x2 (k1_pay54 (F := Ideal) v1 v3 x2) 3 := by
  exact wa_of x0 x1 x2 3 _ (sl_3 x0 v1 hv1) v3 hv3

theorem pay55_sem (v1 : FVec Ideal S512x5x256 .bf16) (hv1 : ∀ i, v1 i = x0 i) : IsSl x0 (k1_pay55 (F := Ideal) v1) 0 := by
  exact sl_0 x0 v1 hv1

end Cert.KernelIdeal.K1

end
-- ==== Proof.K1PayC.lean ====
/-
  The second kernel's body, its last stretch, row by row: the rest of the pairs led by feature row 3, all pairs led
  by feature row 4, and the last accumulations.  Each lemma says what one intermediate vector holds at block row r,
  given what the vectors it is formed from hold.
-/
import proofs.«413986_j36318243455110_2_alg».proof.Proof.Gen.KernelIdeal.Skeleton
import proofs.«413986_j36318243455110_2_alg».proof.Proof.K1Sem
import proofs.«413986_j36318243455110_2_alg».proof.Proof.K1Ops

noncomputable section

namespace Cert.KernelIdeal.K1

open Cert.KernelIdeal Cert.KernelIdeal.Gen Idealize.ShloMosaic Idealize.ShloMosaic.ValueIdx

section
variable (x0 : Vec Ideal S512x5x256 .bf16) (x1 : Vec Ideal S256x256 .bf16) (x2 : Vec Ideal S256 .f32)
  (x3 : Vec Ideal S256x512 .bf16) (x4 : Vec Ideal S512 .f32) (x5 : Vec Ideal S1x512 .bf16) (x6 : Vec Ideal S1 .f32)

/-- v is the n-th pair term of every block row. -/
def IsTerm (v : FVec Ideal S512x1 .f32) (n : ℕ) : Prop := ∀ r : Fin 512, v (ix2 r 0) = termN x0 x1 x2 x3 x4 x5 x6 r n

/-! ## The operations, one at a time -/

/-- The slab at offset 0 is feature row 0. -/
private theorem slab_sem0 (v1 : FVec Ideal S512x5x256 .bf16) (hv1 : ∀ i, v1 i = x0 i) :
    IsSl3 x0 (extractStridedSlice S512x1x256 ![0, 0, 0] v1 slices_S512x5x256_o0_0_0_S512x1x256) 0 := by
  intro r o
  rw [slab0, hv1]

/-- The slab at offset 1 is feature row 1. -/
private theorem slab_sem1 (v1 : FVec Ideal S512x5x256 .bf16) (hv1 : ∀ i, v1 i = x0 i) :
    IsSl3 x0 (extractStridedSlice S512x1x256 ![0, 1, 0] v1 slices_S512x5x256_o0_1_0_S512x1x256) 1 := by
  intro r o
  rw [slab1, hv1]

/-- The slab at offset 2 is feature row 2. -/
private theorem slab_sem2 (v1 : FVec Ideal S512x5x256 .bf16) (hv1 : ∀ i, v1 i = x0 i) :
    IsSl3 x0 (extractStridedSlice S512x1x256 ![0, 2, 0] v1 slices_S512x5x256_o0_2_0_S512x1x256) 2 := by
  intro r o
  rw [slab2, hv1]

/-- The slab at offset 3 is feature row 3. -/
private theorem slab_sem3 (v1 : FVec Ideal S512x5x256 .bf16) (hv1 : ∀ i, v1 i = x0 i) :
    IsSl3 x0 (extractStridedSlice S512x1x256 ![0, 3, 0] v1 slices_S512x5x256_o0_3_0_S512x1x256) 3 := by
  intro r o
  rw [slab3, hv1]

/-- The slab at offset 4 is feature row 4. -/
private theorem slab_sem4 (v1 : FVec Ideal S512x5x256 .bf16) (hv1 : ∀ i, v1 i = x0 i) :
    IsSl3 x0 (extractStridedSlice S512x1x256 ![0, 4, 0] v1 slices_S512x5x256_o0_4_0_S512x1x256) 4 := by
  intro r o
  rw [slab4, hv1]

/-- A slab read as a matrix. -/
private theorem sl_of_slab (s : FVec Ideal S512x1x256 .bf16) (t : Fin 5) (h : IsSl3 x0 s t) :
    IsSl x0 (shapeCast S512x256 s shapeCasts_S512x1x256_S512x256) t := by
  intro r o
  rw [unslab]
  exact h r o

/-- The entrywise product of two feature rows. -/
private theorem prod_of (a b : FVec Ideal S512x256 .bf16) (i j : Fin 5) (ha : IsSl x0 a i) (hb : IsSl x0 b j) :
    IsProd x0 (mulf a b) i j := by
  intro r o
  rw [mulf_apply, ha, hb]

/-- A · h i + a, from feature row i. -/
private theorem wa_of (v3 : FVec Ideal S256x256 .bf16) (s : FVec Ideal S512x256 .bf16) (i : Fin 5) (hv3 : ∀ i, v3 i = x1 i)
    (hs : IsSl x0 s i) :
    IsWa x0 x1 x2 (addf (matmul dot_S512x256_S256x256_S512x256_1_0_0_1_n_n none s v3 (constant S512x256 .f32 0x00000000#32))
      (broadcastTo S512x256 (shapeCast S1x256 x2 shapeCasts_S256_S1x256) broadcasts_S1x256_S512x256)) i := by
  intro r o
  rw [addf_apply, mm256, brow256]
  unfold Cert.Spec.wa
  congr 1
  refine Finset.sum_congr rfl fun h _ => ?_
  rw [hs, hv3]

/-- The score ⟨A · h i + a, h j⟩ as a row sum. -/
private theorem score_of (w : FVec Ideal S512x256 .f32) (s : FVec Ideal S512x256 .bf16) (i j : Fin 5) (hw : IsWa x0 x1 x2 w i)
    (hs : IsSl x0 s j) :
    IsScore x0 x1 x2 (shapeCast S512x1 (multiReduction .add [1] S512 (mulf w (extf .f32 s bitsLt_bf16_f32)) 0x00000000#32 reduces_S512x256_S512 (.inl rfl) rfl) shapeCasts_S512_S512x1) i j := by
  intro r
  rw [rsum256]
  unfold Cert.Spec.score
  refine Finset.sum_congr rfl fun o _ => ?_
  rw [mulf_apply, extf_apply, hw, hs]

/-- M₁ · (h i ⊙ h j) + c₁, from the product of the two feature rows. -/
private theorem z_of (v6 : FVec Ideal S256x512 .bf16) (p : FVec Ideal S512x256 .bf16) (i j : Fin 5) (hv6 : ∀ i, v6 i = x3 i)
    (hp : IsProd x0 p i j) :
    IsZ x0 x3 x4 (addf (matmul dot_S512x256_S256x512_S512x512_1_0_0_1_n_n none p v6 (constant S512x512 .f32 0x00000000#32))
        (broadcastTo S512x512 (shapeCast S1x512 x4 shapeCasts_S512_S1x512) broadcasts_S1x512_S512x512)) i j := by
  intro r m
  rw [addf_apply, mm512, brow512]
  unfold Cert.Spec.mlp
  congr 1
  refine Finset.sum_congr rfl fun h _ => ?_
  rw [hp, hv6]

/-- silu of the hidden layer. -/
private theorem act_of (z : FVec Ideal S512x512 .f32) (i j : Fin 5) (hz : IsZ x0 x3 x4 z i j) :
    IsAct x0 x3 x4 (mulf z (logistic z)) i j := by
  intro r m
  rw [mulf_apply]
  show z (ix2 r m) * Ideal.logistic (z (ix2 r m)) = _
  rw [hz]
  rfl

/-- w₂ laid along every block row. -/
private theorem w2b_of (v10 : FVec Ideal S1x512 .f32) (hv10 : ∀ i, v10 i = x5 i) :
    IsW2B x5 (broadcastTo S512x512 v10 broadcasts_S1x512_S512x512) := by
  intro r m
  rw [bw2, hv10]

/-- The summand of the pair's order. -/
private theorem pre_of (a b : FVec Ideal S512x512 .f32) (i j : Fin 5) (ha : IsAct x0 x3 x4 a i j) (hb : IsW2B x5 b) :
    IsPre x0 x3 x4 x5 (mulf a b) i j := by
  intro r m
  rw [mulf_apply, ha, hb]

/-- The pair's order: the row sum of its summands plus c₂. -/
private theorem order_of (p : FVec Ideal S512x512 .f32) (i j : Fin 5) (hp : IsPre x0 x3 x4 x5 p i j) :
    IsOrder x0 x3 x4 x5 x6 (addf (shapeCast S512x1 (multiReduction .add [1] S512 p 0x00000000#32 reduces_S512x512_S512 (.inl rfl) rfl) shapeCasts_S512_S512x1) (broadcastTo S512x1 (shapeCast S1x1 x6 shapeCasts_S1_S1x1) broadcasts_S1x1_S512x1)) i j := by
  intro r
  rw [addf_apply, rsum512, bcol1]
  unfold Cert.Spec.order
  congr 1
  exact Finset.sum_congr rfl fun m _ => hp r m

/-- The pair's order, all the way from the product of the two feature rows. -/
private theorem order_of_prod (v6 : FVec Ideal S256x512 .bf16) (v10 : FVec Ideal S1x512 .f32) (p : FVec Ideal S512x256 .bf16)
    (i j : Fin 5) (hv6 : ∀ i, v6 i = x3 i) (hv10 : ∀ i, v10 i = x5 i) (hp : IsProd x0 p i j) :
    IsOrder x0 x3 x4 x5 x6
      (addf (shapeCast S512x1 (multiReduction .add [1] S512 (mulf (mulf (addf (matmul dot_S512x256_S256x512_S512x512_1_0_0_1_n_n none p v6 (constant S512x512 .f32 0x00000000#32))
        (broadcastTo S512x512 (shapeCast S1x512 x4 shapeCasts_S512_S1x512) broadcasts_S1x512_S512x512)) (logistic (addf (matmul dot_S512x256_S256x512_S512x512_1_0_0_1_n_n none p v6 (constant S512x512 .f32 0x00000000#32))
        (broadcastTo S512x512 (shapeCast S1x512 x4 shapeCasts_S512_S1x512) broadcasts_S1x512_S512x512)))) (broadcastTo S512x512 v10 broadcasts_S1x512_S512x512)) 0x00000000#32 reduces_S512x512_S512 (.inl rfl) rfl) shapeCasts_S512_S512x1)
        (broadcastTo S512x1 (shapeCast S1x1 x6 shapeCasts_S1_S1x1) broadcasts_S1x1_S512x1)) i j :=
  order_of x0 x3 x4 x5 x6 _ i j
    (pre_of x0 x3 x4 x5 _ _ i j (act_of x0 x3 x4 _ i j (z_of x0 x3 x4 v6 p i j hv6 hp)) (w2b_of x5 v10 hv10))

/-! ## The soft-max weights and the accumulation -/

/-- The largest of the four scores of feature row i, the partners being j0 < j1 < j2 < j3. -/
private theorem mx_of (a b c d : FVec Ideal S512x1 .f32) (i j0 j1 j2 j3 : Fin 5) (e0 : Cert.Spec.oth i 0 = j0) (e1 : Cert.Spec.oth i 1 = j1)
    (e2 : Cert.Spec.oth i 2 = j2) (e3 : Cert.Spec.oth i 3 = j3) (ha : IsScore x0 x1 x2 a i j0) (hb : IsScore x0 x1 x2 b i j1)
    (hc : IsScore x0 x1 x2 c i j2) (hd : IsScore x0 x1 x2 d i j3) :
    IsMx x0 x1 x2 (maximumf (maximumf (maximumf a b) c) d) i := by
  intro r
  subst e0 e1 e2 e3
  rw [maximumf_apply, maximumf_apply, maximumf_apply, ha, hb, hc, hd]
  rfl

/-- exp (score − max) for the k-th partner j of feature row i. -/
private theorem ex_of (a m : FVec Ideal S512x1 .f32) (i : Fin 5) (k : Fin 4) (j : Fin 5) (e : Cert.Spec.oth i k = j) (ha : IsScore x0 x1 x2 a i j)
    (hm : IsMx x0 x1 x2 m i) :
    IsEx x0 x1 x2 (exp (subf a m)) i k := by
  intro r
  subst e
  show Ideal.exp (subf a m (ix2 r 0)) = _
  rw [subf_apply, ha, hm]
  rfl

/-- One over the soft-max denominator. -/
private theorem inv_of (e0 e1 e2 e3 : FVec Ideal S512x1 .f32) (i : Fin 5) (h0 : IsEx x0 x1 x2 e0 i 0) (h1 : IsEx x0 x1 x2 e1 i 1)
    (h2 : IsEx x0 x1 x2 e2 i 2) (h3 : IsEx x0 x1 x2 e3 i 3) :
    IsInv x0 x1 x2 (divf (broadcast S512x1 (Scalar.ofBits .f32 0x3F800000#32)) (addf (addf (addf e0 e1) e2) e3)) i := by
  intro r
  rw [divf_apply, broadcast_apply, addf_apply, addf_apply, addf_apply, h0, h1, h2, h3]
  show Ideal.div (Ideal.ofBits .f32 0x3F800000#32) _ = _
  rw [one_word]
  rfl

/-- The n-th pair term is the term of the pair it numbers. -/
private theorem termN_eq (r : Fin 512) (n : ℕ) (i : Fin 5) (k : Fin 4) (hn : n < 20) (hi : n / 4 = i.val) (hk : n % 4 = k.val) :
    termN x0 x1 x2 x3 x4 x5 x6 r n
      = Cert.Spec.termK (AW x1) (AB x2) (M1 x3) (MB1 x4) (M2 x5) (MB2 x6) (hfr x0 r) i k := by
  unfold termN
  rw [dif_pos hn]
  have e1 : (⟨n / 4, by omega⟩ : Fin 5) = i := Fin.ext hi
  have e2 : (⟨n % 4, by omega⟩ : Fin 4) = k := Fin.ext hk
  rw [e1, e2]

/-- A pair's contribution: order × (e · (1 / s)). -/
private theorem term_of (o e v : FVec Ideal S512x1 .f32) (n : ℕ) (i : Fin 5) (k : Fin 4) (j : Fin 5) (hn : n < 20) (hi : n / 4 = i.val)
    (hk : n % 4 = k.val) (ej : Cert.Spec.oth i k = j) (ho : IsOrder x0 x3 x4 x5 x6 o i j) (he : IsEx x0 x1 x2 e i k)
    (hv : IsInv x0 x1 x2 v i) :
    IsTerm x0 x1 x2 x3 x4 x5 x6 (mulf o (mulf e v)) n := by
  intro r
  subst ej
  rw [termN_eq x0 x1 x2 x3 x4 x5 x6 r n i k hn hi hk, mulf_apply, mulf_apply, ho, he, hv]
  rfl

/-- One more term onto the accumulator. -/
private theorem acc_step (a t : FVec Ideal S512x1 .f32) (n : ℕ) (ha : IsAcc x0 x1 x2 x3 x4 x5 x6 a n) (ht : IsTerm x0 x1 x2 x3 x4 x5 x6 t n) :
    IsAcc x0 x1 x2 x3 x4 x5 x6 (addf a t) (n + 1) := by
  intro r
  rw [addf_apply, ha, ht]
  rfl

/-- The partners of feature rows 3 and 4. -/
private theorem oth_3_0 : Cert.Spec.oth 3 0 = 0 := by decide
private theorem oth_3_1 : Cert.Spec.oth 3 1 = 1 := by decide
private theorem oth_3_2 : Cert.Spec.oth 3 2 = 2 := by decide
private theorem oth_3_3 : Cert.Spec.oth 3 3 = 4 := by decide
private theorem oth_4_0 : Cert.Spec.oth 4 0 = 0 := by decide
private theorem oth_4_1 : Cert.Spec.oth 4 1 = 1 := by decide
private theorem oth_4_2 : Cert.Spec.oth 4 2 = 2 := by decide
private theorem oth_4_3 : Cert.Spec.oth 4 3 = 3 := by decide

/-- The score of the pair (3, 0). -/
theorem pay56_sem (v360 : FVec Ideal S512x256 .f32) (v362 : FVec Ideal S512x256 .bf16)
    (h360 : IsWa x0 x1 x2 v360 3) (h362 : IsSl x0 v362 0) :
    IsScore x0 x1 x2 (k1_pay56 v360 v362) 3 0 := by
  exact score_of x0 x1 x2 v360 v362 3 0 h360 h362

/-- The order of the pair (3, 0). -/
theorem pay57_sem (v6 : FVec Ideal S256x512 .bf16) (v10 : FVec Ideal S1x512 .f32) (v356 v362 : FVec Ideal S512x256 .bf16)
    (hv6 : ∀ i, v6 i = x3 i) (hv10 : ∀ i, v10 i = x5 i) (h356 : IsSl x0 v356 3) (h362 : IsSl x0 v362 0) :
    IsOrder x0 x3 x4 x5 x6 (k1_pay57 v6 x4 v10 x6 v356 v362) 3 0 := by
  exact order_of_prod x0 x3 x4 x5 x6 v6 v10 _ 3 0 hv6 hv10 (prod_of x0 v356 v362 3 0 h356 h362)

/-- Feature row 1. -/
theorem pay58_sem (v1 : FVec Ideal S512x5x256 .bf16)
    (hv1 : ∀ i, v1 i = x0 i) :
    IsSl x0 (k1_pay58 v1) 1 := by
  exact sl_of_slab x0 _ 1 (slab_sem1 x0 v1 hv1)

/-- The score of the pair (3, 1). -/
theorem pay59_sem (v1 : FVec Ideal S512x5x256 .bf16) (v360 : FVec Ideal S512x256 .f32)
    (hv1 : ∀ i, v1 i = x0 i) (h360 : IsWa x0 x1 x2 v360 3) :
    IsScore x0 x1 x2 (k1_pay59 v1 v360) 3 1 := by
  exact score_of x0 x1 x2 v360 _ 3 1 h360 (sl_of_slab x0 _ 1 (slab_sem1 x0 v1 hv1))

/-- The order of the pair (3, 1). -/
theorem pay60_sem (v1 : FVec Ideal S512x5x256 .bf16) (v6 : FVec Ideal S256x512 .bf16) (v10 : FVec Ideal S1x512 .f32) (v356 : FVec Ideal S512x256 .bf16)
    (hv1 : ∀ i, v1 i = x0 i) (hv6 : ∀ i, v6 i = x3 i) (hv10 : ∀ i, v10 i = x5 i) (h356 : IsSl x0 v356 3) :
    IsOrder x0 x3 x4 x5 x6 (k1_pay60 v1 v6 x4 v10 x6 v356) 3 1 := by
  exact order_of_prod x0 x3 x4 x5 x6 v6 v10 _ 3 1 hv6 hv10
    (prod_of x0 v356 _ 3 1 h356 (sl_of_slab x0 _ 1 (slab_sem1 x0 v1 hv1)))

/-- Feature row 2. -/
theorem pay61_sem (v1 : FVec Ideal S512x5x256 .bf16)
    (hv1 : ∀ i, v1 i = x0 i) :
    IsSl x0 (k1_pay61 v1) 2 := by
  exact sl_of_slab x0 _ 2 (slab_sem2 x0 v1 hv1)

/-- The score of the pair (3, 2). -/
theorem pay62_sem (v1 : FVec Ideal S512x5x256 .bf16) (v360 : FVec Ideal S512x256 .f32)
    (hv1 : ∀ i, v1 i = x0 i) (h360 : IsWa x0 x1 x2 v360 3) :
    IsScore x0 x1 x2 (k1_pay62 v1 v360) 3 2 := by
  exact score_of x0 x1 x2 v360 _ 3 2 h360 (sl_of_slab x0 _ 2 (slab_sem2 x0 v1 hv1))

/-- silu of the pair MLP's hidden layer for the pair (3, 2). -/
theorem pay63_sem (v1 : FVec Ideal S512x5x256 .bf16) (v6 : FVec Ideal S256x512 .bf16) (v356 : FVec Ideal S512x256 .bf16)
    (hv1 : ∀ i, v1 i = x0 i) (hv6 : ∀ i, v6 i = x3 i) (h356 : IsSl x0 v356 3) :
    IsAct x0 x3 x4 (k1_pay63 v1 v6 x4 v356) 3 2 := by
  exact act_of x0 x3 x4 _ 3 2
    (z_of x0 x3 x4 v6 _ 3 2 hv6 (prod_of x0 v356 _ 3 2 h356 (sl_of_slab x0 _ 2 (slab_sem2 x0 v1 hv1))))

/-- w₂ laid along every block row. -/
theorem pay64_sem (v10 : FVec Ideal S1x512 .f32)
    (hv10 : ∀ i, v10 i = x5 i) :
    IsW2B x5 (k1_pay64 v10) := by
  exact w2b_of x5 v10 hv10

/-- The accumulator after the four pairs led by feature row 3. -/
theorem pay65_sem (v1 : FVec Ideal S512x5x256 .bf16) (v6 : FVec Ideal S256x512 .bf16) (v10 : FVec Ideal S1x512 .f32) (v354 : FVec Ideal S512x1 .f32) (v356 : FVec Ideal S512x256 .bf16) (v360 : FVec Ideal S512x256 .f32) (v367 v380 v387 v400 v407 : FVec Ideal S512x1 .f32) (v413 v414 : FVec Ideal S512x512 .f32)
    (hv1 : ∀ i, v1 i = x0 i) (hv6 : ∀ i, v6 i = x3 i) (hv10 : ∀ i, v10 i = x5 i) (h354 : IsAcc x0 x1 x2 x3 x4 x5 x6 v354 12) (h356 : IsSl x0 v356 3) (h360 : IsWa x0 x1 x2 v360 3)
    (h367 : IsScore x0 x1 x2 v367 3 0) (h380 : IsOrder x0 x3 x4 x5 x6 v380 3 0) (h387 : IsScore x0 x1 x2 v387 3 1) (h400 : IsOrder x0 x3 x4 x5 x6 v400 3 1) (h407 : IsScore x0 x1 x2 v407 3 2)
    (h413 : IsAct x0 x3 x4 v413 3 2) (h414 : IsW2B x5 v414) :
    IsAcc x0 x1 x2 x3 x4 x5 x6 (k1_pay65 v1 v6 x4 v10 x6 v354 v356 v360 v367 v380 v387 v400 v407 v413 v414) 16 := by
  have hs4 := sl_of_slab x0 _ 4 (slab_sem4 x0 v1 hv1)
  have hc4 := score_of x0 x1 x2 v360 _ 3 4 h360 hs4
  have ho2 := order_of x0 x3 x4 x5 x6 _ 3 2 (pre_of x0 x3 x4 x5 v413 v414 3 2 h413 h414)
  have ho4 := order_of_prod x0 x3 x4 x5 x6 v6 v10 _ 3 4 hv6 hv10 (prod_of x0 v356 _ 3 4 h356 hs4)
  have hm := mx_of x0 x1 x2 v367 v387 v407 _ 3 0 1 2 4 oth_3_0 oth_3_1 oth_3_2 oth_3_3 h367 h387 h407 hc4
  have he0 := ex_of x0 x1 x2 v367 _ 3 0 0 oth_3_0 h367 hm
  have he1 := ex_of x0 x1 x2 v387 _ 3 1 1 oth_3_1 h387 hm
  have he2 := ex_of x0 x1 x2 v407 _ 3 2 2 oth_3_2 h407 hm
  have he3 := ex_of x0 x1 x2 _ _ 3 3 4 oth_3_3 hc4 hm
  have hi := inv_of x0 x1 x2 _ _ _ _ 3 he0 he1 he2 he3
  exact acc_step x0 x1 x2 x3 x4 x5 x6 _ _ 15
    (acc_step x0 x1 x2 x3 x4 x5 x6 _ _ 14
      (acc_step x0 x1 x2 x3 x4 x5 x6 _ _ 13
        (acc_step x0 x1 x2 x3 x4 x5 x6 v354 _ 12 h354 (term_of x0 x1 x2 x3 x4 x5 x6 v380 _ _ 12 3 0 0 (by decide) (by decide) (by decide) oth_3_0 h380 he0 hi))
        (term_of x0 x1 x2 x3 x4 x5 x6 v400 _ _ 13 3 1 1 (by decide) (by decide) (by decide) oth_3_1 h400 he1 hi))
      (term_of x0 x1 x2 x3 x4 x5 x6 _ _ _ 14 3 2 2 (by decide) (by decide) (by decide) oth_3_2 ho2 he2 hi))
    (term_of x0 x1 x2 x3 x4 x5 x6 _ _ _ 15 3 3 4 (by decide) (by decide) (by decide) oth_3_3 ho4 he3 hi)

/-- Feature row 4, as a slab. -/
theorem pay66_sem (v1 : FVec Ideal S512x5x256 .bf16)
    (hv1 : ∀ i, v1 i = x0 i) :
    IsSl3 x0 (k1_pay66 v1) 4 := by
  exact slab_sem4 x0 v1 hv1

/-- Feature row 4. -/
theorem pay67_sem (v469 : FVec Ideal S512x1x256 .bf16)
    (h469 : IsSl3 x0 v469 4) :
    IsSl x0 (k1_pay67 v469) 4 := by
  exact sl_of_slab x0 v469 4 h469

/-- A · h 4 + a. -/
theorem pay68_sem (v3 : FVec Ideal S256x256 .bf16) (v469 : FVec Ideal S512x1x256 .bf16)
    (hv3 : ∀ i, v3 i = x1 i) (h469 : IsSl3 x0 v469 4) :
    IsWa x0 x1 x2 (k1_pay68 v3 x2 v469) 4 := by
  exact wa_of x0 x1 x2 v3 _ 4 hv3 (sl_of_slab x0 v469 4 h469)

/-- Feature row 0. -/
theorem pay69_sem (v1 : FVec Ideal S512x5x256 .bf16)
    (hv1 : ∀ i, v1 i = x0 i) :
    IsSl x0 (k1_pay69 v1) 0 := by
  exact sl_of_slab x0 _ 0 (slab_sem0 x0 v1 hv1)

/-- The score of the pair (4, 0). -/
theorem pay70_sem (v1 : FVec Ideal S512x5x256 .bf16) (v3 : FVec Ideal S256x256 .bf16) (v469 : FVec Ideal S512x1x256 .bf16)
    (hv1 : ∀ i, v1 i = x0 i) (hv3 : ∀ i, v3 i = x1 i) (h469 : IsSl3 x0 v469 4) :
    IsScore x0 x1 x2 (k1_pay70 v1 v3 x2 v469) 4 0 := by
  exact score_of x0 x1 x2 _ _ 4 0 (wa_of x0 x1 x2 v3 _ 4 hv3 (sl_of_slab x0 v469 4 h469))
    (sl_of_slab x0 _ 0 (slab_sem0 x0 v1 hv1))

/-- The order of the pair (4, 0). -/
theorem pay71_sem (v1 : FVec Ideal S512x5x256 .bf16) (v6 : FVec Ideal S256x512 .bf16) (v10 : FVec Ideal S1x512 .f32) (v469 : FVec Ideal S512x1x256 .bf16)
    (hv1 : ∀ i, v1 i = x0 i) (hv6 : ∀ i, v6 i = x3 i) (hv10 : ∀ i, v10 i = x5 i) (h469 : IsSl3 x0 v469 4) :
    IsOrder x0 x3 x4 x5 x6 (k1_pay71 v1 v6 x4 v10 x6 v469) 4 0 := by
  exact order_of_prod x0 x3 x4 x5 x6 v6 v10 _ 4 0 hv6 hv10
    (prod_of x0 _ _ 4 0 (sl_of_slab x0 v469 4 h469) (sl_of_slab x0 _ 0 (slab_sem0 x0 v1 hv1)))

/-- Feature row 1. -/
theorem pay72_sem (v1 : FVec Ideal S512x5x256 .bf16)
    (hv1 : ∀ i, v1 i = x0 i) :
    IsSl x0 (k1_pay72 v1) 1 := by
  exact sl_of_slab x0 _ 1 (slab_sem1 x0 v1 hv1)

/-- The score of the pair (4, 1). -/
theorem pay73_sem (v1 : FVec Ideal S512x5x256 .bf16) (v3 : FVec Ideal S256x256 .bf16) (v469 : FVec Ideal S512x1x256 .bf16)
    (hv1 : ∀ i, v1 i = x0 i) (hv3 : ∀ i, v3 i = x1 i) (h469 : IsSl3 x0 v469 4) :
    IsScore x0 x1 x2 (k1_pay73 v1 v3 x2 v469) 4 1 := by
  exact score_of x0 x1 x2 _ _ 4 1 (wa_of x0 x1 x2 v3 _ 4 hv3 (sl_of_slab x0 v469 4 h469))
    (sl_of_slab x0 _ 1 (slab_sem1 x0 v1 hv1))

/-- The order of the pair (4, 1). -/
theorem pay74_sem (v1 : FVec Ideal S512x5x256 .bf16) (v6 : FVec Ideal S256x512 .bf16) (v10 : FVec Ideal S1x512 .f32) (v469 : FVec Ideal S512x1x256 .bf16)
    (hv1 : ∀ i, v1 i = x0 i) (hv6 : ∀ i, v6 i = x3 i) (hv10 : ∀ i, v10 i = x5 i) (h469 : IsSl3 x0 v469 4) :
    IsOrder x0 x3 x4 x5 x6 (k1_pay74 v1 v6 x4 v10 x6 v469) 4 1 := by
  exact order_of_prod x0 x3 x4 x5 x6 v6 v10 _ 4 1 hv6 hv10
    (prod_of x0 _ _ 4 1 (sl_of_slab x0 v469 4 h469) (sl_of_slab x0 _ 1 (slab_sem1 x0 v1 hv1)))

/-- Feature row 2. -/
theorem pay75_sem (v1 : FVec Ideal S512x5x256 .bf16)
    (hv1 : ∀ i, v1 i = x0 i) :
    IsSl x0 (k1_pay75 v1) 2 := by
  exact sl_of_slab x0 _ 2 (slab_sem2 x0 v1 hv1)

/-- The entrywise product of feature rows 4 and 2. -/
theorem pay76_sem (v1 : FVec Ideal S512x5x256 .bf16) (v469 : FVec Ideal S512x1x256 .bf16)
    (hv1 : ∀ i, v1 i = x0 i) (h469 : IsSl3 x0 v469 4) :
    IsProd x0 (k1_pay76 v1 v469) 4 2 := by
  exact prod_of x0 _ _ 4 2 (sl_of_slab x0 v469 4 h469) (sl_of_slab x0 _ 2 (slab_sem2 x0 v1 hv1))

/-- The score of the pair (4, 2). -/
theorem pay77_sem (v1 : FVec Ideal S512x5x256 .bf16) (v3 : FVec Ideal S256x256 .bf16) (v469 : FVec Ideal S512x1x256 .bf16)
    (hv1 : ∀ i, v1 i = x0 i) (hv3 : ∀ i, v3 i = x1 i) (h469 : IsSl3 x0 v469 4) :
    IsScore x0 x1 x2 (k1_pay77 v1 v3 x2 v469) 4 2 := by
  exact score_of x0 x1 x2 _ _ 4 2 (wa_of x0 x1 x2 v3 _ 4 hv3 (sl_of_slab x0 v469 4 h469))
    (sl_of_slab x0 _ 2 (slab_sem2 x0 v1 hv1))

/-- The order of the pair (4, 2). -/
theorem pay78_sem (v6 : FVec Ideal S256x512 .bf16) (v10 : FVec Ideal S1x512 .f32) (v517 : FVec Ideal S512x256 .bf16)
    (hv6 : ∀ i, v6 i = x3 i) (hv10 : ∀ i, v10 i = x5 i) (h517 : IsProd x0 v517 4 2) :
    IsOrder x0 x3 x4 x5 x6 (k1_pay78 v6 x4 v10 x6 v517) 4 2 := by
  exact order_of_prod x0 x3 x4 x5 x6 v6 v10 v517 4 2 hv6 hv10 h517

/-- Feature row 3. -/
theorem pay79_sem (v1 : FVec Ideal S512x5x256 .bf16)
    (hv1 : ∀ i, v1 i = x0 i) :
    IsSl x0 (k1_pay79 v1) 3 := by
  exact sl_of_slab x0 _ 3 (slab_sem3 x0 v1 hv1)

/-- The score of the pair (4, 3). -/
theorem pay80_sem (v1 : FVec Ideal S512x5x256 .bf16) (v474 : FVec Ideal S512x256 .f32)
    (hv1 : ∀ i, v1 i = x0 i) (h474 : IsWa x0 x1 x2 v474 4) :
    IsScore x0 x1 x2 (k1_pay80 v1 v474) 4 3 := by
  exact score_of x0 x1 x2 v474 _ 4 3 h474 (sl_of_slab x0 _ 3 (slab_sem3 x0 v1 hv1))

/-- The order of the pair (4, 3). -/
theorem pay81_sem (v1 : FVec Ideal S512x5x256 .bf16) (v6 : FVec Ideal S256x512 .bf16) (v10 : FVec Ideal S1x512 .f32) (v470 : FVec Ideal S512x256 .bf16)
    (hv1 : ∀ i, v1 i = x0 i) (hv6 : ∀ i, v6 i = x3 i) (hv10 : ∀ i, v10 i = x5 i) (h470 : IsSl x0 v470 4) :
    IsOrder x0 x3 x4 x5 x6 (k1_pay81 v1 v6 x4 v10 x6 v470) 4 3 := by
  exact order_of_prod x0 x3 x4 x5 x6 v6 v10 _ 4 3 hv6 hv10
    (prod_of x0 v470 _ 4 3 h470 (sl_of_slab x0 _ 3 (slab_sem3 x0 v1 hv1)))

/-- The largest of feature row 4's four scores. -/
theorem pay82_sem (v1 : FVec Ideal S512x5x256 .bf16) (v474 : FVec Ideal S512x256 .f32) (v481 v501 v521 : FVec Ideal S512x1 .f32)
    (hv1 : ∀ i, v1 i = x0 i) (h474 : IsWa x0 x1 x2 v474 4) (h481 : IsScore x0 x1 x2 v481 4 0) (h501 : IsScore x0 x1 x2 v501 4 1) (h521 : IsScore x0 x1 x2 v521 4 2) :
    IsMx x0 x1 x2 (k1_pay82 v1 v474 v481 v501 v521) 4 := by
  have hc3 := score_of x0 x1 x2 v474 _ 4 3 h474 (sl_of_slab x0 _ 3 (slab_sem3 x0 v1 hv1))
  have hm := mx_of x0 x1 x2 v481 v501 v521 _ 4 0 1 2 3 oth_4_0 oth_4_1 oth_4_2 oth_4_3 h481 h501 h521 hc3
  exact hm

/-- exp (score − max) for the pair (4, 0). -/
theorem pay83_sem (v1 : FVec Ideal S512x5x256 .bf16) (v474 : FVec Ideal S512x256 .f32) (v481 v501 v521 : FVec Ideal S512x1 .f32)
    (hv1 : ∀ i, v1 i = x0 i) (h474 : IsWa x0 x1 x2 v474 4) (h481 : IsScore x0 x1 x2 v481 4 0) (h501 : IsScore x0 x1 x2 v501 4 1) (h521 : IsScore x0 x1 x2 v521 4 2) :
    IsEx x0 x1 x2 (k1_pay83 v1 v474 v481 v501 v521) 4 0 := by
  have hc3 := score_of x0 x1 x2 v474 _ 4 3 h474 (sl_of_slab x0 _ 3 (slab_sem3 x0 v1 hv1))
  have hm := mx_of x0 x1 x2 v481 v501 v521 _ 4 0 1 2 3 oth_4_0 oth_4_1 oth_4_2 oth_4_3 h481 h501 h521 hc3
  exact ex_of x0 x1 x2 v481 _ 4 0 0 oth_4_0 h481 hm

/-- exp (score − max) for the pair (4, 1). -/
theorem pay84_sem (v1 : FVec Ideal S512x5x256 .bf16) (v474 : FVec Ideal S512x256 .f32) (v481 v501 v521 : FVec Ideal S512x1 .f32)
    (hv1 : ∀ i, v1 i = x0 i) (h474 : IsWa x0 x1 x2 v474 4) (h481 : IsScore x0 x1 x2 v481 4 0) (h501 : IsScore x0 x1 x2 v501 4 1) (h521 : IsScore x0 x1 x2 v521 4 2) :
    IsEx x0 x1 x2 (k1_pay84 v1 v474 v481 v501 v521) 4 1 := by
  have hc3 := score_of x0 x1 x2 v474 _ 4 3 h474 (sl_of_slab x0 _ 3 (slab_sem3 x0 v1 hv1))
  have hm := mx_of x0 x1 x2 v481 v501 v521 _ 4 0 1 2 3 oth_4_0 oth_4_1 oth_4_2 oth_4_3 h481 h501 h521 hc3
  exact ex_of x0 x1 x2 v501 _ 4 1 1 oth_4_1 h501 hm

/-- exp (score − max) for the pair (4, 2). -/
theorem pay85_sem (v1 : FVec Ideal S512x5x256 .bf16) (v474 : FVec Ideal S512x256 .f32) (v481 v501 v521 : FVec Ideal S512x1 .f32)
    (hv1 : ∀ i, v1 i = x0 i) (h474 : IsWa x0 x1 x2 v474 4) (h481 : IsScore x0 x1 x2 v481 4 0) (h501 : IsScore x0 x1 x2 v501 4 1) (h521 : IsScore x0 x1 x2 v521 4 2) :
    IsEx x0 x1 x2 (k1_pay85 v1 v474 v481 v501 v521) 4 2 := by
  have hc3 := score_of x0 x1 x2 v474 _ 4 3 h474 (sl_of_slab x0 _ 3 (slab_sem3 x0 v1 hv1))
  have hm := mx_of x0 x1 x2 v481 v501 v521 _ 4 0 1 2 3 oth_4_0 oth_4_1 oth_4_2 oth_4_3 h481 h501 h521 hc3
  exact ex_of x0 x1 x2 v521 _ 4 2 2 oth_4_2 h521 hm

/-- exp (score − max) for the pair (4, 3). -/
theorem pay86_sem (v1 : FVec Ideal S512x5x256 .bf16) (v474 : FVec Ideal S512x256 .f32) (v481 v501 v521 : FVec Ideal S512x1 .f32)
    (hv1 : ∀ i, v1 i = x0 i) (h474 : IsWa x0 x1 x2 v474 4) (h481 : IsScore x0 x1 x2 v481 4 0) (h501 : IsScore x0 x1 x2 v501 4 1) (h521 : IsScore x0 x1 x2 v521 4 2) :
    IsEx x0 x1 x2 (k1_pay86 v1 v474 v481 v501 v521) 4 3 := by
  have hc3 := score_of x0 x1 x2 v474 _ 4 3 h474 (sl_of_slab x0 _ 3 (slab_sem3 x0 v1 hv1))
  have hm := mx_of x0 x1 x2 v481 v501 v521 _ 4 0 1 2 3 oth_4_0 oth_4_1 oth_4_2 oth_4_3 h481 h501 h521 hc3
  exact ex_of x0 x1 x2 _ _ 4 3 3 oth_4_3 hc3 hm

/-- One over feature row 4's soft-max denominator. -/
theorem pay87_sem (v1 : FVec Ideal S512x5x256 .bf16) (v474 : FVec Ideal S512x256 .f32) (v481 v501 v521 : FVec Ideal S512x1 .f32)
    (hv1 : ∀ i, v1 i = x0 i) (h474 : IsWa x0 x1 x2 v474 4) (h481 : IsScore x0 x1 x2 v481 4 0) (h501 : IsScore x0 x1 x2 v501 4 1) (h521 : IsScore x0 x1 x2 v521 4 2) :
    IsInv x0 x1 x2 (k1_pay87 v1 v474 v481 v501 v521) 4 := by
  have hc3 := score_of x0 x1 x2 v474 _ 4 3 h474 (sl_of_slab x0 _ 3 (slab_sem3 x0 v1 hv1))
  have hm := mx_of x0 x1 x2 v481 v501 v521 _ 4 0 1 2 3 oth_4_0 oth_4_1 oth_4_2 oth_4_3 h481 h501 h521 hc3
  have he0 := ex_of x0 x1 x2 v481 _ 4 0 0 oth_4_0 h481 hm
  have he1 := ex_of x0 x1 x2 v501 _ 4 1 1 oth_4_1 h501 hm
  have he2 := ex_of x0 x1 x2 v521 _ 4 2 2 oth_4_2 h521 hm
  have he3 := ex_of x0 x1 x2 _ _ 4 3 3 oth_4_3 hc3 hm
  have hi := inv_of x0 x1 x2 _ _ _ _ 4 he0 he1 he2 he3
  exact hi

/-- The accumulator after the pair (4, 0). -/
theorem pay88_sem (v1 : FVec Ideal S512x5x256 .bf16) (v468 : FVec Ideal S512x1 .f32) (v474 : FVec Ideal S512x256 .f32) (v481 v494 v501 v521 : FVec Ideal S512x1 .f32)
    (hv1 : ∀ i, v1 i = x0 i) (h468 : IsAcc x0 x1 x2 x3 x4 x5 x6 v468 16) (h474 : IsWa x0 x1 x2 v474 4) (h481 : IsScore x0 x1 x2 v481 4 0) (h494 : IsOrder x0 x3 x4 x5 x6 v494 4 0)
    (h501 : IsScore x0 x1 x2 v501 4 1) (h521 : IsScore x0 x1 x2 v521 4 2) :
    IsAcc x0 x1 x2 x3 x4 x5 x6 (k1_pay88 v1 v468 v474 v481 v494 v501 v521) 17 := by
  have hc3 := score_of x0 x1 x2 v474 _ 4 3 h474 (sl_of_slab x0 _ 3 (slab_sem3 x0 v1 hv1))
  have hm := mx_of x0 x1 x2 v481 v501 v521 _ 4 0 1 2 3 oth_4_0 oth_4_1 oth_4_2 oth_4_3 h481 h501 h521 hc3
  have he0 := ex_of x0 x1 x2 v481 _ 4 0 0 oth_4_0 h481 hm
  have he1 := ex_of x0 x1 x2 v501 _ 4 1 1 oth_4_1 h501 hm
  have he2 := ex_of x0 x1 x2 v521 _ 4 2 2 oth_4_2 h521 hm
  have he3 := ex_of x0 x1 x2 _ _ 4 3 3 oth_4_3 hc3 hm
  have hi := inv_of x0 x1 x2 _ _ _ _ 4 he0 he1 he2 he3
  exact acc_step x0 x1 x2 x3 x4 x5 x6 v468 _ 16 h468 (term_of x0 x1 x2 x3 x4 x5 x6 v494 _ _ 16 4 0 0 (by decide) (by decide) (by decide) oth_4_0 h494 he0 hi)

/-- The term of the pair (4, 1). -/
theorem pay89_sem (v1 : FVec Ideal S512x5x256 .bf16) (v474 : FVec Ideal S512x256 .f32) (v481 v501 v514 v521 : FVec Ideal S512x1 .f32)
    (hv1 : ∀ i, v1 i = x0 i) (h474 : IsWa x0 x1 x2 v474 4) (h481 : IsScore x0 x1 x2 v481 4 0) (h501 : IsScore x0 x1 x2 v501 4 1) (h514 : IsOrder x0 x3 x4 x5 x6 v514 4 1)
    (h521 : IsScore x0 x1 x2 v521 4 2) :
    IsTerm x0 x1 x2 x3 x4 x5 x6 (k1_pay89 v1 v474 v481 v501 v514 v521) 17 := by
  have hc3 := score_of x0 x1 x2 v474 _ 4 3 h474 (sl_of_slab x0 _ 3 (slab_sem3 x0 v1 hv1))
  have hm := mx_of x0 x1 x2 v481 v501 v521 _ 4 0 1 2 3 oth_4_0 oth_4_1 oth_4_2 oth_4_3 h481 h501 h521 hc3
  have he0 := ex_of x0 x1 x2 v481 _ 4 0 0 oth_4_0 h481 hm
  have he1 := ex_of x0 x1 x2 v501 _ 4 1 1 oth_4_1 h501 hm
  have he2 := ex_of x0 x1 x2 v521 _ 4 2 2 oth_4_2 h521 hm
  have he3 := ex_of x0 x1 x2 _ _ 4 3 3 oth_4_3 hc3 hm
  have hi := inv_of x0 x1 x2 _ _ _ _ 4 he0 he1 he2 he3
  exact term_of x0 x1 x2 x3 x4 x5 x6 v514 _ _ 17 4 1 1 (by decide) (by decide) (by decide) oth_4_1 h514 he1 hi

/-- The accumulator after all twenty pairs. -/
theorem pay1_sem (v534 v554 v563 v565 v570 v573 v575 : FVec Ideal S512x1 .f32)
    (h534 : IsOrder x0 x3 x4 x5 x6 v534 4 2) (h554 : IsOrder x0 x3 x4 x5 x6 v554 4 3) (h563 : IsEx x0 x1 x2 v563 4 2) (h565 : IsEx x0 x1 x2 v565 4 3)
    (h570 : IsInv x0 x1 x2 v570 4) (h573 : IsAcc x0 x1 x2 x3 x4 x5 x6 v573 17) (h575 : IsTerm x0 x1 x2 x3 x4 x5 x6 v575 17) :
    IsAcc x0 x1 x2 x3 x4 x5 x6 (k1_pay1 v534 v554 v563 v565 v570 v573 v575) 20 := by
  exact acc_step x0 x1 x2 x3 x4 x5 x6 _ _ 19
    (acc_step x0 x1 x2 x3 x4 x5 x6 _ _ 18 (acc_step x0 x1 x2 x3 x4 x5 x6 v573 v575 17 h573 h575)
      (term_of x0 x1 x2 x3 x4 x5 x6 v534 v563 _ 18 4 2 2 (by decide) (by decide) (by decide) oth_4_2 h534 h563 h570))
    (term_of x0 x1 x2 x3 x4 x5 x6 v554 v565 _ 19 4 3 3 (by decide) (by decide) (by decide) oth_4_3 h554 h565 h570)

/-- The accumulator after all twenty terms is the row's result. -/
theorem accK_twenty' (r : Fin 512) :
    accK x0 x1 x2 x3 x4 x5 x6 r 20 = Cert.Spec.pairK (AW x1) (AB x2) (M1 x3) (MB1 x4) (M2 x5) (MB2 x6) (hfr x0 r) := by
  simp only [accK]
  rw [termN_eq x0 x1 x2 x3 x4 x5 x6 r 0 0 0 (by decide) (by decide) (by decide),
    termN_eq x0 x1 x2 x3 x4 x5 x6 r 1 0 1 (by decide) (by decide) (by decide),
    termN_eq x0 x1 x2 x3 x4 x5 x6 r 2 0 2 (by decide) (by decide) (by decide),
    termN_eq x0 x1 x2 x3 x4 x5 x6 r 3 0 3 (by decide) (by decide) (by decide),
    termN_eq x0 x1 x2 x3 x4 x5 x6 r 4 1 0 (by decide) (by decide) (by decide),
    termN_eq x0 x1 x2 x3 x4 x5 x6 r 5 1 1 (by decide) (by decide) (by decide),
    termN_eq x0 x1 x2 x3 x4 x5 x6 r 6 1 2 (by decide) (by decide) (by decide),
    termN_eq x0 x1 x2 x3 x4 x5 x6 r 7 1 3 (by decide) (by decide) (by decide),
    termN_eq x0 x1 x2 x3 x4 x5 x6 r 8 2 0 (by decide) (by decide) (by decide),
    termN_eq x0 x1 x2 x3 x4 x5 x6 r 9 2 1 (by decide) (by decide) (by decide),
    termN_eq x0 x1 x2 x3 x4 x5 x6 r 10 2 2 (by decide) (by decide) (by decide),
    termN_eq x0 x1 x2 x3 x4 x5 x6 r 11 2 3 (by decide) (by decide) (by decide),
    termN_eq x0 x1 x2 x3 x4 x5 x6 r 12 3 0 (by decide) (by decide) (by decide),
    termN_eq x0 x1 x2 x3 x4 x5 x6 r 13 3 1 (by decide) (by decide) (by decide),
    termN_eq x0 x1 x2 x3 x4 x5 x6 r 14 3 2 (by decide) (by decide) (by decide),
    termN_eq x0 x1 x2 x3 x4 x5 x6 r 15 3 3 (by decide) (by decide) (by decide),
    termN_eq x0 x1 x2 x3 x4 x5 x6 r 16 4 0 (by decide) (by decide) (by decide),
    termN_eq x0 x1 x2 x3 x4 x5 x6 r 17 4 1 (by decide) (by decide) (by decide),
    termN_eq x0 x1 x2 x3 x4 x5 x6 r 18 4 2 (by decide) (by decide) (by decide),
    termN_eq x0 x1 x2 x3 x4 x5 x6 r 19 4 3 (by decide) (by decide) (by decide)]
  unfold Cert.Spec.pairK
  rw [Fin.sum_univ_five]
  simp only [Fin.sum_univ_four]
  rw [zero_add]
  simp only [add_assoc]
end

end Cert.KernelIdeal.K1

end
-- ==== Proof.K1Body.lean ====
/-
  The second kernel's body threaded through: at block row r the stored column holds the row's pairwise attention sum.
  Every intermediate of the body has its row-wise meaning (the payload lemmas); they are applied backwards from the stored
  value — the accumulator after twenty pair terms — through its operands down to the loaded block. -/
import proofs.«413986_j36318243455110_2_alg».proof.Proof.Gen.KernelIdeal.Frame
import proofs.«413986_j36318243455110_2_alg».proof.Proof.Spec
import proofs.«413986_j36318243455110_2_alg».proof.Proof.K1Sem
import proofs.«413986_j36318243455110_2_alg».proof.Proof.K1PayA
import proofs.«413986_j36318243455110_2_alg».proof.Proof.K1PayB
import proofs.«413986_j36318243455110_2_alg».proof.Proof.K1PayC

noncomputable section

namespace Cert.KernelIdeal.K1

open Cert.KernelIdeal Cert.KernelIdeal.Gen Idealize.ShloMosaic Idealize.ShloMosaic.TcCoe Idealize.ShloMosaic.ValueIdx Idealize.SL.Sem

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 4000000 in
/-- What the body stores at block row r: the pairwise attention sum of the row's five feature rows. -/
theorem out1_7_apply (x0 : Vec Ideal S512x5x256 .bf16) (x1 : Vec Ideal S256x256 .bf16) (x2 : Vec Ideal S256 .f32)
    (x3 : Vec Ideal S256x512 .bf16) (x4 : Vec Ideal S512 .f32) (x5 : Vec Ideal S1x512 .bf16) (x6 : Vec Ideal S1 .f32) (r : Fin 512) :
    out1_7 (F := Ideal) x0 x1 x2 x3 x4 x5 x6 (ix2 r 0)
      = Cert.Spec.pairK (AW x1) (AB x2) (M1 x3) (MB1 x4) (M2 x5) (MB2 x6) (hfr x0 r) := by
  unfold out1_7
  rw [View.canon_unit_zero hz2]
  simp only [View.ld_unit_zero (S := S512x5x256) hz3, View.ld_unit_zero (S := S256x256) hz2, View.ld_unit_zero (S := S256) hz1,
    View.ld_unit_zero (S := S256x512) hz2, View.ld_unit_zero (S := S512) hz1, View.ld_unit_zero (S := S1x512) hz2,
    View.ld_unit_zero (S := S1) hz1]
  refine Eq.trans ?_ (accK_twenty' x0 x1 x2 x3 x4 x5 x6 r)
  revert r
  change IsAcc x0 x1 x2 x3 x4 x5 x6 _ 20
  apply pay1_sem
  · apply pay78_sem
    · apply pay4_sem
    · apply pay5_sem
    · apply pay76_sem
      · apply pay2_sem
      · apply pay66_sem
        · apply pay2_sem
  · apply pay81_sem
    · apply pay2_sem
    · apply pay4_sem
    · apply pay5_sem
    · apply pay67_sem
      · apply pay66_sem
        · apply pay2_sem
  · apply pay85_sem
    · apply pay2_sem
    · apply pay68_sem
      · apply pay3_sem
      · apply pay66_sem
        · apply pay2_sem
    · apply pay70_sem
      · apply pay2_sem
      · apply pay3_sem
      · apply pay66_sem
        · apply pay2_sem
    · apply pay73_sem
      · apply pay2_sem
      · apply pay3_sem
      · apply pay66_sem
        · apply pay2_sem
    · apply pay77_sem
      · apply pay2_sem
      · apply pay3_sem
      · apply pay66_sem
        · apply pay2_sem
  · apply pay86_sem
    · apply pay2_sem
    · apply pay68_sem
      · apply pay3_sem
      · apply pay66_sem
        · apply pay2_sem
    · apply pay70_sem
      · apply pay2_sem
      · apply pay3_sem
      · apply pay66_sem
        · apply pay2_sem
    · apply pay73_sem
      · apply pay2_sem
      · apply pay3_sem
      · apply pay66_sem
        · apply pay2_sem
    · apply pay77_sem
      · apply pay2_sem
      · apply pay3_sem
      · apply pay66_sem
        · apply pay2_sem
  · apply pay87_sem
    · apply pay2_sem
    · apply pay68_sem
      · apply pay3_sem
      · apply pay66_sem
        · apply pay2_sem
    · apply pay70_sem
      · apply pay2_sem
      · apply pay3_sem
      · apply pay66_sem
        · apply pay2_sem
    · apply pay73_sem
      · apply pay2_sem
      · apply pay3_sem
      · apply pay66_sem
        · apply pay2_sem
    · apply pay77_sem
      · apply pay2_sem
      · apply pay3_sem
      · apply pay66_sem
        · apply pay2_sem
  · apply pay88_sem
    · apply pay2_sem
    · apply pay65_sem
      · apply pay2_sem
      · apply pay4_sem
      · apply pay5_sem
      · apply pay52_sem
        · apply pay4_sem
        · apply pay5_sem
        · apply pay38_sem
          · apply pay4_sem
          · apply pay5_sem
          · apply pay22_sem
            · apply pay10_sem
            · apply pay14_sem
              · apply pay8_sem
              · apply pay12_sem
            · apply pay17_sem
              · apply pay2_sem
              · apply pay8_sem
            · apply pay20_sem
              · apply pay2_sem
              · apply pay8_sem
            · apply pay11_sem
            · apply pay15_sem
              · apply pay4_sem
              · apply pay5_sem
              · apply pay13_sem
            · apply pay18_sem
              · apply pay2_sem
              · apply pay4_sem
              · apply pay5_sem
              · apply pay7_sem
            · apply pay21_sem
              · apply pay2_sem
              · apply pay4_sem
              · apply pay5_sem
              · apply pay7_sem
            · apply pay6_sem
          · apply pay26_sem
            · apply pay2_sem
            · apply pay3_sem
          · apply pay28_sem
            · apply pay27_sem
              · apply pay2_sem
              · apply pay4_sem
              · apply pay5_sem
          · apply pay30_sem
            · apply pay2_sem
            · apply pay24_sem
              · apply pay2_sem
              · apply pay3_sem
          · apply pay31_sem
            · apply pay2_sem
            · apply pay4_sem
            · apply pay5_sem
            · apply pay23_sem
              · apply pay2_sem
          · apply pay33_sem
            · apply pay2_sem
            · apply pay24_sem
              · apply pay2_sem
              · apply pay3_sem
          · apply pay34_sem
            · apply pay2_sem
            · apply pay4_sem
            · apply pay5_sem
            · apply pay23_sem
              · apply pay2_sem
          · apply pay36_sem
            · apply pay2_sem
            · apply pay23_sem
              · apply pay2_sem
          · apply pay37_sem
            · apply pay2_sem
            · apply pay24_sem
              · apply pay2_sem
              · apply pay3_sem
          · rfl
        · apply pay39_sem
          · apply pay2_sem
        · apply pay40_sem
          · apply pay2_sem
          · apply pay3_sem
        · apply pay42_sem
          · apply pay2_sem
          · apply pay3_sem
        · apply pay44_sem
          · apply pay5_sem
          · apply pay43_sem
            · apply pay2_sem
            · apply pay4_sem
        · apply pay46_sem
          · apply pay2_sem
          · apply pay40_sem
            · apply pay2_sem
            · apply pay3_sem
        · apply pay47_sem
          · apply pay2_sem
          · apply pay4_sem
          · apply pay5_sem
          · apply pay39_sem
            · apply pay2_sem
        · apply pay49_sem
          · apply pay2_sem
          · apply pay40_sem
            · apply pay2_sem
            · apply pay3_sem
        · apply pay50_sem
          · apply pay2_sem
          · apply pay4_sem
          · apply pay5_sem
          · apply pay39_sem
            · apply pay2_sem
        · apply pay51_sem
          · apply pay2_sem
      · apply pay53_sem
        · apply pay2_sem
      · apply pay54_sem
        · apply pay2_sem
        · apply pay3_sem
      · apply pay56_sem
        · apply pay54_sem
          · apply pay2_sem
          · apply pay3_sem
        · apply pay55_sem
          · apply pay2_sem
      · apply pay57_sem
        · apply pay4_sem
        · apply pay5_sem
        · apply pay53_sem
          · apply pay2_sem
        · apply pay55_sem
          · apply pay2_sem
      · apply pay59_sem
        · apply pay2_sem
        · apply pay54_sem
          · apply pay2_sem
          · apply pay3_sem
      · apply pay60_sem
        · apply pay2_sem
        · apply pay4_sem
        · apply pay5_sem
        · apply pay53_sem
          · apply pay2_sem
      · apply pay62_sem
        · apply pay2_sem
        · apply pay54_sem
          · apply pay2_sem
          · apply pay3_sem
      · apply pay63_sem
        · apply pay2_sem
        · apply pay4_sem
        · apply pay53_sem
          · apply pay2_sem
      · apply pay64_sem
        · apply pay5_sem
    · apply pay68_sem
      · apply pay3_sem
      · apply pay66_sem
        · apply pay2_sem
    · apply pay70_sem
      · apply pay2_sem
      · apply pay3_sem
      · apply pay66_sem
        · apply pay2_sem
    · apply pay71_sem
      · apply pay2_sem
      · apply pay4_sem
      · apply pay5_sem
      · apply pay66_sem
        · apply pay2_sem
    · apply pay73_sem
      · apply pay2_sem
      · apply pay3_sem
      · apply pay66_sem
        · apply pay2_sem
    · apply pay77_sem
      · apply pay2_sem
      · apply pay3_sem
      · apply pay66_sem
        · apply pay2_sem
  · apply pay89_sem
    · apply pay2_sem
    · apply pay68_sem
      · apply pay3_sem
      · apply pay66_sem
        · apply pay2_sem
    · apply pay70_sem
      · apply pay2_sem
      · apply pay3_sem
      · apply pay66_sem
        · apply pay2_sem
    · apply pay73_sem
      · apply pay2_sem
      · apply pay3_sem
      · apply pay66_sem
        · apply pay2_sem
    · apply pay74_sem
      · apply pay2_sem
      · apply pay4_sem
      · apply pay5_sem
      · apply pay66_sem
        · apply pay2_sem
    · apply pay77_sem
      · apply pay2_sem
      · apply pay3_sem
      · apply pay66_sem
        · apply pay2_sem

end Cert.KernelIdeal.K1

end
-- ==== Proof.K1Value.lean ====
/-
  What the pair kernel leaves in its output array: batch row by batch row, the pairwise attention sum.
-/
import proofs.«413986_j36318243455110_2_alg».proof.Proof.Gen.KernelIdeal.Frame
import proofs.«413986_j36318243455110_2_alg».proof.Proof.Spec
import proofs.«413986_j36318243455110_2_alg».proof.Proof.K1Sem
import proofs.«413986_j36318243455110_2_alg».proof.Proof.K1Body
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.K1Value

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block index maps over the thirty-two grid points: the feature block and the output block move with the point
    along the batch axis; every weight block is the whole array. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Block row r of the feature block at point t is batch row 512 t + r of the feature array. -/
theorem blk0_apply (c : Dev nD) (t : Fin cfg1.N) (r : Fin 512) (s : Fin 5) (o : Fin 256) (b : Fin 16384)
    (hb : b.val = t.val * 512 + r.val) :
    (iblk1 (F := Ideal) V c 0 t : Vec Ideal S512x5x256 .bf16) (ix3 r s o) = V c main_v19 (ix3 b s o) := by
  obtain ⟨e0, e1, e2, -⟩ := idx_facts t
  unfold iblk1
  rw [View.read_apply]
  show V c main_v19 _ = V c main_v19 _
  congr 1
  funext a
  apply Fin.ext
  match a with
  | ⟨0, _⟩ => show win1_0.index t 0 * 512 + 1 * r.val = b.val; rw [e0, hb]; omega
  | ⟨1, _⟩ => show win1_0.index t 1 * 5 + 1 * s.val = s.val; rw [e1]; omega
  | ⟨2, _⟩ => show win1_0.index t 2 * 256 + 1 * o.val = o.val; rw [e2]; omega

/-- The attention matrix's block is the whole array. -/
theorem blk1_apply (c : Dev nD) (t : Fin cfg1.N) (y : S256x256.Idx) :
    (iblk1 (F := Ideal) V c 1 t : Vec Ideal S256x256 .bf16) y = V c main_v14 y := by
  obtain ⟨-, -, -, e0, e1, -⟩ := idx_facts t
  unfold iblk1
  rw [View.read_apply]
  show V c main_v14 _ = V c main_v14 _
  congr 1
  funext a
  apply Fin.ext
  match a with
  | ⟨0, _⟩ => show win1_1.index t 0 * 256 + 1 * (y 0).val = (y 0).val; rw [e0]; omega
  | ⟨1, _⟩ => show win1_1.index t 1 * 256 + 1 * (y 1).val = (y 1).val; rw [e1]; omega

/-- The attention bias's block is the whole array. -/
theorem blk2_apply (c : Dev nD) (t : Fin cfg1.N) (y : S256.Idx) :
    (iblk1 (F := Ideal) V c 2 t : Vec Ideal S256 .f32) y = V c main_arg7 y := by
  obtain ⟨-, -, -, -, -, e0, -⟩ := idx_facts t
  unfold iblk1
  rw [View.read_apply]
  show V c main_arg7 _ = V c main_arg7 _
  congr 1
  funext a
  apply Fin.ext
  match a with
  | ⟨0, _⟩ => show win1_2.index t 0 * 256 + 1 * (y 0).val = (y 0).val; rw [e0]; omega

/-- The pair matrix's block is the whole array. -/
theorem blk3_apply (c : Dev nD) (t : Fin cfg1.N) (y : S256x512.Idx) :
    (iblk1 (F := Ideal) V c 3 t : Vec Ideal S256x512 .bf16) y = V c main_v16 y := by
  obtain ⟨-, -, -, -, -, -, e0, e1, -⟩ := idx_facts t
  unfold iblk1
  rw [View.read_apply]
  show V c main_v16 _ = V c main_v16 _
  congr 1
  funext a
  apply Fin.ext
  match a with
  | ⟨0, _⟩ => show win1_3.index t 0 * 256 + 1 * (y 0).val = (y 0).val; rw [e0]; omega
  | ⟨1, _⟩ => show win1_3.index t 1 * 512 + 1 * (y 1).val = (y 1).val; rw [e1]; omega

/-- The pair bias's block is the whole array. -/
theorem blk4_apply (c : Dev nD) (t : Fin cfg1.N) (y : S512.Idx) :
    (iblk1 (F := Ideal) V c 4 t : Vec Ideal S512 .f32) y = V c main_arg9 y := by
  obtain ⟨-, -, -, -, -, -, -, -, e0, -⟩ := idx_facts t
  unfold iblk1
  rw [View.read_apply]
  show V c main_arg9 _ = V c main_arg9 _
  congr 1
  funext a
  apply Fin.ext
  match a with
  | ⟨0, _⟩ => show win1_4.index t 0 * 512 + 1 * (y 0).val = (y 0).val; rw [e0]; omega

/-- The output weights' block is the whole array. -/
theorem blk5_apply (c : Dev nD) (t : Fin cfg1.N) (y : S1x512.Idx) :
    (iblk1 (F := Ideal) V c 5 t : Vec Ideal S1x512 .bf16) y = V c main_v17 y := by
  obtain ⟨-, -, -, -, -, -, -, -, -, e0, e1, -⟩ := idx_facts t
  unfold iblk1
  rw [View.read_apply]
  show V c main_v17 _ = V c main_v17 _
  congr 1
  funext a
  apply Fin.ext
  match a with
  | ⟨0, _⟩ => show win1_5.index t 0 * 1 + 1 * (y 0).val = (y 0).val; rw [e0]; omega
  | ⟨1, _⟩ => show win1_5.index t 1 * 512 + 1 * (y 1).val = (y 1).val; rw [e1]; omega

/-- The output bias's block is the whole array. -/
theorem blk6_apply (c : Dev nD) (t : Fin cfg1.N) (y : S1.Idx) :
    (iblk1 (F := Ideal) V c 6 t : Vec Ideal S1 .f32) y = V c main_arg11 y := by
  obtain ⟨-, -, -, -, -, -, -, -, -, -, -, e0, -⟩ := idx_facts t
  unfold iblk1
  rw [View.read_apply]
  show V c main_arg11 _ = V c main_arg11 _
  congr 1
  funext a
  apply Fin.ext
  match a with
  | ⟨0, _⟩ => show win1_6.index t 0 * 1 + 1 * (y 0).val = (y 0).val; rw [e0]; omega

/-- What the output array ends holding: at batch row b the pairwise attention sum of b's five feature rows. -/
abbrev G (c : Dev nD) : S16384x1.Idx → EReal := fun y =>
  Cert.Spec.pairK (fun o h => V c main_v14 (ix2 h o)) (fun o => V c main_arg7 (ix1 o)) (fun m h => V c main_v16 (ix2 h m))
    (fun m => V c main_arg9 (ix1 m)) (fun m => V c main_v17 (ix2 0 m)) (V c main_arg11 (ix1 0))
    (fun t o => V c main_v19 (ix3 (y 0) t o))

/-- The pairwise sum depends only on its seven arguments. -/
theorem pairK_congr {aw aw' : Fin 256 → Fin 256 → EReal} {ab ab' : Fin 256 → EReal} {m1 m1' : Fin 512 → Fin 256 → EReal}
    {mb1 mb1' : Fin 512 → EReal} {m2 m2' : Fin 512 → EReal} {mb2 mb2' : EReal} {hf hf' : Fin 5 → Fin 256 → EReal}
    (h1 : aw = aw') (h2 : ab = ab') (h3 : m1 = m1') (h4 : mb1 = mb1') (h5 : m2 = m2') (h6 : mb2 = mb2') (h0 : hf = hf') :
    Cert.Spec.pairK aw ab m1 mb1 m2 mb2 hf = Cert.Spec.pairK aw' ab' m1' mb1' m2' mb2' hf' := by
  subst h1 h2 h3 h4 h5 h6 h0; rfl

/-- What point t writes back is block t of the result: block row r of point t is batch row 512 t + r. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  obtain ⟨-, -, -, -, -, -, -, -, -, -, -, -, e0, e1⟩ := idx_facts t
  funext j
  have hj0 : (j 0).val < 512 := (j 0).isLt
  have hj1 : (j 1).val < 1 := (j 1).isLt
  have hx : (cfg1.win 7).xinj (grid1.coords t) j = ix2 (⟨(j 0).val, hj0⟩ : Fin 512) (0 : Fin 1) := by
    funext a
    apply Fin.ext
    match a with
    | ⟨0, _⟩ => rfl
    | ⟨1, _⟩ => show (j 1).val = 0; omega
  show out1_7 (F := Ideal) (iblk1 V c 0 t) (iblk1 V c 1 t) (iblk1 V c 2 t) (iblk1 V c 3 t) (iblk1 V c 4 t) (iblk1 V c 5 t) (iblk1 V c 6 t)
      ((cfg1.win 7).xinj (grid1.coords t) j) = G V c (((cfg1.win 7).blk t).view.emb j)
  rw [hx]
  refine (K1.out1_7_apply (iblk1 V c 0 t) (iblk1 V c 1 t) (iblk1 V c 2 t) (iblk1 V c 3 t) (iblk1 V c 4 t) (iblk1 V c 5 t) (iblk1 V c 6 t) ⟨(j 0).val, hj0⟩).trans ?_
  refine pairK_congr ?_ ?_ ?_ ?_ ?_ ?_ ?_
  · exact funext fun o => funext fun h => blk1_apply V c t (ix2 h o)
  · exact funext fun o => blk2_apply V c t (ix1 o)
  · exact funext fun m => funext fun h => blk3_apply V c t (ix2 h m)
  · exact funext fun m => blk4_apply V c t (ix1 m)
  · exact funext fun m => blk5_apply V c t (ix2 0 m)
  · exact blk6_apply V c t (ix1 0)
  · refine funext fun s => funext fun o => blk0_apply V c t ⟨(j 0).val, hj0⟩ s o _ ?_
    show win1_7.index t 0 * 512 + 1 * (j 0).val = t.val * 512 + (j 0).val
    rw [e0]; omega

/-- An index of the output array is in point t's block iff each coordinate is in the block's range on its axis. -/
theorem mem_blk (t : Fin cfg1.N) (i : S16384x1.Idx) :
    i ∈ ((cfg1.win 7).blk t).view.set ↔ ∀ a : Fin 2, win1_7.index t a * S512x1.size a ≤ (i a).val ∧ (i a).val < win1_7.index t a * S512x1.size a + S512x1.size a := by
  show i ∈ ((View.whole main_v20).slice (win1_7.rect t)).set ↔ _
  rw [View.set_slice_whole, Rect.mem_set_unit]
  exact Iff.rfl

/-- Batch row b lies in the block of point b / 512. -/
theorem cover (i : S16384x1.Idx) : ∃ t : Fin cfg1.N, (cfg1.win 7).flush t = true ∧ i ∈ ((cfg1.win 7).blk t).view.set := by
  have hi0 : (i 0).val < 16384 := (i 0).isLt
  have hi1 : (i 1).val < 1 := (i 1).isLt
  have hN : cfg1.N = 32 := N_1
  refine ⟨⟨(i 0).val / 512, by rw [hN]; omega⟩, flush1_7 _, ?_⟩
  obtain ⟨-, -, -, -, -, -, -, -, -, -, -, -, e0, e1⟩ := idx_facts ⟨(i 0).val / 512, by rw [hN]; omega⟩
  rw [mem_blk]
  intro a
  match a with
  | ⟨0, _⟩ =>
    show win1_7.index _ 0 * 512 ≤ (i 0).val ∧ (i 0).val < win1_7.index _ 0 * 512 + 512
    rw [e0]; show (i 0).val / 512 * 512 ≤ (i 0).val ∧ (i 0).val < (i 0).val / 512 * 512 + 512
    omega
  | ⟨1, _⟩ =>
    show win1_7.index _ 1 * 1 ≤ (i 1).val ∧ (i 1).val < win1_7.index _ 1 * 1 + 1
    rw [e1]; omega

/-- After the second kernel's thirty-two grid points its output array holds, at batch row b, the pairwise attention sum
    of the five feature rows of b (the weights are stored transposed; weights formed as e · (1 / s)). -/
theorem arr1 (c : Dev nD) :
    (dat1 (F := Ideal) V c).arrAt 7 cfg1.N = fun y =>
      Cert.Spec.pairK (fun o h => V c main_v14 (ix2 h o)) (fun o => V c main_arg7 (ix1 o)) (fun m h => V c main_v16 (ix2 h m))
        (fun m => V c main_arg9 (ix1 m)) (fun m => V c main_v17 (ix2 0 m)) (V c main_arg11 (ix1 0))
        (fun t o => V c main_v19 (ix3 (y 0) t o)) :=
  (dat1 (F := Ideal) V c).arrAt_eq_of_cover 7 (G V c) (fun t _ => flushed_eq V c t) cover

end Cert.KernelIdeal.K1Value

end
-- ==== Proof.KHost.lean ====
/-
  The idealized kernel program's host operations, read at an index, and its result array as one function of the
  argument arrays: the embedding rows are gathered and laid out as 81920 rows (row 5 b + t is embedding row t of batch
  row b), the weight matrices are transposed, the first kernel's output is viewed again as [16384, 5, 256]; so the
  second kernel's output is, batch row by batch row, the pairwise attention sum of the feature mapper of the gathered rows.
-/
import proofs.«413986_j36318243455110_2_alg».proof.Proof.Gen.KernelIdeal.Frame
import proofs.«413986_j36318243455110_2_alg».proof.Proof.Spec
import proofs.«413986_j36318243455110_2_alg».proof.Proof.K0Value
import proofs.«413986_j36318243455110_2_alg».proof.Proof.K1Value
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.ValueIdx Idealize.SL.Sem
open Idealize.ShloMosaic.StableHlo

/-- The gathered embedding rows emb[ids] (a negative index wrapped by the table's length first). -/
def gatheredK (a0 : IVec S16384x5 32) (a1 : FVec Ideal S131072x256 .f32) : FVec Ideal S16384x5x256 .f32 :=
  Host.gather gather_S131072x256_S16384x5x1_S16384x5x256_2_0_n_n_0_2_1256 a1
    (broadcastInDim S16384x5x1 ![0, 1] bcast_S16384x5_S16384x5x1_0_1
      (select (cmpi .slt a0 (broadcastInDim S16384x5 ![] bcast_S_S16384x5 (constantI S_ 32 0#32)))
        (addi a0 (broadcastInDim S16384x5 ![] bcast_S_S16384x5 (constantI S_ 32 131072#32))) a0))

variable (m : (ℓ : Loc nD τ sig) → Buf (Elt Ideal) ℓ) (ρ : Dev nD → PrngReg)

/-! ## The first kernel's operands -/

theorem v8_eq (c : Dev nD) :
    @Eq (FVec Ideal S81920x256 .bf16) (V1 m ρ c main_v8)
      (truncf (F := Ideal) .bf16 (shapeCast S81920x256
        (gatheredK (m ((c : Thread nD τ).loc main_arg0)) (m ((c : Thread nD τ).loc main_arg1))) shapeCasts_S16384x5x256_S81920x256) bitsLt_bf16_f32) := by
  show StableHlo.after hostOps0 (W0 m ρ c) (Proc.devRef .tc main_v8) = _
  after_results
  rfl

/-- Row 5 b + t of the first kernel's input is embedding row t of batch row b. -/
theorem v8_at (c : Dev nD) (b : Fin 16384) (t : Fin 5) (p : Fin 256) :
    V1 m ρ c main_v8 (ix2 (⟨5 * b.val + t.val, by have := b.isLt; have := t.isLt; omega⟩ : Fin 81920) p)
      = gatheredK (m ((c : Thread nD τ).loc main_arg0)) (m ((c : Thread nD τ).loc main_arg1)) (ix3 b t p) := by
  rw [v8_eq]
  refine shapeCast_apply (gatheredK (m ((c : Thread nD τ).loc main_arg0)) (m ((c : Thread nD τ).loc main_arg1))) shapeCasts_S16384x5x256_S81920x256 _ (ix3 b t p) ?_
  rw [Shape.rowMajor_val_three, Shape.rowMajor_val_two]
  show (b.val * 5 + t.val) * 256 + p.val = (5 * b.val + t.val) * 256 + p.val
  omega

theorem v10_eq (c : Dev nD) :
    @Eq (FVec Ideal S256x512 .bf16) (V1 m ρ c main_v10)
      (truncf (F := Ideal) .bf16 (transpose S256x512 [1, 0] (m ((c : Thread nD τ).loc main_arg2)) transposes_S512x256_S256x512_1_0) bitsLt_bf16_f32) := by
  show StableHlo.after hostOps0 (W0 m ρ c) (Proc.devRef .tc main_v10) = _
  after_results

theorem v10_at (c : Dev nD) (p : Fin 256) (k : Fin 512) :
    V1 m ρ c main_v10 (ix2 p k) = m ((c : Thread nD τ).loc main_arg2) (ix2 k p) := by
  rw [v10_eq]
  exact transpose_ix2_apply _ _ p k

theorem v12_eq (c : Dev nD) :
    @Eq (FVec Ideal S512x256 .bf16) (V1 m ρ c main_v12)
      (truncf (F := Ideal) .bf16 (transpose S512x256 [1, 0] (m ((c : Thread nD τ).loc main_arg4)) transposes_S256x512_S512x256_1_0) bitsLt_bf16_f32) := by
  show StableHlo.after hostOps0 (W0 m ρ c) (Proc.devRef .tc main_v12) = _
  after_results

theorem v12_at (c : Dev nD) (k : Fin 512) (o : Fin 256) :
    V1 m ρ c main_v12 (ix2 k o) = m ((c : Thread nD τ).loc main_arg4) (ix2 o k) := by
  rw [v12_eq]
  exact transpose_ix2_apply _ _ k o

theorem arg3_eq (c : Dev nD) : V1 m ρ c main_arg3 = m ((c : Thread nD τ).loc main_arg3) := by
  show StableHlo.after hostOps0 (W0 m ρ c) (Proc.devRef .tc main_arg3) = _
  after_results

theorem arg5_eq (c : Dev nD) : V1 m ρ c main_arg5 = m ((c : Thread nD τ).loc main_arg5) := by
  show StableHlo.after hostOps0 (W0 m ρ c) (Proc.devRef .tc main_arg5) = _
  after_results

/-! ## The second kernel's operands -/

/-- The first kernel's output array, viewed as [16384, 5, 256]: entry (b, t, o) is row 5 b + t. -/
theorem v19_at (c : Dev nD) (b : Fin 16384) (t : Fin 5) (o : Fin 256) :
    V3 m ρ c main_v19 (ix3 b t o)
      = (dat0 (F := Ideal) (V1 m ρ) c).arrAt 5 cfg0.N (ix2 (⟨5 * b.val + t.val, by have := b.isLt; have := t.isLt; omega⟩ : Fin 81920) o) := by
  have e : @Eq (FVec Ideal S16384x5x256 .bf16) (V3 m ρ c main_v19)
      (shapeCast S16384x5x256 (W2 m ρ c (Proc.devRef .tc main_v18)) shapeCasts_S81920x256_S16384x5x256) := by
    show StableHlo.after hostOps1 (W2 m ρ c) (Proc.devRef .tc main_v19) = _
    after_results
    rfl
  rw [e, ← W2_arr m ρ c 5]
  refine shapeCast_apply (W2 m ρ c (Proc.devRef .tc main_v18)) shapeCasts_S81920x256_S16384x5x256 _
    (ix2 (⟨5 * b.val + t.val, by have := b.isLt; have := t.isLt; omega⟩ : Fin 81920) o) ?_
  have h2 : (S81920x256.rowMajor (ix2 (⟨5 * b.val + t.val, by have := b.isLt; have := t.isLt; omega⟩ : Fin 81920) o)).val
      = (5 * b.val + t.val) * 256 + o.val := by rw [Shape.rowMajor_val_two]; rfl
  have h3 : (S16384x5x256.rowMajor (ix3 b t o)).val = (b.val * 5 + t.val) * 256 + o.val := by
    rw [Shape.rowMajor_val_three]; rfl
  show (S81920x256.rowMajor _).val = (S16384x5x256.rowMajor _).val
  rw [h2, h3]
  omega

theorem v14_at (c : Dev nD) (h o : Fin 256) :
    V3 m ρ c main_v14 (ix2 h o) = m ((c : Thread nD τ).loc main_arg6) (ix2 o h) := by
  have e3 : V3 m ρ c main_v14 = W2 m ρ c (Proc.devRef .tc main_v14) := by
    show StableHlo.after hostOps1 (W2 m ρ c) (Proc.devRef .tc main_v14) = _
    after_results
  have e1 : @Eq (FVec Ideal S256x256 .bf16) (V1 m ρ c main_v14)
      (truncf (F := Ideal) .bf16 (transpose S256x256 [1, 0] (m ((c : Thread nD τ).loc main_arg6)) transposes_S256x256_S256x256_1_0) bitsLt_bf16_f32) := by
    show StableHlo.after hostOps0 (W0 m ρ c) (Proc.devRef .tc main_v14) = _
    after_results
  rw [e3, W2_of_ne m ρ c main_v14 (by decide)]
  show V1 m ρ c main_v14 (ix2 h o) = _
  rw [e1]
  exact transpose_ix2_apply _ _ h o

theorem v16_at (c : Dev nD) (h : Fin 256) (k : Fin 512) :
    V3 m ρ c main_v16 (ix2 h k) = m ((c : Thread nD τ).loc main_arg8) (ix2 k h) := by
  have e3 : V3 m ρ c main_v16 = W2 m ρ c (Proc.devRef .tc main_v16) := by
    show StableHlo.after hostOps1 (W2 m ρ c) (Proc.devRef .tc main_v16) = _
    after_results
  have e1 : @Eq (FVec Ideal S256x512 .bf16) (V1 m ρ c main_v16)
      (truncf (F := Ideal) .bf16 (transpose S256x512 [1, 0] (m ((c : Thread nD τ).loc main_arg8)) transposes_S512x256_S256x512_1_0) bitsLt_bf16_f32) := by
    show StableHlo.after hostOps0 (W0 m ρ c) (Proc.devRef .tc main_v16) = _
    after_results
  rw [e3, W2_of_ne m ρ c main_v16 (by decide)]
  show V1 m ρ c main_v16 (ix2 h k) = _
  rw [e1]
  exact transpose_ix2_apply _ _ h k

theorem v17_eq (c : Dev nD) : V3 m ρ c main_v17 = m ((c : Thread nD τ).loc main_arg10) := by
  have e3 : V3 m ρ c main_v17 = W2 m ρ c (Proc.devRef .tc main_v17) := by
    show StableHlo.after hostOps1 (W2 m ρ c) (Proc.devRef .tc main_v17) = _
    after_results
  have e1 : @Eq (FVec Ideal S1x512 .bf16) (V1 m ρ c main_v17)
      (truncf (F := Ideal) .bf16 (m ((c : Thread nD τ).loc main_arg10)) bitsLt_bf16_f32) := by
    show StableHlo.after hostOps0 (W0 m ρ c) (Proc.devRef .tc main_v17) = _
    after_results
  rw [e3, W2_of_ne m ρ c main_v17 (by decide)]
  exact e1

theorem arg7_eq (c : Dev nD) : V3 m ρ c main_arg7 = m ((c : Thread nD τ).loc main_arg7) := by
  have e3 : V3 m ρ c main_arg7 = W2 m ρ c (Proc.devRef .tc main_arg7) := by
    show StableHlo.after hostOps1 (W2 m ρ c) (Proc.devRef .tc main_arg7) = _
    after_results
  have e1 : V1 m ρ c main_arg7 = m ((c : Thread nD τ).loc main_arg7) := by
    show StableHlo.after hostOps0 (W0 m ρ c) (Proc.devRef .tc main_arg7) = _
    after_results
  rw [e3, W2_of_ne m ρ c main_arg7 (by decide)]
  exact e1
theorem arg9_eq (c : Dev nD) : V3 m ρ c main_arg9 = m ((c : Thread nD τ).loc main_arg9) := by
  have e3 : V3 m ρ c main_arg9 = W2 m ρ c (Proc.devRef .tc main_arg9) := by
    show StableHlo.after hostOps1 (W2 m ρ c) (Proc.devRef .tc main_arg9) = _
    after_results
  have e1 : V1 m ρ c main_arg9 = m ((c : Thread nD τ).loc main_arg9) := by
    show StableHlo.after hostOps0 (W0 m ρ c) (Proc.devRef .tc main_arg9) = _
    after_results
  rw [e3, W2_of_ne m ρ c main_arg9 (by decide)]
  exact e1
theorem arg11_eq (c : Dev nD) : V3 m ρ c main_arg11 = m ((c : Thread nD τ).loc main_arg11) := by
  have e3 : V3 m ρ c main_arg11 = W2 m ρ c (Proc.devRef .tc main_arg11) := by
    show StableHlo.after hostOps1 (W2 m ρ c) (Proc.devRef .tc main_arg11) = _
    after_results
  have e1 : V1 m ρ c main_arg11 = m ((c : Thread nD τ).loc main_arg11) := by
    show StableHlo.after hostOps0 (W0 m ρ c) (Proc.devRef .tc main_arg11) = _
    after_results
  rw [e3, W2_of_ne m ρ c main_arg11 (by decide)]
  exact e1

/-! ## The result array -/

/-- The second kernel's input block rows: the feature mapper of the gathered embedding rows. -/
theorem feats_at (c : Dev nD) (b : Fin 16384) :
    (fun (t : Fin 5) (o : Fin 256) => V3 m ρ c main_v19 (ix3 b t o))
      = Cert.Spec.feats (m ((c : Thread nD τ).loc main_arg2)) (m ((c : Thread nD τ).loc main_arg3)) (m ((c : Thread nD τ).loc main_arg4))
          (m ((c : Thread nD τ).loc main_arg5)) (gatheredK (m ((c : Thread nD τ).loc main_arg0)) (m ((c : Thread nD τ).loc main_arg1))) b := by
  funext t o
  rw [v19_at, Cert.KernelIdeal.K0Value.arr0 (V1 m ρ) c]
  have f1 : (fun (k : Fin 512) (p : Fin 256) => V1 m ρ c main_v10 (ix2 p k)) = fun k p => m ((c : Thread nD τ).loc main_arg2) (ix2 k p) :=
    funext fun k => funext fun p => v10_at m ρ c p k
  have f2 : (fun (k : Fin 512) => V1 m ρ c main_arg3 (ix1 k)) = fun k => m ((c : Thread nD τ).loc main_arg3) (ix1 k) := by
    rw [arg3_eq]
  have f3 : (fun (o : Fin 256) (k : Fin 512) => V1 m ρ c main_v12 (ix2 k o)) = fun o k => m ((c : Thread nD τ).loc main_arg4) (ix2 o k) :=
    funext fun o => funext fun k => v12_at m ρ c k o
  have f4 : (fun (o : Fin 256) => V1 m ρ c main_arg5 (ix1 o)) = fun o => m ((c : Thread nD τ).loc main_arg5) (ix1 o) := by
    rw [arg5_eq]
  have f5 : (fun (p : Fin 256) => V1 m ρ c main_v8 (ix2 (⟨5 * b.val + t.val, by have := b.isLt; have := t.isLt; omega⟩ : Fin 81920) p))
      = fun p => gatheredK (m ((c : Thread nD τ).loc main_arg0)) (m ((c : Thread nD τ).loc main_arg1)) (ix3 b t p) :=
    funext fun p => v8_at m ρ c b t p
  show Cert.Spec.feat (fun (k : Fin 512) (p : Fin 256) => V1 m ρ c main_v10 (ix2 p k)) (fun (k : Fin 512) => V1 m ρ c main_arg3 (ix1 k))
      (fun (o : Fin 256) (k : Fin 512) => V1 m ρ c main_v12 (ix2 k o)) (fun (o : Fin 256) => V1 m ρ c main_arg5 (ix1 o))
      (fun (p : Fin 256) => V1 m ρ c main_v8 (ix2 (⟨5 * b.val + t.val, by have := b.isLt; have := t.isLt; omega⟩ : Fin 81920) p)) o = _
  rw [f1, f2, f3, f4, f5]
  rfl

/-- The program's result array: batch row by batch row, the pairwise attention sum (weights e · (1 / s)) of the feature
    mapper of the gathered embedding rows. -/
theorem kvalue (c : Dev nD) :
    @Eq (FVec Ideal S16384x1 .f32) (W4 m ρ c (Proc.devRef .tc main_v20))
      (Cert.Spec.outK (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11))
        (gatheredK (m ((c : Thread nD τ).loc main_arg0)) (m ((c : Thread nD τ).loc main_arg1)))) := by
  have h7 : W4 m ρ c (Proc.devRef .tc main_v20) = (dat1 (F := Ideal) (V3 m ρ) c).arrAt 7 cfg1.N := W4_arr m ρ c 7
  rw [h7, Cert.KernelIdeal.K1Value.arr1 (V3 m ρ) c]
  refine funext fun (y : S16384x1.Idx) => ?_
  have e1 : (fun (o h : Fin 256) => V3 m ρ c main_v14 (ix2 h o)) = fun o h => m ((c : Thread nD τ).loc main_arg6) (ix2 o h) :=
    funext fun o => funext fun h => v14_at m ρ c h o
  have e2 : (fun (o : Fin 256) => V3 m ρ c main_arg7 (ix1 o)) = fun o => m ((c : Thread nD τ).loc main_arg7) (ix1 o) := by
    rw [arg7_eq]
  have e3 : (fun (k : Fin 512) (h : Fin 256) => V3 m ρ c main_v16 (ix2 h k)) = fun k h => m ((c : Thread nD τ).loc main_arg8) (ix2 k h) :=
    funext fun k => funext fun h => v16_at m ρ c h k
  have e4 : (fun (k : Fin 512) => V3 m ρ c main_arg9 (ix1 k)) = fun k => m ((c : Thread nD τ).loc main_arg9) (ix1 k) := by
    rw [arg9_eq]
  have e5 : (fun (k : Fin 512) => V3 m ρ c main_v17 (ix2 0 k)) = fun k => m ((c : Thread nD τ).loc main_arg10) (ix2 0 k) := by
    rw [v17_eq]
  have e6 : V3 m ρ c main_arg11 (ix1 0) = m ((c : Thread nD τ).loc main_arg11) (ix1 0) := by
    rw [arg11_eq]
  show Cert.Spec.pairK (fun (o h : Fin 256) => V3 m ρ c main_v14 (ix2 h o)) (fun (o : Fin 256) => V3 m ρ c main_arg7 (ix1 o))
      (fun (k : Fin 512) (h : Fin 256) => V3 m ρ c main_v16 (ix2 h k)) (fun (k : Fin 512) => V3 m ρ c main_arg9 (ix1 k))
      (fun (k : Fin 512) => V3 m ρ c main_v17 (ix2 0 k)) (V3 m ρ c main_arg11 (ix1 0))
      (fun (t : Fin 5) (o : Fin 256) => V3 m ρ c main_v19 (ix3 (y 0) t o)) = _
  rw [e1, e2, e3, e4, e5, e6, feats_at m ρ c (y 0)]
  rfl

end Cert.KernelIdeal.KHost

end
-- ==== Proof.RefTerm.lean ====
/-
  The reference program's result as a closed term of its twelve arguments, in stages: every operation
  of the program is one typed binding named after the value it defines, the bindings grouped by what
  they compute (the gathered embedding rows, the feature mapper, the two gathers of the ordered pairs,
  the pair network, the attention scores, the soft-max), and the result is the stages composed.  The
  two calls of the sigmoid-weighted unit are written out in place over the call's own values.
-/
import proofs.«413986_j36318243455110_2_alg».proof.ReferenceIdeal
import proofs.«413986_j36318243455110_2_alg».proof.Proof.Gen.ReferenceIdeal
import Idealize.ShloMosaic.PureOps.Ideal

noncomputable section

namespace Cert.ReferenceIdeal.RefRun

open Cert.ReferenceIdeal Idealize.ShloMosaic
open Facts₀

/-- The embedding rows the program gathers (values %c_3 … %6): a negative row index is wrapped by the
    table's height, then row `idx b t` of the table is read for every batch row b and slot t. -/
noncomputable def gathered (main_arg0 : IVec S16384x5 32) (main_arg1 : FVec Ideal S131072x256 .f32) :
    FVec Ideal S16384x5x256 .f32 :=
  let main_c_3 : IVec S_ 32 := constantI S_ 32 0#32
  let main_v0 : IVec S16384x5 32 := broadcastInDim S16384x5 ![] bcast_S_S16384x5 main_c_3
  let main_v1 : IVec S16384x5 1 := cmpi .slt main_arg0 main_v0
  let main_c_4 : IVec S_ 32 := constantI S_ 32 131072#32
  let main_v2 : IVec S16384x5 32 := broadcastInDim S16384x5 ![] bcast_S_S16384x5 main_c_4
  let main_v3 : IVec S16384x5 32 := addi main_arg0 main_v2
  let main_v4 : IVec S16384x5 32 := select main_v1 main_v3 main_arg0
  let main_v5 : IVec S16384x5x1 32 := broadcastInDim S16384x5x1 ![0, 1] bcast_S16384x5_S16384x5x1_0_1 main_v4
  let main_v6 : FVec Ideal S16384x5x256 .f32 :=
    Host.gather gather_S131072x256_S16384x5x1_S16384x5x256_2_0_n_n_0_2_1256 main_arg1 main_v5
  main_v6

/-- The feature mapper on the gathered rows (values %7 … %15, the first call written out):
    W₂ · silu (W₁ · x + b₁) + b₂ for each of the five rows of every batch row. -/
noncomputable def featR (main_v6 : FVec Ideal S16384x5x256 .f32)
    (main_arg2 : FVec Ideal S512x256 .f32) (main_arg3 : FVec Ideal S512 .f32)
    (main_arg4 : FVec Ideal S256x512 .f32) (main_arg5 : FVec Ideal S256 .f32) : FVec Ideal S16384x5x256 .f32 :=
  let main_v7 : FVec Ideal S16384x5x512 .f32 :=
    Host.dotGeneral (F := Ideal) dot_S16384x5x256_S512x256_S16384x5x512_2_1_01_0_n_n none main_v6 main_arg2
  let main_v8 : FVec Ideal S1x1x512 .f32 := broadcastInDim S1x1x512 ![2] bcast_S512_S1x1x512_2 main_arg3
  let main_v9 : FVec Ideal S16384x5x512 .f32 :=
    broadcastInDim S16384x5x512 ![0, 1, 2] bcast_S1x1x512_S16384x5x512_0_1_2 main_v8
  let main_v10 : FVec Ideal S16384x5x512 .f32 := addf (F := Ideal) main_v7 main_v9
  let main_call0_v0 : FVec Ideal S16384x5x512 .f32 := Host.negf (F := Ideal) main_v10
  let main_call0_v1 : FVec Ideal S16384x5x512 .f32 := Host.exp (F := Ideal) main_call0_v0
  let main_call0_cst : FVec Ideal S_ .f32 := constant (F := Ideal) S_ .f32 0x3F800000#32
  let main_call0_v2 : FVec Ideal S16384x5x512 .f32 :=
    broadcastInDim S16384x5x512 ![] bcast_S_S16384x5x512 main_call0_cst
  let main_call0_v3 : FVec Ideal S16384x5x512 .f32 := addf (F := Ideal) main_call0_v2 main_call0_v1
  let main_call0_cst_0 : FVec Ideal S_ .f32 := constant (F := Ideal) S_ .f32 0x3F800000#32
  let main_call0_v4 : FVec Ideal S16384x5x512 .f32 :=
    broadcastInDim S16384x5x512 ![] bcast_S_S16384x5x512 main_call0_cst_0
  let main_call0_v5 : FVec Ideal S16384x5x512 .f32 := Host.divf (F := Ideal) main_call0_v4 main_call0_v3
  let main_v11 : FVec Ideal S16384x5x512 .f32 := mulf (F := Ideal) main_v10 main_call0_v5
  let main_v12 : FVec Ideal S16384x5x256 .f32 :=
    Host.dotGeneral (F := Ideal) dot_S16384x5x512_S256x512_S16384x5x256_2_1_01_0_n_n none main_v11 main_arg4
  let main_v13 : FVec Ideal S1x1x256 .f32 := broadcastInDim S1x1x256 ![2] bcast_S256_S1x1x256_2 main_arg5
  let main_v14 : FVec Ideal S16384x5x256 .f32 :=
    broadcastInDim S16384x5x256 ![0, 1, 2] bcast_S1x1x256_S16384x5x256_0_1_2 main_v13
  let main_v15 : FVec Ideal S16384x5x256 .f32 := addf (F := Ideal) main_v12 main_v14
  main_v15

/-- The first member of each of the twenty ordered pairs (values %c, %c_0, %c_5, %16 … %20): feature row
    `[0,0,0,0,1,1,1,1,…,4,4,4,4] p` of every batch row, for p < 20. -/
noncomputable def gatherA (main_v15 : FVec Ideal S16384x5x256 .f32) : FVec Ideal S16384x20x256 .f32 :=
  let main_c : IVec S20 32 := fun i => lit0 (S20.rowMajor i)
  let main_c_0 : IVec S20 1 := constantI S20 1 0#1
  let main_c_5 : IVec S_ 32 := constantI S_ 32 5#32
  let main_v16 : IVec S20 32 := broadcastInDim S20 ![] bcast_S_S20 main_c_5
  let main_v17 : IVec S20 32 := addi main_c main_v16
  let main_v18 : IVec S20 32 := select main_c_0 main_v17 main_c
  let main_v19 : IVec S20x1 32 := broadcastInDim S20x1 ![0] bcast_S20_S20x1_0 main_v18
  let main_v20 : FVec Ideal S16384x20x256 .f32 :=
    Host.gather gather_S16384x5x256_S20x1_S16384x20x256_02_1_n_n_1_1_163841256 main_v15 main_v19
  main_v20

/-- The second member of each ordered pair (values %c_1, %c_2, %c_6, %21 … %25): feature row
    `[1,2,3,4,0,2,3,4,0,1,3,4,0,1,2,4,0,1,2,3] p` of every batch row, for p < 20. -/
noncomputable def gatherB (main_v15 : FVec Ideal S16384x5x256 .f32) : FVec Ideal S16384x20x256 .f32 :=
  let main_c_1 : IVec S20 32 := fun i => lit1 (S20.rowMajor i)
  let main_c_2 : IVec S20 1 := constantI S20 1 0#1
  let main_c_6 : IVec S_ 32 := constantI S_ 32 5#32
  let main_v21 : IVec S20 32 := broadcastInDim S20 ![] bcast_S_S20 main_c_6
  let main_v22 : IVec S20 32 := addi main_c_1 main_v21
  let main_v23 : IVec S20 32 := select main_c_2 main_v22 main_c_1
  let main_v24 : IVec S20x1 32 := broadcastInDim S20x1 ![0] bcast_S20_S20x1_0 main_v23
  let main_v25 : FVec Ideal S16384x20x256 .f32 :=
    Host.gather gather_S16384x5x256_S20x1_S16384x20x256_02_1_n_n_1_1_163841256 main_v15 main_v24
  main_v25

/-- The pair network (values %26 … %36, the second call written out): for every pair,
    w₂ · silu (M₁ · (h i ⊙ h j) + c₁) + c₂. -/
noncomputable def orderR (main_v20 main_v25 : FVec Ideal S16384x20x256 .f32)
    (main_arg8 : FVec Ideal S512x256 .f32) (main_arg9 : FVec Ideal S512 .f32)
    (main_arg10 : FVec Ideal S1x512 .f32) (main_arg11 : FVec Ideal S1 .f32) : FVec Ideal S16384x20 .f32 :=
  let main_v26 : FVec Ideal S16384x20x256 .f32 := mulf (F := Ideal) main_v20 main_v25
  let main_v27 : FVec Ideal S16384x20x512 .f32 :=
    Host.dotGeneral (F := Ideal) dot_S16384x20x256_S512x256_S16384x20x512_2_1_01_0_n_n none main_v26 main_arg8
  let main_v28 : FVec Ideal S1x1x512 .f32 := broadcastInDim S1x1x512 ![2] bcast_S512_S1x1x512_2 main_arg9
  let main_v29 : FVec Ideal S16384x20x512 .f32 :=
    broadcastInDim S16384x20x512 ![0, 1, 2] bcast_S1x1x512_S16384x20x512_0_1_2 main_v28
  let main_v30 : FVec Ideal S16384x20x512 .f32 := addf (F := Ideal) main_v27 main_v29
  let main_call1_v0 : FVec Ideal S16384x20x512 .f32 := Host.negf (F := Ideal) main_v30
  let main_call1_v1 : FVec Ideal S16384x20x512 .f32 := Host.exp (F := Ideal) main_call1_v0
  let main_call1_cst : FVec Ideal S_ .f32 := constant (F := Ideal) S_ .f32 0x3F800000#32
  let main_call1_v2 : FVec Ideal S16384x20x512 .f32 :=
    broadcastInDim S16384x20x512 ![] bcast_S_S16384x20x512 main_call1_cst
  let main_call1_v3 : FVec Ideal S16384x20x512 .f32 := addf (F := Ideal) main_call1_v2 main_call1_v1
  let main_call1_cst_0 : FVec Ideal S_ .f32 := constant (F := Ideal) S_ .f32 0x3F800000#32
  let main_call1_v4 : FVec Ideal S16384x20x512 .f32 :=
    broadcastInDim S16384x20x512 ![] bcast_S_S16384x20x512 main_call1_cst_0
  let main_call1_v5 : FVec Ideal S16384x20x512 .f32 := Host.divf (F := Ideal) main_call1_v4 main_call1_v3
  let main_v31 : FVec Ideal S16384x20x512 .f32 := mulf (F := Ideal) main_v30 main_call1_v5
  let main_v32 : FVec Ideal S16384x20x1 .f32 :=
    Host.dotGeneral (F := Ideal) dot_S16384x20x512_S1x512_S16384x20x1_2_1_01_0_n_n none main_v31 main_arg10
  let main_v33 : FVec Ideal S1x1x1 .f32 := broadcastInDim S1x1x1 ![2] bcast_S1_S1x1x1_2 main_arg11
  let main_v34 : FVec Ideal S16384x20x1 .f32 :=
    broadcastInDim S16384x20x1 ![0, 1, 2] bcast_S1x1x1_S16384x20x1_0_1_2 main_v33
  let main_v35 : FVec Ideal S16384x20x1 .f32 := addf (F := Ideal) main_v32 main_v34
  let main_v36 : FVec Ideal S16384x20 .f32 := shapeCast S16384x20 main_v35 shapeCasts_S16384x20x1_S16384x20
  main_v36

/-- The attention scores (values %37 … %42, %cst): for every pair, ⟨A · h i + a, h j⟩. -/
noncomputable def scoreR (main_v20 main_v25 : FVec Ideal S16384x20x256 .f32)
    (main_arg6 : FVec Ideal S256x256 .f32) (main_arg7 : FVec Ideal S256 .f32) : FVec Ideal S16384x20 .f32 :=
  let main_v37 : FVec Ideal S16384x20x256 .f32 :=
    Host.dotGeneral (F := Ideal) dot_S16384x20x256_S256x256_S16384x20x256_2_1_01_0_n_n none main_v20 main_arg6
  let main_v38 : FVec Ideal S1x1x256 .f32 := broadcastInDim S1x1x256 ![2] bcast_S256_S1x1x256_2 main_arg7
  let main_v39 : FVec Ideal S16384x20x256 .f32 :=
    broadcastInDim S16384x20x256 ![0, 1, 2] bcast_S1x1x256_S16384x20x256_0_1_2 main_v38
  let main_v40 : FVec Ideal S16384x20x256 .f32 := addf (F := Ideal) main_v37 main_v39
  let main_v41 : FVec Ideal S16384x20x256 .f32 := mulf (F := Ideal) main_v40 main_v25
  let main_cst : FVec Ideal S_ .f32 := constant (F := Ideal) S_ .f32 0x00000000#32
  let main_v42 : FVec Ideal S16384x20 .f32 :=
    Host.reduceAdd (F := Ideal) main_v41 main_cst reducesTo_S16384x20x256_S16384x20_d2 h_S_
  main_v42

/-- The soft-max over each row's four partners (values %43 … %55, %cst_7, %cst_8, %cst_9):
    exp (score − max) divided by the sum of the four exponentials. -/
noncomputable def softR (main_v42 : FVec Ideal S16384x20 .f32) : FVec Ideal S16384x20 .f32 :=
  let main_v43 : FVec Ideal S16384x5x4 .f32 := shapeCast S16384x5x4 main_v42 shapeCasts_S16384x20_S16384x5x4
  let main_cst_7 : FVec Ideal S_ .f32 := constant (F := Ideal) S_ .f32 0xFF800000#32
  let main_v44 : FVec Ideal S16384x5 .f32 :=
    Host.reduce (FloatOps.maximumf (F := Ideal) (φ := .f32)) main_v43 main_cst_7 reducesTo_S16384x5x4_S16384x5_d2 h_S_
  let main_cst_8 : FVec Ideal S_ .f32 := constant (F := Ideal) S_ .f32 0xFF800000#32
  let main_v45 : FVec Ideal S16384x5 .f32 := broadcastInDim S16384x5 ![] bcast_S_S16384x5 main_cst_8
  let main_v46 : FVec Ideal S16384x5 .f32 := maximumf (F := Ideal) main_v45 main_v44
  let main_v47 : FVec Ideal S16384x5x1 .f32 := broadcastInDim S16384x5x1 ![0, 1] bcast_S16384x5_S16384x5x1_0_1 main_v46
  let main_v48 : FVec Ideal S16384x5x4 .f32 :=
    broadcastInDim S16384x5x4 ![0, 1, 2] bcast_S16384x5x1_S16384x5x4_0_1_2 main_v47
  let main_v49 : FVec Ideal S16384x5x4 .f32 := subf (F := Ideal) main_v43 main_v48
  let main_v50 : FVec Ideal S16384x5x4 .f32 := Host.exp (F := Ideal) main_v49
  let main_cst_9 : FVec Ideal S_ .f32 := constant (F := Ideal) S_ .f32 0x00000000#32
  let main_v51 : FVec Ideal S16384x5 .f32 :=
    Host.reduceAdd (F := Ideal) main_v50 main_cst_9 reducesTo_S16384x5x4_S16384x5_d2 h_S_
  let main_v52 : FVec Ideal S16384x5x1 .f32 := broadcastInDim S16384x5x1 ![0, 1] bcast_S16384x5_S16384x5x1_0_1 main_v51
  let main_v53 : FVec Ideal S16384x5x4 .f32 :=
    broadcastInDim S16384x5x4 ![0, 1, 2] bcast_S16384x5x1_S16384x5x4_0_1_2 main_v52
  let main_v54 : FVec Ideal S16384x5x4 .f32 := Host.divf (F := Ideal) main_v50 main_v53
  let main_v55 : FVec Ideal S16384x20 .f32 := shapeCast S16384x20 main_v54 shapeCasts_S16384x5x4_S16384x20
  main_v55

/-- The program's result (values %56 … %58, %cst_10 over the stages): for every batch row, the sum over
    the twenty ordered pairs of the pair's order times its soft-max weight. -/
noncomputable def refOut (main_arg0 : IVec S16384x5 32) (main_arg1 : FVec Ideal S131072x256 .f32)
    (main_arg2 : FVec Ideal S512x256 .f32) (main_arg3 : FVec Ideal S512 .f32)
    (main_arg4 : FVec Ideal S256x512 .f32) (main_arg5 : FVec Ideal S256 .f32)
    (main_arg6 : FVec Ideal S256x256 .f32) (main_arg7 : FVec Ideal S256 .f32)
    (main_arg8 : FVec Ideal S512x256 .f32) (main_arg9 : FVec Ideal S512 .f32)
    (main_arg10 : FVec Ideal S1x512 .f32) (main_arg11 : FVec Ideal S1 .f32) : FVec Ideal S16384x1 .f32 :=
  let main_v6 : FVec Ideal S16384x5x256 .f32 := gathered main_arg0 main_arg1
  let main_v15 : FVec Ideal S16384x5x256 .f32 := featR main_v6 main_arg2 main_arg3 main_arg4 main_arg5
  let main_v20 : FVec Ideal S16384x20x256 .f32 := gatherA main_v15
  let main_v25 : FVec Ideal S16384x20x256 .f32 := gatherB main_v15
  let main_v36 : FVec Ideal S16384x20 .f32 := orderR main_v20 main_v25 main_arg8 main_arg9 main_arg10 main_arg11
  let main_v42 : FVec Ideal S16384x20 .f32 := scoreR main_v20 main_v25 main_arg6 main_arg7
  let main_v55 : FVec Ideal S16384x20 .f32 := softR main_v42
  let main_v56 : FVec Ideal S16384x20 .f32 := mulf (F := Ideal) main_v36 main_v55
  let main_cst_10 : FVec Ideal S_ .f32 := constant (F := Ideal) S_ .f32 0x00000000#32
  let main_v57 : FVec Ideal S16384 .f32 :=
    Host.reduceAdd (F := Ideal) main_v56 main_cst_10 reducesTo_S16384x20_S16384_d1 h_S_
  let main_v58 : FVec Ideal S16384x1 .f32 := broadcastInDim S16384x1 ![0] bcast_S16384_S16384x1_0 main_v57
  main_v58

end Cert.ReferenceIdeal.RefRun

end
-- ==== Proof.RefRun.lean ====
/-
  The reference program's run read back: its operations as one list in program order (the two calls
  of the sigmoid-weighted unit written out over the calls' own values), and the fact that every
  weakly fair execution ends with the result holding the closed term of the arguments and with
  the twelve arguments unchanged.
-/
import proofs.«413986_j36318243455110_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀

section Generic
variable {F : FTy → Type} [FloatOps F]

set_option maxHeartbeats 4000000 in
/-- The program's 88 operations, in order; each call's nine operations stand where the call stands. -/
abbrev ops : List (HloOp τ sig (Elt F)) :=
  [
    nullary main_c (fun i => lit0 (S20.rowMajor i)),
    nullary main_c_0 (constantI S20 1 0#1),
    nullary main_c_1 (fun i => lit1 (S20.rowMajor i)),
    nullary main_c_2 (constantI S20 1 0#1),
    nullary main_c_3 (constantI S_ 32 0#32),
    unary main_c_3 main_v0 (broadcastInDim S16384x5 ![] bcast_S_S16384x5 : (⟨S_, .i32⟩ : BufTy).Contents (Elt F) → (⟨S16384x5, .i32⟩ : BufTy).Contents (Elt F)),
    binary main_arg0 main_v0 main_v1 (cmpi .slt : (⟨S16384x5, .i32⟩ : BufTy).Contents (Elt F) → (⟨S16384x5, .i32⟩ : BufTy).Contents (Elt F) → (⟨S16384x5, .i1⟩ : BufTy).Contents (Elt F)),
    nullary main_c_4 (constantI S_ 32 131072#32),
    unary main_c_4 main_v2 (broadcastInDim S16384x5 ![] bcast_S_S16384x5 : (⟨S_, .i32⟩ : BufTy).Contents (Elt F) → (⟨S16384x5, .i32⟩ : BufTy).Contents (Elt F)),
    binary main_arg0 main_v2 main_v3 (addi : (⟨S16384x5, .i32⟩ : BufTy).Contents (Elt F) → (⟨S16384x5, .i32⟩ : BufTy).Contents (Elt F) → (⟨S16384x5, .i32⟩ : BufTy).Contents (Elt F)),
    ternary main_v1 main_v3 main_arg0 main_v4 (select : (⟨S16384x5, .i1⟩ : BufTy).Contents (Elt F) → (⟨S16384x5, .i32⟩ : BufTy).Contents (Elt F) → (⟨S16384x5, .i32⟩ : BufTy).Contents (Elt F) → (⟨S16384x5, .i32⟩ : BufTy).Contents (Elt F)),
    unary main_v4 main_v5 (broadcastInDim S16384x5x1 ![0, 1] bcast_S16384x5_S16384x5x1_0_1 : (⟨S16384x5, .i32⟩ : BufTy).Contents (Elt F) → (⟨S16384x5x1, .i32⟩ : BufTy).Contents (Elt F)),
    binary main_arg1 main_v5 main_v6 ((fun x i => Host.gather gather_S131072x256_S16384x5x1_S16384x5x256_2_0_n_n_0_2_1256 x i) : (⟨S131072x256, .f32⟩ : BufTy).Contents (Elt F) → (⟨S16384x5x1, .i32⟩ : BufTy).Contents (Elt F) → (⟨S16384x5x256, .f32⟩ : BufTy).Contents (Elt F)),
    binary main_v6 main_arg2 main_v7 ((fun l r => Host.dotGeneral dot_S16384x5x256_S512x256_S16384x5x512_2_1_01_0_n_n none l r) : (⟨S16384x5x256, .f32⟩ : BufTy).Contents (Elt F) → (⟨S512x256, .f32⟩ : BufTy).Contents (Elt F) → (⟨S16384x5x512, .f32⟩ : BufTy).Contents (Elt F)),
    unary main_arg3 main_v8 (broadcastInDim S1x1x512 ![2] bcast_S512_S1x1x512_2 : (⟨S512, .f32⟩ : BufTy).Contents (Elt F) → (⟨S1x1x512, .f32⟩ : BufTy).Contents (Elt F)),
    unary main_v8 main_v9 (broadcastInDim S16384x5x512 ![0, 1, 2] bcast_S1x1x512_S16384x5x512_0_1_2 : (⟨S1x1x512, .f32⟩ : BufTy).Contents (Elt F) → (⟨S16384x5x512, .f32⟩ : BufTy).Contents (Elt F)),
    binary main_v7 main_v9 main_v10 (addf : (⟨S16384x5x512, .f32⟩ : BufTy).Contents (Elt F) → (⟨S16384x5x512, .f32⟩ : BufTy).Contents (Elt F) → (⟨S16384x5x512, .f32⟩ : BufTy).Contents (Elt F)),
    TRef.unary (TRef.of main_v10 : TRef sig ⟨S16384x5x512, .f32⟩) main_call0.v0 Host.negf,
    TRef.unary main_call0.v0 main_call0.v1 Host.exp,
    TRef.nullary main_call0.cst (constant S_ .f32 0x3F800000#32),
    TRef.unary main_call0.cst main_call0.v2 (broadcastInDim S16384x5x512 ![] bcast_S_S16384x5x512),
    TRef.binary main_call0.v2 main_call0.v1 main_call0.v3 addf,
    TRef.nullary main_call0.cst_0 (constant S_ .f32 0x3F800000#32),
    TRef.unary main_call0.cst_0 main_call0.v4 (broadcastInDim S16384x5x512 ![] bcast_S_S16384x5x512),
    TRef.binary main_call0.v4 main_call0.v3 main_call0.v5 Host.divf,
    TRef.binary (TRef.of main_v10 : TRef sig ⟨S16384x5x512, .f32⟩) main_call0.v5 main_call0.v6 mulf,
    binary main_v11 main_arg4 main_v12 ((fun l r => Host.dotGeneral dot_S16384x5x512_S256x512_S16384x5x256_2_1_01_0_n_n none l r) : (⟨S16384x5x512, .f32⟩ : BufTy).Contents (Elt F) → (⟨S256x512, .f32⟩ : BufTy).Contents (Elt F) → (⟨S16384x5x256, .f32⟩ : BufTy).Contents (Elt F)),
    unary main_arg5 main_v13 (broadcastInDim S1x1x256 ![2] bcast_S256_S1x1x256_2 : (⟨S256, .f32⟩ : BufTy).Contents (Elt F) → (⟨S1x1x256, .f32⟩ : BufTy).Contents (Elt F)),
    unary main_v13 main_v14 (broadcastInDim S16384x5x256 ![0, 1, 2] bcast_S1x1x256_S16384x5x256_0_1_2 : (⟨S1x1x256, .f32⟩ : BufTy).Contents (Elt F) → (⟨S16384x5x256, .f32⟩ : BufTy).Contents (Elt F)),
    binary main_v12 main_v14 main_v15 (addf : (⟨S16384x5x256, .f32⟩ : BufTy).Contents (Elt F) → (⟨S16384x5x256, .f32⟩ : BufTy).Contents (Elt F) → (⟨S16384x5x256, .f32⟩ : BufTy).Contents (Elt F)),
    nullary main_c_5 (constantI S_ 32 5#32),
    unary main_c_5 main_v16 (broadcastInDim S20 ![] bcast_S_S20 : (⟨S_, .i32⟩ : BufTy).Contents (Elt F) → (⟨S20, .i32⟩ : BufTy).Contents (Elt F)),
    binary main_c main_v16 main_v17 (addi : (⟨S20, .i32⟩ : BufTy).Contents (Elt F) → (⟨S20, .i32⟩ : BufTy).Contents (Elt F) → (⟨S20, .i32⟩ : BufTy).Contents (Elt F)),
    ternary main_c_0 main_v17 main_c main_v18 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v18 main_v19 (broadcastInDim S20x1 ![0] bcast_S20_S20x1_0 : (⟨S20, .i32⟩ : BufTy).Contents (Elt F) → (⟨S20x1, .i32⟩ : BufTy).Contents (Elt F)),
    binary main_v15 main_v19 main_v20 ((fun x i => Host.gather gather_S16384x5x256_S20x1_S16384x20x256_02_1_n_n_1_1_163841256 x i) : (⟨S16384x5x256, .f32⟩ : BufTy).Contents (Elt F) → (⟨S20x1, .i32⟩ : BufTy).Contents (Elt F) → (⟨S16384x20x256, .f32⟩ : BufTy).Contents (Elt F)),
    nullary main_c_6 (constantI S_ 32 5#32),
    unary main_c_6 main_v21 (broadcastInDim S20 ![] bcast_S_S20 : (⟨S_, .i32⟩ : BufTy).Contents (Elt F) → (⟨S20, .i32⟩ : BufTy).Contents (Elt F)),
    binary main_c_1 main_v21 main_v22 (addi : (⟨S20, .i32⟩ : BufTy).Contents (Elt F) → (⟨S20, .i32⟩ : BufTy).Contents (Elt F) → (⟨S20, .i32⟩ : BufTy).Contents (Elt F)),
    ternary main_c_2 main_v22 main_c_1 main_v23 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v23 main_v24 (broadcastInDim S20x1 ![0] bcast_S20_S20x1_0 : (⟨S20, .i32⟩ : BufTy).Contents (Elt F) → (⟨S20x1, .i32⟩ : BufTy).Contents (Elt F)),
    binary main_v15 main_v24 main_v25 ((fun x i => Host.gather gather_S16384x5x256_S20x1_S16384x20x256_02_1_n_n_1_1_163841256 x i) : (⟨S16384x5x256, .f32⟩ : BufTy).Contents (Elt F) → (⟨S20x1, .i32⟩ : BufTy).Contents (Elt F) → (⟨S16384x20x256, .f32⟩ : BufTy).Contents (Elt F)),
    binary main_v20 main_v25 main_v26 (mulf : (⟨S16384x20x256, .f32⟩ : BufTy).Contents (Elt F) → (⟨S16384x20x256, .f32⟩ : BufTy).Contents (Elt F) → (⟨S16384x20x256, .f32⟩ : BufTy).Contents (Elt F)),
    binary main_v26 main_arg8 main_v27 ((fun l r => Host.dotGeneral dot_S16384x20x256_S512x256_S16384x20x512_2_1_01_0_n_n none l r) : (⟨S16384x20x256, .f32⟩ : BufTy).Contents (Elt F) → (⟨S512x256, .f32⟩ : BufTy).Contents (Elt F) → (⟨S16384x20x512, .f32⟩ : BufTy).Contents (Elt F)),
    unary main_arg9 main_v28 (broadcastInDim S1x1x512 ![2] bcast_S512_S1x1x512_2 : (⟨S512, .f32⟩ : BufTy).Contents (Elt F) → (⟨S1x1x512, .f32⟩ : BufTy).Contents (Elt F)),
    unary main_v28 main_v29 (broadcastInDim S16384x20x512 ![0, 1, 2] bcast_S1x1x512_S16384x20x512_0_1_2 : (⟨S1x1x512, .f32⟩ : BufTy).Contents (Elt F) → (⟨S16384x20x512, .f32⟩ : BufTy).Contents (Elt F)),
    binary main_v27 main_v29 main_v30 (addf : (⟨S16384x20x512, .f32⟩ : BufTy).Contents (Elt F) → (⟨S16384x20x512, .f32⟩ : BufTy).Contents (Elt F) → (⟨S16384x20x512, .f32⟩ : BufTy).Contents (Elt F)),
    TRef.unary (TRef.of main_v30 : TRef sig ⟨S16384x20x512, .f32⟩) main_call1.v0 Host.negf,
    TRef.unary main_call1.v0 main_call1.v1 Host.exp,
    TRef.nullary main_call1.cst (constant S_ .f32 0x3F800000#32),
    TRef.unary main_call1.cst main_call1.v2 (broadcastInDim S16384x20x512 ![] bcast_S_S16384x20x512),
    TRef.binary main_call1.v2 main_call1.v1 main_call1.v3 addf,
    TRef.nullary main_call1.cst_0 (constant S_ .f32 0x3F800000#32),
    TRef.unary main_call1.cst_0 main_call1.v4 (broadcastInDim S16384x20x512 ![] bcast_S_S16384x20x512),
    TRef.binary main_call1.v4 main_call1.v3 main_call1.v5 Host.divf,
    TRef.binary (TRef.of main_v30 : TRef sig ⟨S16384x20x512, .f32⟩) main_call1.v5 main_call1.v6 mulf,
    binary main_v31 main_arg10 main_v32 ((fun l r => Host.dotGeneral dot_S16384x20x512_S1x512_S16384x20x1_2_1_01_0_n_n none l r) : (⟨S16384x20x512, .f32⟩ : BufTy).Contents (Elt F) → (⟨S1x512, .f32⟩ : BufTy).Contents (Elt F) → (⟨S16384x20x1, .f32⟩ : BufTy).Contents (Elt F)),
    unary main_arg11 main_v33 (broadcastInDim S1x1x1 ![2] bcast_S1_S1x1x1_2 : (⟨S1, .f32⟩ : BufTy).Contents (Elt F) → (⟨S1x1x1, .f32⟩ : BufTy).Contents (Elt F)),
    unary main_v33 main_v34 (broadcastInDim S16384x20x1 ![0, 1, 2] bcast_S1x1x1_S16384x20x1_0_1_2 : (⟨S1x1x1, .f32⟩ : BufTy).Contents (Elt F) → (⟨S16384x20x1, .f32⟩ : BufTy).Contents (Elt F)),
    binary main_v32 main_v34 main_v35 (addf : (⟨S16384x20x1, .f32⟩ : BufTy).Contents (Elt F) → (⟨S16384x20x1, .f32⟩ : BufTy).Contents (Elt F) → (⟨S16384x20x1, .f32⟩ : BufTy).Contents (Elt F)),
    reshape main_v35 main_v36 rfl shapeCasts_S16384x20x1_S16384x20,
    binary main_v20 main_arg6 main_v37 ((fun l r => Host.dotGeneral dot_S16384x20x256_S256x256_S16384x20x256_2_1_01_0_n_n none l r) : (⟨S16384x20x256, .f32⟩ : BufTy).Contents (Elt F) → (⟨S256x256, .f32⟩ : BufTy).Contents (Elt F) → (⟨S16384x20x256, .f32⟩ : BufTy).Contents (Elt F)),
    unary main_arg7 main_v38 (broadcastInDim S1x1x256 ![2] bcast_S256_S1x1x256_2 : (⟨S256, .f32⟩ : BufTy).Contents (Elt F) → (⟨S1x1x256, .f32⟩ : BufTy).Contents (Elt F)),
    unary main_v38 main_v39 (broadcastInDim S16384x20x256 ![0, 1, 2] bcast_S1x1x256_S16384x20x256_0_1_2 : (⟨S1x1x256, .f32⟩ : BufTy).Contents (Elt F) → (⟨S16384x20x256, .f32⟩ : BufTy).Contents (Elt F)),
    binary main_v37 main_v39 main_v40 (addf : (⟨S16384x20x256, .f32⟩ : BufTy).Contents (Elt F) → (⟨S16384x20x256, .f32⟩ : BufTy).Contents (Elt F) → (⟨S16384x20x256, .f32⟩ : BufTy).Contents (Elt F)),
    binary main_v40 main_v25 main_v41 (mulf : (⟨S16384x20x256, .f32⟩ : BufTy).Contents (Elt F) → (⟨S16384x20x256, .f32⟩ : BufTy).Contents (Elt F) → (⟨S16384x20x256, .f32⟩ : BufTy).Contents (Elt F)),
    nullary main_cst (constant S_ .f32 0x00000000#32),
    binary main_v41 main_cst main_v42 ((fun x v => Host.reduceAdd x v reducesTo_S16384x20x256_S16384x20_d2 h_S_) : (⟨S16384x20x256, .f32⟩ : BufTy).Contents (Elt F) → (⟨S_, .f32⟩ : BufTy).Contents (Elt F) → (⟨S16384x20, .f32⟩ : BufTy).Contents (Elt F)),
    reshape main_v42 main_v43 rfl shapeCasts_S16384x20_S16384x5x4,
    nullary main_cst_7 (constant S_ .f32 0xFF800000#32),
    binary main_v43 main_cst_7 main_v44 ((fun x v => Host.reduce FloatOps.maximumf x v reducesTo_S16384x5x4_S16384x5_d2 h_S_) : (⟨S16384x5x4, .f32⟩ : BufTy).Contents (Elt F) → (⟨S_, .f32⟩ : BufTy).Contents (Elt F) → (⟨S16384x5, .f32⟩ : BufTy).Contents (Elt F)),
    nullary main_cst_8 (constant S_ .f32 0xFF800000#32),
    unary main_cst_8 main_v45 (broadcastInDim S16384x5 ![] bcast_S_S16384x5 : (⟨S_, .f32⟩ : BufTy).Contents (Elt F) → (⟨S16384x5, .f32⟩ : BufTy).Contents (Elt F)),
    binary main_v45 main_v44 main_v46 (maximumf : (⟨S16384x5, .f32⟩ : BufTy).Contents (Elt F) → (⟨S16384x5, .f32⟩ : BufTy).Contents (Elt F) → (⟨S16384x5, .f32⟩ : BufTy).Contents (Elt F)),
    unary main_v46 main_v47 (broadcastInDim S16384x5x1 ![0, 1] bcast_S16384x5_S16384x5x1_0_1 : (⟨S16384x5, .f32⟩ : BufTy).Contents (Elt F) → (⟨S16384x5x1, .f32⟩ : BufTy).Contents (Elt F)),
    unary main_v47 main_v48 (broadcastInDim S16384x5x4 ![0, 1, 2] bcast_S16384x5x1_S16384x5x4_0_1_2 : (⟨S16384x5x1, .f32⟩ : BufTy).Contents (Elt F) → (⟨S16384x5x4, .f32⟩ : BufTy).Contents (Elt F)),
    binary main_v43 main_v48 main_v49 (subf : (⟨S16384x5x4, .f32⟩ : BufTy).Contents (Elt F) → (⟨S16384x5x4, .f32⟩ : BufTy).Contents (Elt F) → (⟨S16384x5x4, .f32⟩ : BufTy).Contents (Elt F)),
    unary main_v49 main_v50 (Host.exp : (⟨S16384x5x4, .f32⟩ : BufTy).Contents (Elt F) → (⟨S16384x5x4, .f32⟩ : BufTy).Contents (Elt F)),
    nullary main_cst_9 (constant S_ .f32 0x00000000#32),
    binary main_v50 main_cst_9 main_v51 ((fun x v => Host.reduceAdd x v reducesTo_S16384x5x4_S16384x5_d2 h_S_) : (⟨S16384x5x4, .f32⟩ : BufTy).Contents (Elt F) → (⟨S_, .f32⟩ : BufTy).Contents (Elt F) → (⟨S16384x5, .f32⟩ : BufTy).Contents (Elt F)),
    unary main_v51 main_v52 (broadcastInDim S16384x5x1 ![0, 1] bcast_S16384x5_S16384x5x1_0_1 : (⟨S16384x5, .f32⟩ : BufTy).Contents (Elt F) → (⟨S16384x5x1, .f32⟩ : BufTy).Contents (Elt F)),
    unary main_v52 main_v53 (broadcastInDim S16384x5x4 ![0, 1, 2] bcast_S16384x5x1_S16384x5x4_0_1_2 : (⟨S16384x5x1, .f32⟩ : BufTy).Contents (Elt F) → (⟨S16384x5x4, .f32⟩ : BufTy).Contents (Elt F)),
    binary main_v50 main_v53 main_v54 (Host.divf : (⟨S16384x5x4, .f32⟩ : BufTy).Contents (Elt F) → (⟨S16384x5x4, .f32⟩ : BufTy).Contents (Elt F) → (⟨S16384x5x4, .f32⟩ : BufTy).Contents (Elt F)),
    reshape main_v54 main_v55 rfl shapeCasts_S16384x5x4_S16384x20,
    binary main_v36 main_v55 main_v56 (mulf : (⟨S16384x20, .f32⟩ : BufTy).Contents (Elt F) → (⟨S16384x20, .f32⟩ : BufTy).Contents (Elt F) → (⟨S16384x20, .f32⟩ : BufTy).Contents (Elt F)),
    nullary main_cst_10 (constant S_ .f32 0x00000000#32),
    binary main_v56 main_cst_10 main_v57 ((fun x v => Host.reduceAdd x v reducesTo_S16384x20_S16384_d1 h_S_) : (⟨S16384x20, .f32⟩ : BufTy).Contents (Elt F) → (⟨S_, .f32⟩ : BufTy).Contents (Elt F) → (⟨S16384, .f32⟩ : BufTy).Contents (Elt F)),
    unary main_v57 main_v58 (broadcastInDim S16384x1 ![0] bcast_S16384_S16384x1_0 : (⟨S16384, .f32⟩ : BufTy).Contents (Elt F) → (⟨S16384x1, .f32⟩ : BufTy).Contents (Elt F)) ]

set_option maxRecDepth 4096 in
set_option maxHeartbeats 4000000 in
/-- The program is that straight line: the two windows and the two calls unfolded, sequencing reassociated. -/
theorem main_eq (c : Dev nD) : main (F := F) c = seq ops := by
  simp only [main, main_part0, main_part1, fn_silu.body, fn_silu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
theorem ops_sub : (ops : List (HloOp τ sig (Elt F))).Forall fun op => op.bufs ⊆ tcRefs τ sig :=
  ⟨
    nullary_bufs_sub .., nullary_bufs_sub .., nullary_bufs_sub .., nullary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    reshape_bufs_sub .., binary_bufs_sub .., unary_bufs_sub .., unary_bufs_sub .., binary_bufs_sub .., binary_bufs_sub ..,
    nullary_bufs_sub .., binary_bufs_sub .., reshape_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., reshape_bufs_sub ..,
    binary_bufs_sub .., nullary_bufs_sub .., binary_bufs_sub .., unary_bufs_sub ..⟩

end Generic

set_option maxRecDepth 8192 in
set_option maxHeartbeats 4000000 in
/-- The fold of the operations at the result is the closed term of the arguments. -/
theorem out_eq (V : Valuation τ sig (Elt Ideal)) :
    after (ops (F := Ideal)) V (main_v58 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  after_results_simp
  rfl

set_option maxHeartbeats 4000000 in
theorem arg0_eq (V : Valuation τ sig (Elt Ideal)) :
    after (ops (F := Ideal)) V (main_arg0 : DevRef τ sig) = V (main_arg0 : DevRef τ sig) := by
  after_results_simp

set_option maxHeartbeats 4000000 in
theorem arg1_eq (V : Valuation τ sig (Elt Ideal)) :
    after (ops (F := Ideal)) V (main_arg1 : DevRef τ sig) = V (main_arg1 : DevRef τ sig) := by
  after_results_simp

set_option maxHeartbeats 4000000 in
theorem arg2_eq (V : Valuation τ sig (Elt Ideal)) :
    after (ops (F := Ideal)) V (main_arg2 : DevRef τ sig) = V (main_arg2 : DevRef τ sig) := by
  after_results_simp

set_option maxHeartbeats 4000000 in
theorem arg3_eq (V : Valuation τ sig (Elt Ideal)) :
    after (ops (F := Ideal)) V (main_arg3 : DevRef τ sig) = V (main_arg3 : DevRef τ sig) := by
  after_results_simp

set_option maxHeartbeats 4000000 in
theorem arg4_eq (V : Valuation τ sig (Elt Ideal)) :
    after (ops (F := Ideal)) V (main_arg4 : DevRef τ sig) = V (main_arg4 : DevRef τ sig) := by
  after_results_simp

set_option maxHeartbeats 4000000 in
theorem arg5_eq (V : Valuation τ sig (Elt Ideal)) :
    after (ops (F := Ideal)) V (main_arg5 : DevRef τ sig) = V (main_arg5 : DevRef τ sig) := by
  after_results_simp

set_option maxHeartbeats 4000000 in
theorem arg6_eq (V : Valuation τ sig (Elt Ideal)) :
    after (ops (F := Ideal)) V (main_arg6 : DevRef τ sig) = V (main_arg6 : DevRef τ sig) := by
  after_results_simp

set_option maxHeartbeats 4000000 in
theorem arg7_eq (V : Valuation τ sig (Elt Ideal)) :
    after (ops (F := Ideal)) V (main_arg7 : DevRef τ sig) = V (main_arg7 : DevRef τ sig) := by
  after_results_simp

set_option maxHeartbeats 4000000 in
theorem arg8_eq (V : Valuation τ sig (Elt Ideal)) :
    after (ops (F := Ideal)) V (main_arg8 : DevRef τ sig) = V (main_arg8 : DevRef τ sig) := by
  after_results_simp

set_option maxHeartbeats 4000000 in
theorem arg9_eq (V : Valuation τ sig (Elt Ideal)) :
    after (ops (F := Ideal)) V (main_arg9 : DevRef τ sig) = V (main_arg9 : DevRef τ sig) := by
  after_results_simp

set_option maxHeartbeats 4000000 in
theorem arg10_eq (V : Valuation τ sig (Elt Ideal)) :
    after (ops (F := Ideal)) V (main_arg10 : DevRef τ sig) = V (main_arg10 : DevRef τ sig) := by
  after_results_simp

set_option maxHeartbeats 4000000 in
theorem arg11_eq (V : Valuation τ sig (Elt Ideal)) :
    after (ops (F := Ideal)) V (main_arg11 : DevRef τ sig) = V (main_arg11 : DevRef τ sig) := by
  after_results_simp

set_option maxHeartbeats 4000000 in
/-- From any memory with zero counters: every weakly fair execution of the program terminates with the
    result at the closed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v58)
          = refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v58).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.RefRun

end
-- ==== Proof.RefValue.lean ====
/-
  The reference program, read index by index, is the specification.

  After the embedding gather, whose result stays an opaque array X of shape [16384, 5, 256], the program is a
  composition of stages, and each stage is read at one index:
  · a linear layer, rows [B, T, K] times a matrix stored [N, K] plus a bias [N], at (b, t, n) is
    Σ_c A[b, t, c] · W[n, c] + bias[n];
  · x · (1 / (1 + exp (−x))), entry by entry, is silu — the word 0x3F800000 is the number one;
  · the gather of whole columns at twenty clamped start indices picks, for the ordered pair in position 4 i + k,
    feature row i (first table) and feature row  oth i k  (second table);
  · the reshapes [16384, 20, 1] → [16384, 20] → [16384, 5, 4] → [16384, 20] identify position 4 i + k with (i, k);
  · a sum over an axis from zero is the finite sum, and the maximum over four from −∞ is the four-fold maximum.
  Composed, entry b of the result is the sum over the twenty ordered pairs of order × soft-max weight: `Spec.outR`.
-/
import proofs.«413986_j36318243455110_2_alg».proof.Proof.RefTerm
import proofs.«413986_j36318243455110_2_alg».proof.Proof.Gen.ReferenceIdeal
import proofs.«413986_j36318243455110_2_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal
open Cert.ReferenceIdeal.Facts₀

/-! ## A linear layer at an index -/
/-- A product of a stack of rows [B, T, K] with a matrix stored [N, K], contracted over K, read at (b, t, n). -/
theorem dot3_apply {B T K N : Nat} {φ₁ φ₂ : FTy}
    (w : DotDims.WF ⟨3, ![B, T, K]⟩ ⟨2, ![N, K]⟩ ⟨3, ![B, T, N]⟩ [2] [1] [0, 1] [0] [] [])
    (prec : Option ContractPrecision) (A : FVec Ideal ⟨3, ![B, T, K]⟩ φ₁) (W : FVec Ideal ⟨2, ![N, K]⟩ φ₂)
    (b : Fin B) (t : Fin T) (n : Fin N) :
    Host.dotGeneral (⟨[2], [1], [0, 1], [0], [], [], w⟩ : DotDims _ _ _) prec A W (ix3 b t n)
      = ∑ c : Fin K, A (ix3 b t c) * W (ix2 n c) := by
  show FloatOps.dotGeneral _ prec _ A W (ix3 b t n) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![B, T, K]⟩ ⟨2, ![N, K]⟩ ⟨3, ![B, T, N]⟩) K rfl rfl c
  have l3 : (⟨[2], [1], [0, 1], [0], [], [], w⟩ : DotDims ⟨3, ![B, T, K]⟩ ⟨2, ![N, K]⟩ ⟨3, ![B, T, N]⟩).lhsIdx (ix3 b t n)
      ((contrEquiv1 _ K rfl rfl).symm c) = ix3 b t c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, T, K]⟩ ⟨2, ![N, K]⟩ ⟨3, ![B, T, N]⟩).rhsIdx (ix3 b t n)
      ((contrEquiv1 _ K rfl rfl).symm c) = ix2 n c := by
    funext ax; apply Fin.ext
    match ax with
    | ⟨0, _⟩ => simp [DotDims.rhsIdx]; rfl
    | ⟨1, _⟩ => simp [DotDims.rhsIdx]; exact c3
  rw [l3, r3]

/-- The word 0x3F800000 is the number one. -/
theorem one_f32 : Ideal.ofBits .f32 0x3F800000#32 = 1 := by
  simp [Ideal.ofBits, Ideal.ieee, -EReal.coe_mul]; norm_num

/-- A vector of N entries laid along the last axis of a [B, T, N] array, read at (b, t, n), is its entry n. -/
theorem bias3_apply {B T N : Nat} {α : Type}
    (h1 : (⟨1, ![N]⟩ : Shape).BroadcastsInDim ⟨3, ![1, 1, N]⟩ ![2])
    (h2 : (⟨3, ![1, 1, N]⟩ : Shape).BroadcastsInDim ⟨3, ![B, T, N]⟩ ![0, 1, 2])
    (v : (⟨1, ![N]⟩ : Shape).Idx → α) (b : Fin B) (t : Fin T) (n : Fin N) :
    broadcastInDim ⟨3, ![B, T, N]⟩ ![0, 1, 2] h2 (broadcastInDim ⟨3, ![1, 1, N]⟩ ![2] h1 v) (ix3 b t n) = v (ix1 n) := by
  have e2 := broadcastInDim_apply ![0, 1, 2] h2 (broadcastInDim ⟨3, ![1, 1, N]⟩ ![2] h1 v) (ix3 b t n)
    (ix3 (0 : Fin 1) (0 : Fin 1) n) (by
      intro a
      match a with
      | ⟨0, _⟩ => show (0 : ℕ) = if (1 : ℕ) = 1 then 0 else _; simp
      | ⟨1, _⟩ => show (0 : ℕ) = if (1 : ℕ) = 1 then 0 else _; simp
      | ⟨2, _⟩ =>
        show n.val = if N = 1 then 0 else n.val
        split_ifs with hn
        · have := n.isLt; omega
        · rfl)
  have e1 := broadcastInDim_apply ![2] h1 v (ix3 (0 : Fin 1) (0 : Fin 1) n) (ix1 n) (by
      intro a
      match a with
      | ⟨0, _⟩ =>
        show n.val = if N = 1 then 0 else n.val
        split_ifs with hn
        · have := n.isLt; omega
        · rfl)
  exact e2.trans e1

/-- A linear layer: rows [B, T, K] times a matrix stored [N, K] plus a bias [N], read at (b, t, n). -/
theorem lin_apply {B T K N : Nat}
    (w : DotDims.WF ⟨3, ![B, T, K]⟩ ⟨2, ![N, K]⟩ ⟨3, ![B, T, N]⟩ [2] [1] [0, 1] [0] [] [])
    (h1 : (⟨1, ![N]⟩ : Shape).BroadcastsInDim ⟨3, ![1, 1, N]⟩ ![2])
    (h2 : (⟨3, ![1, 1, N]⟩ : Shape).BroadcastsInDim ⟨3, ![B, T, N]⟩ ![0, 1, 2])
    (A : FVec Ideal ⟨3, ![B, T, K]⟩ .f32) (W : FVec Ideal ⟨2, ![N, K]⟩ .f32) (bias : FVec Ideal ⟨1, ![N]⟩ .f32)
    (b : Fin B) (t : Fin T) (n : Fin N) :
    addf (Host.dotGeneral (⟨[2], [1], [0, 1], [0], [], [], w⟩ : DotDims _ _ _) none A W)
        (broadcastInDim ⟨3, ![B, T, N]⟩ ![0, 1, 2] h2 (broadcastInDim ⟨3, ![1, 1, N]⟩ ![2] h1 bias)) (ix3 b t n)
      = (∑ c : Fin K, A (ix3 b t c) * W (ix2 n c)) + bias (ix1 n) := by
  show Host.dotGeneral (⟨[2], [1], [0, 1], [0], [], [], w⟩ : DotDims _ _ _) none A W (ix3 b t n)
      + broadcastInDim ⟨3, ![B, T, N]⟩ ![0, 1, 2] h2 (broadcastInDim ⟨3, ![1, 1, N]⟩ ![2] h1 bias) (ix3 b t n) = _
  rw [dot3_apply, bias3_apply]

/-- x · (1 / (1 + exp (−x))), entry by entry, is silu. -/
theorem silu_apply {s : Shape} (h : S_.BroadcastsInDim s (![] : Fin 0 → Fin s.rank)) (x : FVec Ideal s .f32) (i : s.Idx) :
    mulf x (Host.divf (broadcastInDim s ![] h (constant (F := Ideal) S_ .f32 0x3F800000#32))
      (addf (broadcastInDim s ![] h (constant (F := Ideal) S_ .f32 0x3F800000#32)) (Host.exp (Host.negf x)))) i
      = Spec.silu (x i) := by
  show x i * Ideal.div (Ideal.ofBits .f32 0x3F800000#32) (Ideal.ofBits .f32 0x3F800000#32 + Ideal.exp (-(x i))) = _
  rw [one_f32]; rfl

/-- The hidden layer's pre-activation of every embedding row. -/
theorem hid_apply (X : FVec Ideal S16384x5x256 .f32) (a2 : FVec Ideal S512x256 .f32) (a3 : FVec Ideal S512 .f32)
    (b : Fin 16384) (t : Fin 5) (k : Fin 512) :
    addf (Host.dotGeneral dot_S16384x5x256_S512x256_S16384x5x512_2_1_01_0_n_n none X a2)
        (broadcastInDim S16384x5x512 ![0, 1, 2] bcast_S1x1x512_S16384x5x512_0_1_2
          (broadcastInDim S1x1x512 ![2] bcast_S512_S1x1x512_2 a3)) (ix3 b t k)
      = Spec.hid (fun k p => a2 (ix2 k p)) (fun k => a3 (ix1 k)) (fun p => X (ix3 b t p)) k :=
  lin_apply _ _ _ X a2 a3 b t k

/-! ## The column gather at an index -/

/-- A start index read as a signed number and clamped into the five rows. -/
def cl (w : BitVec 32) : Fin 5 := ⟨min w.toInt.toNat 4, by omega⟩

/-- Gathering whole columns of a [16384, 5, 256] array at twenty start indices: entry (b, p, o) is the array's entry
    (b, r, o), r the p-th start index clamped. -/
theorem gatherCols_apply {α : Type} (H : S16384x5x256.Idx → α) (idx : IVec S20x1 32) (b : Fin 16384) (p : Fin 20) (o : Fin 256) :
    Host.gather gather_S16384x5x256_S20x1_S16384x20x256_02_1_n_n_1_1_163841256 H idx (ix3 b p o)
      = H (ix3 b (cl (idx (ix2 p 0))) o) := by
  unfold Host.gather
  congr 1
  funext a
  refine Fin.ext ?_
  have hsi : gather_S16384x5x256_S20x1_S16384x20x256_02_1_n_n_1_1_163841256.siIdx (ix3 b p o)
      ⟨List.idxOf (1 : Fin 3) gather_S16384x5x256_S20x1_S16384x20x256_02_1_n_n_1_1_163841256.startIndexMap,
        List.idxOf_lt_length_iff.2 (List.mem_singleton.mpr rfl)⟩ = ix2 p (0 : Fin 1) := by
    funext c; refine Fin.ext ?_
    match c with
    | ⟨0, _⟩ => rfl
    | ⟨1, _⟩ => rfl
  match a with
  | ⟨0, _⟩ =>
    show gather_S16384x5x256_S20x1_S16384x20x256_02_1_n_n_1_1_163841256.start (ix3 b p o) idx 0 + gather_S16384x5x256_S20x1_S16384x20x256_02_1_n_n_1_1_163841256.batchCoord (ix3 b p o) 0 + gather_S16384x5x256_S20x1_S16384x20x256_02_1_n_n_1_1_163841256.offCoord (ix3 b p o) 0 = b.val
    have hs : gather_S16384x5x256_S20x1_S16384x20x256_02_1_n_n_1_1_163841256.start (ix3 b p o) idx 0 = 0 := by
      unfold GatherDims.start
      rw [dif_neg (show ¬ (0 : Fin 3) ∈ gather_S16384x5x256_S20x1_S16384x20x256_02_1_n_n_1_1_163841256.startIndexMap from by decide)]
    have ho : gather_S16384x5x256_S20x1_S16384x20x256_02_1_n_n_1_1_163841256.offCoord (ix3 b p o) 0 = b.val := rfl
    rw [GatherDims.batchCoord_eq_zero _ _ _ List.not_mem_nil, hs, ho]
    omega
  | ⟨1, _⟩ =>
    show gather_S16384x5x256_S20x1_S16384x20x256_02_1_n_n_1_1_163841256.start (ix3 b p o) idx 1
      + gather_S16384x5x256_S20x1_S16384x20x256_02_1_n_n_1_1_163841256.batchCoord (ix3 b p o) 1
      + gather_S16384x5x256_S20x1_S16384x20x256_02_1_n_n_1_1_163841256.offCoord (ix3 b p o) 1 = min (idx (ix2 p 0)).toInt.toNat 4
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S16384x5x256_S20x1_S16384x20x256_02_1_n_n_1_1_163841256.startIndexMap
      from List.mem_singleton.mpr rfl)]
    rw [hsi]
    rfl
  | ⟨2, _⟩ =>
    show gather_S16384x5x256_S20x1_S16384x20x256_02_1_n_n_1_1_163841256.start (ix3 b p o) idx 2 + gather_S16384x5x256_S20x1_S16384x20x256_02_1_n_n_1_1_163841256.batchCoord (ix3 b p o) 2 + gather_S16384x5x256_S20x1_S16384x20x256_02_1_n_n_1_1_163841256.offCoord (ix3 b p o) 2 = o.val
    have hs : gather_S16384x5x256_S20x1_S16384x20x256_02_1_n_n_1_1_163841256.start (ix3 b p o) idx 2 = 0 := by
      unfold GatherDims.start
      rw [dif_neg (show ¬ (2 : Fin 3) ∈ gather_S16384x5x256_S20x1_S16384x20x256_02_1_n_n_1_1_163841256.startIndexMap from by decide)]
    have ho : gather_S16384x5x256_S20x1_S16384x20x256_02_1_n_n_1_1_163841256.offCoord (ix3 b p o) 2 = o.val := rfl
    rw [GatherDims.batchCoord_eq_zero _ _ _ List.not_mem_nil, hs, ho]
    omega

/-! ## The twenty ordered pairs -/

/-- The position of the ordered pair (i, its k-th partner) among the twenty pairs. -/
def pk (i : Fin 5) (k : Fin 4) : Fin 20 := ⟨4 * i.val + k.val, by omega⟩

/-- A table of twenty start indices passed through a select on an all-false mask and laid out as a column, read at p. -/
theorem tbl_apply (c t : IVec S20 32) (p : Fin 20) :
    broadcastInDim S20x1 ![0] bcast_S20_S20x1_0 (select (constantI S20 1 0#1) t c) (ix2 p (0 : Fin 1)) = c (ix1 p) := by
  refine (broadcastInDim_apply ![0] bcast_S20_S20x1_0 _ (ix2 p (0 : Fin 1)) (ix1 p) ?_).trans ?_
  · intro a
    match a with
    | ⟨0, _⟩ => show p.val = if (20 : ℕ) = 1 then 0 else p.val; simp
  · exact select_zero _ _

/-- The row-major position of a rank-one index is its coordinate. -/
theorem rm20 (p : Fin 20) : S20.rowMajor (ix1 p) = p := Fin.ext (Shape.rowMajor_val_one _)

/-- The first table names the pair's first member … -/
theorem cl_lit0 (i : Fin 5) (k : Fin 4) : cl (lit0 (S20.rowMajor (ix1 (pk i k)))) = i := by
  rw [rm20]
  fin_cases i <;> fin_cases k <;> rfl

/-- … and the second its k-th partner. -/
theorem cl_lit1 (i : Fin 5) (k : Fin 4) : cl (lit1 (S20.rowMajor (ix1 (pk i k)))) = Spec.oth i k := by
  rw [rm20]
  fin_cases i <;> fin_cases k <;> rfl

/-! ## Reshapes between the twenty pairs and five rows of four -/

theorem reshape_20x1 {α : Type} (V : S16384x20x1.Idx → α) (b : Fin 16384) (p : Fin 20) :
    shapeCast S16384x20 V shapeCasts_S16384x20x1_S16384x20 (ix2 b p) = V (ix3 b p (0 : Fin 1)) :=
  shapeCast_apply V _ (ix2 b p) (ix3 b p (0 : Fin 1)) (by
    rw [Shape.rowMajor_val_three, Shape.rowMajor_val_two]
    show (b.val * 20 + p.val) * 1 + 0 = b.val * 20 + p.val
    omega)

theorem reshape_5x4 {α : Type} (V : S16384x20.Idx → α) (b : Fin 16384) (i : Fin 5) (k : Fin 4) :
    shapeCast S16384x5x4 V shapeCasts_S16384x20_S16384x5x4 (ix3 b i k) = V (ix2 b (pk i k)) :=
  shapeCast_apply V _ (ix3 b i k) (ix2 b (pk i k)) (by
    rw [Shape.rowMajor_val_three, Shape.rowMajor_val_two]
    show b.val * 20 + (4 * i.val + k.val) = (b.val * 5 + i.val) * 4 + k.val
    omega)

theorem reshape_20 {α : Type} (V : S16384x5x4.Idx → α) (b : Fin 16384) (i : Fin 5) (k : Fin 4) :
    shapeCast S16384x20 V shapeCasts_S16384x5x4_S16384x20 (ix2 b (pk i k)) = V (ix3 b i k) :=
  shapeCast_apply V _ (ix2 b (pk i k)) (ix3 b i k) (by
    rw [Shape.rowMajor_val_three, Shape.rowMajor_val_two]
    show (b.val * 5 + i.val) * 4 + k.val = b.val * 20 + (4 * i.val + k.val)
    omega)

/-! ## Broadcasts -/

/-- A [16384, 5] array repeated along a new last axis of four. -/
theorem bcast54_apply {α : Type} (v : S16384x5.Idx → α) (b : Fin 16384) (i : Fin 5) (k : Fin 4) :
    broadcastInDim S16384x5x4 ![0, 1, 2] bcast_S16384x5x1_S16384x5x4_0_1_2
      (broadcastInDim S16384x5x1 ![0, 1] bcast_S16384x5_S16384x5x1_0_1 v) (ix3 b i k) = v (ix2 b i) := by
  have e2 := broadcastInDim_apply ![0, 1, 2] bcast_S16384x5x1_S16384x5x4_0_1_2
    (broadcastInDim S16384x5x1 ![0, 1] bcast_S16384x5_S16384x5x1_0_1 v) (ix3 b i k) (ix3 b i (0 : Fin 1)) (by
      intro a
      match a with
      | ⟨0, _⟩ => show b.val = if (16384 : ℕ) = 1 then 0 else b.val; simp
      | ⟨1, _⟩ => show i.val = if (5 : ℕ) = 1 then 0 else i.val; simp
      | ⟨2, _⟩ => show (0 : ℕ) = if (1 : ℕ) = 1 then 0 else _; simp)
  have e1 := broadcastInDim_apply ![0, 1] bcast_S16384x5_S16384x5x1_0_1 v (ix3 b i (0 : Fin 1)) (ix2 b i) (by
      intro a
      match a with
      | ⟨0, _⟩ => show b.val = if (16384 : ℕ) = 1 then 0 else b.val; simp
      | ⟨1, _⟩ => show i.val = if (5 : ℕ) = 1 then 0 else i.val; simp)
  exact e2.trans e1

/-- A [16384] array as a column. -/
theorem bcastOut_apply {α : Type} (v : S16384.Idx → α) (b : Fin 16384) (z : Fin 1) :
    broadcastInDim S16384x1 ![0] bcast_S16384_S16384x1_0 v (ix2 b z) = v (ix1 b) :=
  broadcastInDim_apply ![0] bcast_S16384_S16384x1_0 v (ix2 b z) (ix1 b) (by
    intro a
    match a with
    | ⟨0, _⟩ => show b.val = if (16384 : ℕ) = 1 then 0 else b.val; simp)

/-! ## Reductions -/

/-- A fold over four positions, written out. -/
theorem fold_fin4 {α : Type} (op : α → α → α) [Std.Commutative op] [Std.Associative op] (e : α) (f : Fin 4 → α) :
    (Finset.univ : Finset (Fin 4)).fold op e f = op (f 0) (op (f 1) (op (f 2) (op (f 3) e))) := by
  rw [show (Finset.univ : Finset (Fin 4)) = {0, 1, 2, 3} from rfl,
    Finset.fold_insert (by decide), Finset.fold_insert (by decide), Finset.fold_insert (by decide), Finset.fold_singleton]

/-- The sum over the last axis of a [16384, 20, 256] array, from zero. -/
theorem sum256_apply (V : FVec Ideal S16384x20x256 .f32) (b : Fin 16384) (p : Fin 20) :
    Host.reduceAdd V (constant (F := Ideal) S_ .f32 0x00000000#32) reducesTo_S16384x20x256_S16384x20_d2 h_S_ (ix2 b p)
      = ∑ o : Fin 256, V (ix3 b p o) := by
  have h : S16384x20x256.Reduces [2] S16384x20 := by decide
  show Ideal.hostReduceAdd reducesTo_S16384x20x256_S16384x20_d2 V (Ideal.ofBits .f32 0x00000000#32) (ix2 b p) = _
  rw [Ideal.hostReduceAdd_single reducesTo_S16384x20x256_S16384x20_d2 h, Ideal.ofBits_zero_f32, zero_add]
  show ∑ o : Fin 256, V (h.lift (ix2 b p) o) = _
  refine Finset.sum_congr rfl fun o _ => congrArg V ?_
  funext c; apply Fin.ext
  match c with
  | ⟨0, _⟩ => rfl
  | ⟨1, _⟩ => rfl
  | ⟨2, _⟩ => rfl

/-- The sum over the last axis of a [16384, 5, 4] array, from zero. -/
theorem sum4_apply (V : FVec Ideal S16384x5x4 .f32) (b : Fin 16384) (i : Fin 5) :
    Host.reduceAdd V (constant (F := Ideal) S_ .f32 0x00000000#32) reducesTo_S16384x5x4_S16384x5_d2 h_S_ (ix2 b i)
      = V (ix3 b i 0) + V (ix3 b i 1) + V (ix3 b i 2) + V (ix3 b i 3) := by
  have h : S16384x5x4.Reduces [2] S16384x5 := by decide
  show Ideal.hostReduceAdd reducesTo_S16384x5x4_S16384x5_d2 V (Ideal.ofBits .f32 0x00000000#32) (ix2 b i) = _
  rw [Ideal.hostReduceAdd_single reducesTo_S16384x5x4_S16384x5_d2 h, Ideal.ofBits_zero_f32, zero_add]
  have hl : ∀ k : Fin 4, h.lift (ix2 b i) k = ix3 b i k := fun k => by
    funext c; apply Fin.ext
    match c with
    | ⟨0, _⟩ => rfl
    | ⟨1, _⟩ => rfl
    | ⟨2, _⟩ => rfl
  show ∑ k : Fin 4, V (h.lift (ix2 b i) k) = _
  rw [Fin.sum_univ_four, hl, hl, hl, hl]

/-- The sum over the twenty pairs of a [16384, 20] array, from zero. -/
theorem sum20_apply (V : FVec Ideal S16384x20 .f32) (b : Fin 16384) :
    Host.reduceAdd V (constant (F := Ideal) S_ .f32 0x00000000#32) reducesTo_S16384x20_S16384_d1 h_S_ (ix1 b)
      = ∑ p : Fin 20, V (ix2 b p) := by
  have h : S16384x20.Reduces [1] S16384 := by decide
  show Ideal.hostReduceAdd reducesTo_S16384x20_S16384_d1 V (Ideal.ofBits .f32 0x00000000#32) (ix1 b) = _
  rw [Ideal.hostReduceAdd_single reducesTo_S16384x20_S16384_d1 h, Ideal.ofBits_zero_f32, zero_add]
  show ∑ p : Fin 20, V (h.lift (ix1 b) p) = _
  refine Finset.sum_congr rfl fun p _ => congrArg V ?_
  funext c; apply Fin.ext
  match c with
  | ⟨0, _⟩ => rfl
  | ⟨1, _⟩ => rfl

/-- A splat of one word reads that word's value everywhere. -/
theorem splat_apply {s : Shape} (h : S_.BroadcastsInDim s (![] : Fin 0 → Fin s.rank)) (w : BitVec 32) (j : s.Idx) :
    broadcastInDim s ![] h (constant (F := Ideal) S_ .f32 w) j = Ideal.ofBits .f32 w := rfl

/-- The largest of four along the last axis of a [16384, 5, 4] array, from −∞, then once more against −∞. -/
theorem max4_apply (V : FVec Ideal S16384x5x4 .f32) (b : Fin 16384) (i : Fin 5) :
    maximumf (broadcastInDim S16384x5 ![] bcast_S_S16384x5 (constant (F := Ideal) S_ .f32 0xFF800000#32))
      (Host.reduce FloatOps.maximumf V (constant (F := Ideal) S_ .f32 0xFF800000#32) reducesTo_S16384x5x4_S16384x5_d2 h_S_) (ix2 b i)
      = max (max (max (V (ix3 b i 0)) (V (ix3 b i 1))) (V (ix3 b i 2))) (V (ix3 b i 3)) := by
  have h : S16384x5x4.Reduces [2] S16384x5 := by decide
  have hbot : Ideal.ofBits .f32 0xFF800000#32 = (⊥ : EReal) := by simp [Ideal.ofBits, Ideal.ieee]
  have hl : ∀ k : Fin 4, h.lift (ix2 b i) k = ix3 b i k := fun k => by
    funext c; apply Fin.ext
    match c with
    | ⟨0, _⟩ => rfl
    | ⟨1, _⟩ => rfl
    | ⟨2, _⟩ => rfl
  rw [maximumf_apply, splat_apply, Host.reduce_eq_fold_single FloatOps.maximumf V _ reducesTo_S16384x5x4_S16384x5_d2 h h_S_]
  refine (congrArg (max (Ideal.ofBits .f32 0xFF800000#32))
    (fold_fin4 FloatOps.maximumf (Ideal.ofBits .f32 0xFF800000#32) (fun k : Fin 4 => V (h.lift (ix2 b i) k)))).trans ?_
  rw [hl, hl, hl, hl, hbot]
  simp only [Ideal.maximumf_def]
  rw [max_bot_left, max_bot_right, ← max_assoc, ← max_assoc]

/-- A sum over the twenty pairs is the double sum over first members and partners. -/
theorem sum_pk {M : Type} [AddCommMonoid M] (f : Fin 20 → M) : ∑ p : Fin 20, f p = ∑ i : Fin 5, ∑ k : Fin 4, f (pk i k) := by
  have e := Equiv.sum_comp (finProdFinEquiv : Fin 5 × Fin 4 ≃ Fin (5 * 4)) (fun p : Fin 20 => f p)
  rw [Fintype.sum_prod_type] at e
  rw [← e]
  refine Finset.sum_congr rfl fun i _ => Finset.sum_congr rfl fun k _ => congrArg f (Fin.ext ?_)
  show k.val + 4 * i.val = 4 * i.val + k.val
  omega

/-! ## The program's stages, each read at an index -/

section Stages
variable (a2 : FVec Ideal S512x256 .f32) (a3 : FVec Ideal S512 .f32) (a4 : FVec Ideal S256x512 .f32) (a5 : FVec Ideal S256 .f32)
  (a6 : FVec Ideal S256x256 .f32) (a7 : FVec Ideal S256 .f32) (a8 : FVec Ideal S512x256 .f32) (a9 : FVec Ideal S512 .f32)
  (a10 : FVec Ideal S1x512 .f32) (a11 : FVec Ideal S1 .f32)

/-- silu of every entry, spelled x · (1 / (1 + exp (−x))). -/
def siluArr {s : Shape} (h : S_.BroadcastsInDim s (![] : Fin 0 → Fin s.rank)) (x : FVec Ideal s .f32) : FVec Ideal s .f32 :=
  mulf x (Host.divf (broadcastInDim s ![] h (constant (F := Ideal) S_ .f32 0x3F800000#32))
    (addf (broadcastInDim s ![] h (constant (F := Ideal) S_ .f32 0x3F800000#32)) (Host.exp (Host.negf x))))

theorem siluArr_apply {s : Shape} (h : S_.BroadcastsInDim s (![] : Fin 0 → Fin s.rank)) (x : FVec Ideal s .f32) (i : s.Idx) :
    siluArr h x i = Spec.silu (x i) := silu_apply h x i

/-- The feature mapper applied to every embedding row. -/
def featArr (X : FVec Ideal S16384x5x256 .f32) : FVec Ideal S16384x5x256 .f32 :=
  addf (Host.dotGeneral dot_S16384x5x512_S256x512_S16384x5x256_2_1_01_0_n_n none
      (siluArr bcast_S_S16384x5x512
        (addf (Host.dotGeneral dot_S16384x5x256_S512x256_S16384x5x512_2_1_01_0_n_n none X a2)
          (broadcastInDim S16384x5x512 ![0, 1, 2] bcast_S1x1x512_S16384x5x512_0_1_2
            (broadcastInDim S1x1x512 ![2] bcast_S512_S1x1x512_2 a3)))) a4)
    (broadcastInDim S16384x5x256 ![0, 1, 2] bcast_S1x1x256_S16384x5x256_0_1_2
      (broadcastInDim S1x1x256 ![2] bcast_S256_S1x1x256_2 a5))

theorem featArr_apply (X : FVec Ideal S16384x5x256 .f32) (b : Fin 16384) (t : Fin 5) (o : Fin 256) :
    featArr a2 a3 a4 a5 X (ix3 b t o) = Spec.feats a2 a3 a4 a5 X b t o := by
  unfold featArr
  refine (lin_apply _ _ _ _ a4 a5 b t o).trans ?_
  unfold Spec.feats Spec.feat
  refine congrArg₂ (· + ·) (Finset.sum_congr rfl fun k _ => ?_) rfl
  rw [siluArr_apply, hid_apply]

/-- The feature rows of the twenty pairs' first members … -/
def colI (H : FVec Ideal S16384x5x256 .f32) : FVec Ideal S16384x20x256 .f32 :=
  Host.gather gather_S16384x5x256_S20x1_S16384x20x256_02_1_n_n_1_1_163841256 H
    (broadcastInDim S20x1 ![0] bcast_S20_S20x1_0
      (select (constantI S20 1 0#1)
        (addi (fun i => lit0 (S20.rowMajor i) : IVec S20 32) (broadcastInDim S20 ![] bcast_S_S20 (constantI S_ 32 5#32)))
        (fun i => lit0 (S20.rowMajor i) : IVec S20 32)))

/-- … and of their partners. -/
def colJ (H : FVec Ideal S16384x5x256 .f32) : FVec Ideal S16384x20x256 .f32 :=
  Host.gather gather_S16384x5x256_S20x1_S16384x20x256_02_1_n_n_1_1_163841256 H
    (broadcastInDim S20x1 ![0] bcast_S20_S20x1_0
      (select (constantI S20 1 0#1)
        (addi (fun i => lit1 (S20.rowMajor i) : IVec S20 32) (broadcastInDim S20 ![] bcast_S_S20 (constantI S_ 32 5#32)))
        (fun i => lit1 (S20.rowMajor i) : IVec S20 32)))

theorem colI_apply (H : FVec Ideal S16384x5x256 .f32) (b : Fin 16384) (i : Fin 5) (k : Fin 4) (o : Fin 256) :
    colI H (ix3 b (pk i k) o) = H (ix3 b i o) := by
  unfold colI
  rw [gatherCols_apply, tbl_apply, cl_lit0]

theorem colJ_apply (H : FVec Ideal S16384x5x256 .f32) (b : Fin 16384) (i : Fin 5) (k : Fin 4) (o : Fin 256) :
    colJ H (ix3 b (pk i k) o) = H (ix3 b (Spec.oth i k) o) := by
  unfold colJ
  rw [gatherCols_apply, tbl_apply, cl_lit1]

/-- Every pair's order, from the two members' feature rows. -/
def orderArr (P Q : FVec Ideal S16384x20x256 .f32) : FVec Ideal S16384x20 .f32 :=
  shapeCast S16384x20
    (addf (Host.dotGeneral dot_S16384x20x512_S1x512_S16384x20x1_2_1_01_0_n_n none
        (siluArr bcast_S_S16384x20x512
          (addf (Host.dotGeneral dot_S16384x20x256_S512x256_S16384x20x512_2_1_01_0_n_n none (mulf P Q) a8)
            (broadcastInDim S16384x20x512 ![0, 1, 2] bcast_S1x1x512_S16384x20x512_0_1_2
              (broadcastInDim S1x1x512 ![2] bcast_S512_S1x1x512_2 a9)))) a10)
      (broadcastInDim S16384x20x1 ![0, 1, 2] bcast_S1x1x1_S16384x20x1_0_1_2
        (broadcastInDim S1x1x1 ![2] bcast_S1_S1x1x1_2 a11)))
    shapeCasts_S16384x20x1_S16384x20

theorem orderArr_apply (P Q : FVec Ideal S16384x20x256 .f32) (b : Fin 16384) (p : Fin 20) :
    orderArr a8 a9 a10 a11 P Q (ix2 b p)
      = (∑ m : Fin 512, Spec.silu ((∑ h : Fin 256, (P (ix3 b p h) * Q (ix3 b p h)) * a8 (ix2 m h)) + a9 (ix1 m))
          * a10 (ix2 0 m)) + a11 (ix1 0) := by
  unfold orderArr
  rw [reshape_20x1]
  refine (lin_apply _ _ _ _ a10 a11 b p (0 : Fin 1)).trans ?_
  refine congrArg₂ (· + ·) (Finset.sum_congr rfl fun m _ => ?_) rfl
  rw [siluArr_apply]
  refine congrArg (fun z => Spec.silu z * a10 (ix2 0 m)) ?_
  exact lin_apply _ _ _ (mulf P Q) a8 a9 b p m

/-- Every pair's attention score, from the two members' feature rows. -/
def scoreArr (P Q : FVec Ideal S16384x20x256 .f32) : FVec Ideal S16384x20 .f32 :=
  Host.reduceAdd
    (mulf (addf (Host.dotGeneral dot_S16384x20x256_S256x256_S16384x20x256_2_1_01_0_n_n none P a6)
        (broadcastInDim S16384x20x256 ![0, 1, 2] bcast_S1x1x256_S16384x20x256_0_1_2
          (broadcastInDim S1x1x256 ![2] bcast_S256_S1x1x256_2 a7))) Q)
    (constant (F := Ideal) S_ .f32 0x00000000#32) reducesTo_S16384x20x256_S16384x20_d2 h_S_

theorem scoreArr_apply (P Q : FVec Ideal S16384x20x256 .f32) (b : Fin 16384) (p : Fin 20) :
    scoreArr a6 a7 P Q (ix2 b p)
      = ∑ o : Fin 256, ((∑ h : Fin 256, P (ix3 b p h) * a6 (ix2 o h)) + a7 (ix1 o)) * Q (ix3 b p o) := by
  unfold scoreArr
  rw [sum256_apply]
  refine Finset.sum_congr rfl fun o _ => ?_
  rw [mulf_apply]
  refine congrArg (· * Q (ix3 b p o)) ?_
  exact lin_apply _ _ _ P a6 a7 b p o

/-- The largest of each row of four. -/
def mxArr (T : FVec Ideal S16384x5x4 .f32) : FVec Ideal S16384x5 .f32 :=
  maximumf (broadcastInDim S16384x5 ![] bcast_S_S16384x5 (constant (F := Ideal) S_ .f32 0xFF800000#32))
    (Host.reduce FloatOps.maximumf T (constant (F := Ideal) S_ .f32 0xFF800000#32) reducesTo_S16384x5x4_S16384x5_d2 h_S_)

/-- exp (entry − its row's largest). -/
def exArr (T : FVec Ideal S16384x5x4 .f32) : FVec Ideal S16384x5x4 .f32 :=
  Host.exp (subf T (broadcastInDim S16384x5x4 ![0, 1, 2] bcast_S16384x5x1_S16384x5x4_0_1_2
    (broadcastInDim S16384x5x1 ![0, 1] bcast_S16384x5_S16384x5x1_0_1 (mxArr T))))

/-- The soft-max weights of each row of four, formed as e / s. -/
def wtArr (T : FVec Ideal S16384x5x4 .f32) : FVec Ideal S16384x5x4 .f32 :=
  Host.divf (exArr T) (broadcastInDim S16384x5x4 ![0, 1, 2] bcast_S16384x5x1_S16384x5x4_0_1_2
    (broadcastInDim S16384x5x1 ![0, 1] bcast_S16384x5_S16384x5x1_0_1
      (Host.reduceAdd (exArr T) (constant (F := Ideal) S_ .f32 0x00000000#32) reducesTo_S16384x5x4_S16384x5_d2 h_S_)))

theorem hostDivf_apply {s : Shape} (x y : FVec Ideal s .f32) (j : s.Idx) : Host.divf x y j = Ideal.div (x j) (y j) := rfl
theorem hostExp_apply {s : Shape} (x : FVec Ideal s .f32) (j : s.Idx) : Host.exp x j = Ideal.exp (x j) := rfl

theorem mxArr_apply (T : FVec Ideal S16384x5x4 .f32) (b : Fin 16384) (i : Fin 5) :
    mxArr T (ix2 b i) = max (max (max (T (ix3 b i 0)) (T (ix3 b i 1))) (T (ix3 b i 2))) (T (ix3 b i 3)) :=
  max4_apply T b i

theorem exArr_apply (T : FVec Ideal S16384x5x4 .f32) (b : Fin 16384) (i : Fin 5) (k : Fin 4) :
    exArr T (ix3 b i k) = Ideal.exp (T (ix3 b i k) - mxArr T (ix2 b i)) := by
  unfold exArr
  rw [hostExp_apply, subf_apply, bcast54_apply]

theorem wtArr_apply (T : FVec Ideal S16384x5x4 .f32) (b : Fin 16384) (i : Fin 5) (k : Fin 4) :
    wtArr T (ix3 b i k)
      = Ideal.div (exArr T (ix3 b i k)) (exArr T (ix3 b i 0) + exArr T (ix3 b i 1) + exArr T (ix3 b i 2) + exArr T (ix3 b i 3)) := by
  unfold wtArr
  rw [hostDivf_apply, bcast54_apply, sum4_apply]

/-- The soft-max weights of the twenty pairs, from their scores. -/
def smArr (S : FVec Ideal S16384x20 .f32) : FVec Ideal S16384x20 .f32 :=
  shapeCast S16384x20 (wtArr (shapeCast S16384x5x4 S shapeCasts_S16384x20_S16384x5x4)) shapeCasts_S16384x5x4_S16384x20

/-- The sum over the twenty pairs of order × weight, as a column. -/
def outArr (O W : FVec Ideal S16384x20 .f32) : FVec Ideal S16384x1 .f32 :=
  broadcastInDim S16384x1 ![0] bcast_S16384_S16384x1_0
    (Host.reduceAdd (mulf O W) (constant (F := Ideal) S_ .f32 0x00000000#32) reducesTo_S16384x20_S16384_d1 h_S_)

theorem outArr_apply (O W : FVec Ideal S16384x20 .f32) (b : Fin 16384) (z : Fin 1) :
    outArr O W (ix2 b z) = ∑ i : Fin 5, ∑ k : Fin 4, O (ix2 b (pk i k)) * W (ix2 b (pk i k)) := by
  unfold outArr
  rw [bcastOut_apply, sum20_apply, sum_pk]
  rfl

/-- The whole program after the embedding gather. -/
def chain (X : FVec Ideal S16384x5x256 .f32) : FVec Ideal S16384x1 .f32 :=
  outArr
    (orderArr a8 a9 a10 a11 (colI (featArr a2 a3 a4 a5 X)) (colJ (featArr a2 a3 a4 a5 X)))
    (smArr (scoreArr a6 a7 (colI (featArr a2 a3 a4 a5 X)) (colJ (featArr a2 a3 a4 a5 X))))

/-- The program after the embedding gather computes the specification. -/
theorem chain_eq (X : FVec Ideal S16384x5x256 .f32) :
    chain a2 a3 a4 a5 a6 a7 a8 a9 a10 a11 X = Spec.outR a2 a3 a4 a5 a6 a7 a8 a9 a10 a11 X := by
  funext y
  obtain ⟨b, z, rfl⟩ : ∃ (b : Fin 16384) (z : Fin 1), y = ix2 b z := ⟨y 0, y 1, eq_ix2 y⟩
  unfold chain Spec.outR Spec.pairR
  rw [outArr_apply]
  have hy : (ix2 b z : (⟨2, ![16384, 1]⟩ : Shape).Idx) 0 = b := rfl
  rw [hy]
  refine Finset.sum_congr rfl fun i _ => Finset.sum_congr rfl fun k _ => ?_
  unfold Spec.termR
  have hS : ∀ k' : Fin 4,
      shapeCast S16384x5x4 (scoreArr a6 a7 (colI (featArr a2 a3 a4 a5 X)) (colJ (featArr a2 a3 a4 a5 X)))
        shapeCasts_S16384x20_S16384x5x4 (ix3 b i k')
        = Spec.score (fun o h => a6 (ix2 o h)) (fun o => a7 (ix1 o)) (Spec.feats a2 a3 a4 a5 X b) i (Spec.oth i k') := fun k' => by
    rw [reshape_5x4, scoreArr_apply]
    unfold Spec.score Spec.wa
    simp only [colI_apply, colJ_apply, featArr_apply]
  have hE : ∀ k' : Fin 4,
      exArr (shapeCast S16384x5x4 (scoreArr a6 a7 (colI (featArr a2 a3 a4 a5 X)) (colJ (featArr a2 a3 a4 a5 X)))
        shapeCasts_S16384x20_S16384x5x4) (ix3 b i k')
        = Spec.ex (fun o h => a6 (ix2 o h)) (fun o => a7 (ix1 o)) (Spec.feats a2 a3 a4 a5 X b) i k' := fun k' => by
    rw [exArr_apply, mxArr_apply, hS, hS, hS, hS, hS]
    rfl
  refine congrArg₂ (· * ·) ?_ ?_
  · rw [orderArr_apply]
    unfold Spec.order Spec.mlp
    simp only [colI_apply, colJ_apply, featArr_apply]
  · unfold smArr
    rw [reshape_20, wtArr_apply, hE, hE, hE, hE, hE]
    rfl

end Stages

/-! ## The program is the composition of its stages -/

section Whole
variable (a0 : IVec S16384x5 32) (a1 : FVec Ideal S131072x256 .f32)
  (a2 : FVec Ideal S512x256 .f32) (a3 : FVec Ideal S512 .f32) (a4 : FVec Ideal S256x512 .f32) (a5 : FVec Ideal S256 .f32)
  (a6 : FVec Ideal S256x256 .f32) (a7 : FVec Ideal S256 .f32) (a8 : FVec Ideal S512x256 .f32) (a9 : FVec Ideal S512 .f32)
  (a10 : FVec Ideal S1x512 .f32) (a11 : FVec Ideal S1 .f32)

theorem featR_eq (X : FVec Ideal S16384x5x256 .f32) : RefRun.featR X a2 a3 a4 a5 = featArr a2 a3 a4 a5 X := rfl
theorem gatherA_eq (H : FVec Ideal S16384x5x256 .f32) : RefRun.gatherA H = colI H := rfl
theorem gatherB_eq (H : FVec Ideal S16384x5x256 .f32) : RefRun.gatherB H = colJ H := rfl
theorem orderR_eq (P Q : FVec Ideal S16384x20x256 .f32) : RefRun.orderR P Q a8 a9 a10 a11 = orderArr a8 a9 a10 a11 P Q := rfl
theorem scoreR_eq (P Q : FVec Ideal S16384x20x256 .f32) : RefRun.scoreR P Q a6 a7 = scoreArr a6 a7 P Q := rfl
theorem softR_eq (S : FVec Ideal S16384x20 .f32) : RefRun.softR S = smArr S := rfl

/-- The reference's value is the specification applied to the gathered embedding rows. -/
theorem refOut_eq :
    RefRun.refOut a0 a1 a2 a3 a4 a5 a6 a7 a8 a9 a10 a11
      = Cert.Spec.outR a2 a3 a4 a5 a6 a7 a8 a9 a10 a11 (RefRun.gathered a0 a1) := by
  have h : RefRun.refOut a0 a1 a2 a3 a4 a5 a6 a7 a8 a9 a10 a11
      = chain a2 a3 a4 a5 a6 a7 a8 a9 a10 a11 (RefRun.gathered a0 a1) := by
    unfold RefRun.refOut
    simp only [featR_eq, gatherA_eq, gatherB_eq, orderR_eq, scoreR_eq, softR_eq]
    rfl
  rw [h]
  exact chain_eq a2 a3 a4 a5 a6 a7 a8 a9 a10 a11 (RefRun.gathered a0 a1)

end Whole

end Cert.ReferenceIdeal.RefValue

end
-- ==== Proof.lean ====
/-
  The certificate's claim.

  Both idealized programs gather the same embedding rows, map each through Linear → SiLU → Linear, and for every
  batch row sum, over the twenty ordered pairs of its five feature rows, the pair's order times its soft-max weight
  (Proof/Spec.lean).  The kernel program's result is read off its two kernels' output arrays (Proof/K0Value.lean,
  Proof/K1Value.lean, Proof/KHost.lean) with each weight formed as e · (1 / s); the reference's result (Proof/RefRun.lean,
  Proof/RefValue.lean) forms it as e / s.  On finite inputs every soft-max denominator is a positive real, so the two
  agree (Proof/Algebra.lean); finiteness of the inputs is the precondition (Proof/PreReal.lean).  The ideal pass rewrote
  nothing, so preservation is trivial; the three frames are the generated ones and the reference's run.
-/
import proofs.«413986_j36318243455110_2_alg».proof.Defs
import proofs.«413986_j36318243455110_2_alg».proof.Proof.Gen.Kernel
import proofs.«413986_j36318243455110_2_alg».proof.Proof.Gen.Kernel.Skeleton
import proofs.«413986_j36318243455110_2_alg».proof.Proof.Gen.Kernel.Launch
import proofs.«413986_j36318243455110_2_alg».proof.Proof.Gen.Kernel.Points
import proofs.«413986_j36318243455110_2_alg».proof.Proof.Gen.Kernel.Frame
import proofs.«413986_j36318243455110_2_alg».proof.Proof.Gen.KernelIdeal
import proofs.«413986_j36318243455110_2_alg».proof.Proof.Gen.KernelIdeal.Skeleton
import proofs.«413986_j36318243455110_2_alg».proof.Proof.Gen.KernelIdeal.Launch
import proofs.«413986_j36318243455110_2_alg».proof.Proof.Gen.KernelIdeal.Points
import proofs.«413986_j36318243455110_2_alg».proof.Proof.Gen.KernelIdeal.Frame
import proofs.«413986_j36318243455110_2_alg».proof.Proof.Gen.ReferenceIdeal
import proofs.«413986_j36318243455110_2_alg».proof.Proof.Gen.Pre_finite_inputs
import proofs.«413986_j36318243455110_2_alg».proof.Proof.Spec
import proofs.«413986_j36318243455110_2_alg».proof.Proof.Algebra
import proofs.«413986_j36318243455110_2_alg».proof.Proof.PreReal
import proofs.«413986_j36318243455110_2_alg».proof.Proof.KRun
import proofs.«413986_j36318243455110_2_alg».proof.Proof.KHost
import proofs.«413986_j36318243455110_2_alg».proof.Proof.RefTerm
import proofs.«413986_j36318243455110_2_alg».proof.Proof.RefRun
import proofs.«413986_j36318243455110_2_alg».proof.Proof.RefValue
import Idealize.ShloMosaic.Adequacy
import Idealize.ShloMosaic.Init

noncomputable section

namespace Cert.Proof

open Idealize.ShloMosaic Idealize.SL.Sem

/-- The kernel program's frame: the generated one. -/
theorem frame_k : Cert.frame_Kernel := fun m ρ _ => Cert.Kernel.Gen.frame m ρ

/-- The idealized kernel program's frame: the generated one. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- The embedding gather is the same term in the two programs. -/
theorem gathered_eq (a0 : IVec Cert.KernelIdeal.S16384x5 32) (a1 : FVec Ideal Cert.KernelIdeal.S131072x256 .f32) :
    Cert.ReferenceIdeal.RefRun.gathered a0 a1 = Cert.KernelIdeal.KHost.gatheredK a0 a1 := rfl

/-- A gathered entry is an entry of the table. -/
theorem gathered_real (a0 : IVec Cert.KernelIdeal.S16384x5 32) (a1 : FVec Ideal Cert.KernelIdeal.S131072x256 .f32)
    (h : ∀ i, Cert.Spec.IsReal (a1 i)) (i : Cert.KernelIdeal.S16384x5x256.Idx) : Cert.Spec.IsReal (Cert.KernelIdeal.KHost.gatheredK a0 a1 i) := by
  unfold Cert.KernelIdeal.KHost.gatheredK Host.gather
  exact h _

/-- At the ideal instance the two programs end with equal result arrays. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (Cert.KernelIdeal.KHost.gatheredK (m ((c.tc : Thread Cert.KernelIdeal.nD Cert.KernelIdeal.τ).loc Cert.KernelIdeal.main_arg0)) (m ((c.tc : Thread Cert.KernelIdeal.nD Cert.KernelIdeal.τ).loc Cert.KernelIdeal.main_arg1))), ?_, ?_⟩
  · exact (θ_run Cert.KernelIdeal.defs _ _).mono (fun r h c => ⟨(h c).1.trans (Cert.KernelIdeal.KHost.kvalue m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11⟩ := hagree c
    rw [h0, h1, h2, h3, h4, h5, h6, h7, h8, h9, h10, h11, Cert.ReferenceIdeal.RefValue.refOut_eq, gathered_eq]
    obtain ⟨r1, r2, r3, r4, r5, r6, r7⟩ := Cert.PreReal.real_of_pre _ _ _ _ _ _ _ _ _ _ _ _ (hpre c)
    exact (Cert.Spec.outK_eq_outR _ _ _ _ _ _ _ _ _ _ _ r2 r3 r4 r5 r6 r7 (gathered_real _ _ r1)).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
